-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x256 : Shape := ⟨3, ![2, 2048, 256]⟩
abbrev S2x2048x2048x8 : Shape := ⟨4, ![2, 2048, 2048, 8]⟩
abbrev S768x256 : Shape := ⟨2, ![768, 256]⟩
abbrev S256x256 : Shape := ⟨2, ![256, 256]⟩
abbrev S256 : Shape := ⟨1, ![256]⟩
abbrev S_ : Shape := ⟨0, ![]⟩

class Facts : Prop where
  bcast_S_S2x2048x256 : S_.BroadcastsInDim S2x2048x256 (![] : Fin 0 → Fin S2x2048x256.rank)
  reducesTo_S2x2048x256_S_d0_1_2 : S2x2048x256.ReducesTo [0, 1, 2] S_
  h_S_ : 0 < S_.numel
  bcast_S_S2x2048x2048x8 : S_.BroadcastsInDim S2x2048x2048x8 (![] : Fin 0 → Fin S2x2048x2048x8.rank)
  reducesTo_S2x2048x2048x8_S_d0_1_2_3 : S2x2048x2048x8.ReducesTo [0, 1, 2, 3] S_
  bcast_S_S768x256 : S_.BroadcastsInDim S768x256 (![] : Fin 0 → Fin S768x256.rank)
  reducesTo_S768x256_S_d0_1 : S768x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S2x2048x256 .f32) (main_arg1 : FVec F S2x2048x2048x8 .f32) (main_arg2 : FVec F S768x256 .f32) (main_arg3 : FVec F S256x256 .f32) (main_arg4 : FVec F S256 .f32) : IVec S_ 1 :=
  let main_v0 : FVec F S2x2048x256 .f32 := Host.absf main_arg0
  let main_cst : FVec F S_ .f32 := constant S_ .f32 0x7F800000#32
  let main_v1 : FVec F S2x2048x256 .f32 := broadcastInDim S2x2048x256 ![] bcast_S_S2x2048x256 main_cst
  let main_v2 : IVec S2x2048x256 1 := cmpf .olt main_v0 main_v1
  let main_c : IVec S_ 1 := constantI S_ 1 1#1
  let main_v3 : IVec S_ 1 := (fun x v => Host.reduce IntOp.andi x v reducesTo_S2x2048x256_S_d0_1_2 h_S_) main_v2 main_c
  let main_v4 : FVec F S2x2048x2048x8 .f32 := Host.absf main_arg1
  let main_cst_0 : FVec F S_ .f32 := constant S_ .f32 0x7F800000#32
  let main_v5 : FVec F S2x2048x2048x8 .f32 := broadcastInDim S2x2048x2048x8 ![] bcast_S_S2x2048x2048x8 main_cst_0
  let main_v6 : IVec S2x2048x2048x8 1 := cmpf .olt main_v4 main_v5
  let main_c_1 : IVec S_ 1 := constantI S_ 1 1#1
  let main_v7 : IVec S_ 1 := (fun x v => Host.reduce IntOp.andi x v reducesTo_S2x2048x2048x8_S_d0_1_2_3 h_S_) main_v6 main_c_1
  let main_v8 : IVec S_ 1 := andi main_v3 main_v7
  let main_v9 : FVec F S768x256 .f32 := Host.absf main_arg2
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S2x2048x256 : Shape := ⟨3, ![2, 2048, 256]⟩
abbrev S2x2048x2048x8 : Shape := ⟨4, ![2, 2048, 2048, 8]⟩
abbrev S768x256 : Shape := ⟨2, ![768, 256]⟩
abbrev S256x256 : Shape := ⟨2, ![256, 256]⟩
abbrev S256 : Shape := ⟨1, ![256]⟩
abbrev S768 : Shape := ⟨1, ![768]⟩
abbrev S256x768 : Shape := ⟨2, ![256, 768]⟩
abbrev S_ : Shape := ⟨0, ![]⟩
abbrev S768x1 : Shape := ⟨2, ![768, 1]⟩
abbrev S2x8x2048x32 : Shape := ⟨4, ![2, 8, 2048, 32]⟩
abbrev S1x512x256 : Shape := ⟨3, ![1, 512, 256]⟩
abbrev S1x8x512x32 : Shape := ⟨4, ![1, 8, 512, 32]⟩
abbrev S512x256 : Shape := ⟨2, ![512, 256]⟩
abbrev S512x768 : Shape := ⟨2, ![512, 768]⟩
abbrev S512x8x32 : Shape := ⟨3, ![512, 8, 32]⟩
abbrev S8x512x32 : Shape := ⟨3, ![8, 512, 32]⟩
abbrev S2x2048x16384 : Shape := ⟨3, ![2, 2048, 16384]⟩
abbrev S1x8x256x32 : Shape := ⟨4, ![1, 8, 256, 32]⟩
abbrev S1x256x2048 : Shape := ⟨3, ![1, 256, 2048]⟩
abbrev S1x256x256 : Shape := ⟨3, ![1, 256, 256]⟩
abbrev S8x256x1 : Shape := ⟨3, ![8, 256, 1]⟩
abbrev S8x256x32 : Shape := ⟨3, ![8, 256, 32]⟩
abbrev S8x256x256 : Shape := ⟨3, ![8, 256, 256]⟩
abbrev S256x2048 : Shape := ⟨2, ![256, 2048]⟩
abbrev S256x256x8 : Shape := ⟨3, ![256, 256, 8]⟩
abbrev S8x256 : Shape := ⟨2, ![8, 256]⟩
abbrev S256x8x32 : Shape := ⟨3, ![256, 8, 32]⟩
abbrev S1x256 : Shape := ⟨2, ![1, 256]⟩

abbrev nBuf : Space → Nat
  | .hbm => 20
  | .vmem => 24
  | .smem => 0
  | _ => 0

abbrev bufTy : (tb : Table) → Fin (tcTables nBuf tb) → BufTy
  | .hbm, ⟨0, _⟩ => ⟨S2x2048x256, .f32⟩
  | .hbm, ⟨1, _⟩ => ⟨S2x2048x2048x8, .f32⟩
  | .hbm, ⟨2, _⟩ => ⟨S768x256, .f32⟩
  | .hbm, ⟨3, _⟩ => ⟨S256x256, .f32⟩
  | .hbm, ⟨4, _⟩ => ⟨S256, .f32⟩
  | .hbm, ⟨5, _⟩ => ⟨S768, .i32⟩
  | .hbm, ⟨6, _⟩ => ⟨S768, .i1⟩
  | .hbm, ⟨7, _⟩ => ⟨S256x768, .f32⟩
  | .hbm, ⟨8, _⟩ => ⟨S_, .i32⟩
  | .hbm, ⟨9, _⟩ => ⟨S768, .i32⟩
  | .hbm, ⟨10, _⟩ => ⟨S768, .i32⟩
  | .hbm, ⟨11, _⟩ => ⟨S768, .i32⟩
  | .hbm, ⟨12, _⟩ => ⟨S768x1, .i32⟩
  | .hbm, ⟨13, _⟩ => ⟨S256x768, .f32⟩
  | .hbm, ⟨14, _⟩ => ⟨S2x8x2048x32, .f32⟩
  | .hbm, ⟨15, _⟩ => ⟨S2x8x2048x32, .f32⟩
  | .hbm, ⟨16, _⟩ => ⟨S2x8x2048x32, .f32⟩
  | .hbm, ⟨17, _⟩ => ⟨S2x2048x16384, .f32⟩
  | .hbm, ⟨18, _⟩ => ⟨S256x256, .f32⟩
  | .hbm, ⟨19, _⟩ => ⟨S2x2048x256, .f32⟩
  | .local _ .vmem, ⟨0, _⟩ => ⟨S1x512x256, .f32⟩
  | .local _ .vmem, ⟨1, _⟩ => ⟨S1x512x256, .f32⟩
  | .local _ .vmem, ⟨2, _⟩ => ⟨S256x768, .f32⟩
  | .local _ .vmem, ⟨3, _⟩ => ⟨S1x8x512x32, .f32⟩
  | .local _ .vmem, ⟨4, _⟩ => ⟨S1x8x512x32, .f32⟩
  | .local _ .vmem, ⟨5, _⟩ => ⟨S1x8x512x32, .f32⟩
  | .local _ .vmem, ⟨6, _⟩ => ⟨S1x8x512x32, .f32⟩
  | .local _ .vmem, ⟨7, _⟩ => ⟨S1x8x512x32, .f32⟩
  | .local _ .vmem, ⟨8, _⟩ => ⟨S1x8x512x32, .f32⟩
  | .local _ .vmem, ⟨9, _⟩ => ⟨S1x8x256x32, .f32⟩
  | .local _ .vmem, ⟨10, _⟩ => ⟨S1x8x256x32, .f32⟩
  | .local _ .vmem, ⟨11, _⟩ => ⟨S1x8x256x32, .f32⟩
  | .local _ .vmem, ⟨12, _⟩ => ⟨S1x8x256x32, .f32⟩
  | .local _ .vmem, ⟨13, _⟩ => ⟨S1x8x256x32, .f32⟩
  | .local _ .vmem, ⟨14, _⟩ => ⟨S1x8x256x32, .f32⟩
  | .local _ .vmem, ⟨15, _⟩ => ⟨S1x256x2048, .f32⟩
  | .local _ .vmem, ⟨16, _⟩ => ⟨S1x256x2048, .f32⟩
  | .local _ .vmem, ⟨17, _⟩ => ⟨S256x256, .f32⟩
  | .local _ .vmem, ⟨18, _⟩ => ⟨S256, .f32⟩
  | .local _ .vmem, ⟨19, _⟩ => ⟨S1x256x256, .f32⟩
  | .local _ .vmem, ⟨20, _⟩ => ⟨S1x256x256, .f32⟩
  | .local _ .vmem, ⟨21, _⟩ => ⟨S8x256x1, .f32⟩
  | .local _ .vmem, ⟨22, _⟩ => ⟨S8x256x1, .f32⟩
  | .local _ .vmem, ⟨23, _⟩ => ⟨S8x256x32, .f32⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_c_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem6_0 : DmaSem sig := 19
abbrev cc1_sem6_1 : DmaSem sig := 20

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x512x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![2, 8, 8], ![false, false, false]⟩

def k1_cond2 (i : grid1.Coords) : BitVec 1 :=
  let arg2 : BitVec 32 := BitVec.ofNat 32 (i 2).val
  let c7_i32 : BitVec 32 := 7#32
  let v50 : BitVec 1 := Scalar.cmpi .eq arg2 c7_i32
  let v51 : BitVec 32 := Scalar.extui v50
  let c0_i32_40 : BitVec 32 := 0#32
  let v52 : BitVec 1 := Scalar.cmpi .ne v51 c0_i32_40
  v52

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg2.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg2.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x8x256x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x8x256x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x8x256x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S1x256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

class Facts₀ : Prop where
  transposes_S768x256_S256x768_1_0 : S768x256.Transposes [1, 0] S256x768
  bcast_S_S768 : S_.BroadcastsInDim S768 (![] : Fin 0 → Fin S768.rank)
  bcast_S768_S768x1_0 : S768.BroadcastsInDim S768x1 (![0] : Fin 1 → Fin S768x1.rank)
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  bitsLt_bf16_f32 : FTy.bits .bf16 < FTy.bits .f32
  inb_S256x768_S256x768_0_0 : ∀ a, (![0, 0] : Fin 2 → Nat) a + S256x768.size a ≤ S256x768.size a
  h_S256x768 : 0 < S256x768.numel
  shapeCasts_S256x768_S256x768 : S256x768.ShapeCasts S256x768
  slices_S512x768_o0_0_S512x256 : S512x768.Slices ![0, 0] S512x256
  slices_S512x768_o0_256_S512x256 : S512x768.Slices ![0, 256] S512x256
  slices_S512x768_o0_512_S512x256 : S512x768.Slices ![0, 512] S512x256
  shapeCasts_S512x256_S512x8x32 : S512x256.ShapeCasts S512x8x32
  transposes_S512x8x32_p1_0_2_S8x512x32 : S512x8x32.Transposes [1, 0, 2] S8x512x32
  inb_S1x8x512x32_S1x8x512x32_0_0_0_0 : ∀ a, (![0, 0, 0, 0] : Fin 4 → Nat) a + S1x8x512x32.size a ≤ S1x8x512x32.size a
  h_S1x8x512x32 : 0 < S1x8x512x32.numel
  shapeCasts_S1x8x512x32_S8x512x32 : S1x8x512x32.ShapeCasts S8x512x32
  shapeCasts_S8x512x32_S1x8x512x32 : S8x512x32.ShapeCasts S1x8x512x32
  shapeCasts_S2x2048x2048x8_S2x2048x16384 : S2x2048x2048x8.ShapeCasts S2x2048x16384
  transposes_S256x256_S256x256_1_0 : S256x256.Transposes [1, 0] S256x256
  inb_S8x256x1_S8x256x1_0_0_0 : ∀ a, (![0, 0, 0] : Fin 3 → Nat) a + S8x256x1.size a ≤ S8x256x1.size a
  h_S8x256x1 : 0 < S8x256x1.numel
  shapeCasts_S8x256x1_S8x256x1 : S8x256x1.ShapeCasts S8x256x1
  inb_S8x256x32_S8x256x32_0_0_0 : ∀ a, (![0, 0, 0] : Fin 3 → Nat) a + S8x256x32.size a ≤ S8x256x32.size a
  h_S8x256x32 : 0 < S8x256x32.numel
  shapeCasts_S8x256x32_S8x256x32 : S8x256x32.ShapeCasts S8x256x32
  inb_S1x8x256x32_S1x8x256x32_0_0_0_0 : ∀ a, (![0, 0, 0, 0] : Fin 4 → Nat) a + S1x8x256x32.size a ≤ S1x8x256x32.size a
  h_S1x8x256x32 : 0 < S1x8x256x32.numel
  shapeCasts_S1x8x256x32_S8x256x32 : S1x8x256x32.ShapeCasts S8x256x32
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S256x256x8 : S256x2048.ShapeCasts S256x256x8
  transposes_S256x256x8_p2_0_1_S8x256x256 : S256x256x8.Transposes [2, 0, 1] S8x256x256
  reduces_S8x256x256_S8x256 : S8x256x256.Reduces [2] S8x256
  shapeCasts_S8x256_S8x256x1 : S8x256.ShapeCasts S8x256x1
  broadcasts_S8x256x1_S8x256x256 : S8x256x1.Broadcasts S8x256x256
  broadcasts_S8x256x1_S8x256x32 : S8x256x1.Broadcasts S8x256x32
  transposes_S8x256x32_p1_0_2_S256x8x32 : S8x256x32.Transposes [1, 0, 2] S256x8x32
  shapeCasts_S256x8x32_S256x256 : S256x8x32.ShapeCasts S256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S256x256 : S1x256.Broadcasts S256x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  gather_S256x768_S768x1_S256x768_0_1_n_n_1_1_2561_wf : GatherDims.WF S256x768 S768x1 S256x768 [0] [1] [] [1] [] 1 ![256, 1]
  dot_S512x256_S256x768_S512x768_1_0_0_1_n_n_wf : DotDims.WF S512x256 S256x768 S512x768 [1] [0] [0] [1] [] []
  dot_S8x256x32_S8x256x32_S8x256x256_2_2_1_1_0_0_wf : DotDims.WF S8x256x32 S8x256x32 S8x256x256 [2] [2] [1] [1] [0] [0]
  dot_S8x256x256_S8x256x32_S8x256x32_2_1_1_2_0_0_wf : DotDims.WF S8x256x256 S8x256x32 S8x256x32 [2] [1] [1] [2] [0] [0]
  dot_S256x256_S256x256_S256x256_1_0_0_1_n_n_wf : DotDims.WF S256x256 S256x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S2x2048x256.size a
  hwx0_0 : ∀ i : grid0.Coords, EltTy.bits .f32 = 32 ∨ (Rect.block (s := S2x2048x256) S1x512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .f32 = 32 ∨ (Rect.block (s := S256x768) S256x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x512x32.size a ≤ S2x8x2048x32.size a
  hwx0_2 : ∀ i : grid0.Coords, EltTy.bits .f32 = 32 ∨ (Rect.block (s := S2x8x2048x32) S1x8x512x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x512x32.size a ≤ S2x8x2048x32.size a
  hwx0_3 : ∀ i : grid0.Coords, EltTy.bits .f32 = 32 ∨ (Rect.block (s := S2x8x2048x32) S1x8x512x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x512x32.size a ≤ S2x8x2048x32.size a
  hwx0_4 : ∀ i : grid0.Coords, EltTy.bits .f32 = 32 ∨ (Rect.block (s := S2x8x2048x32) S1x8x512x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8x256x32.size a ≤ S2x8x2048x32.size a
  hwx1_0 : ∀ i : grid1.Coords, EltTy.bits .f32 = 32 ∨ (Rect.block (s := S2x8x2048x32) S1x8x256x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8x256x32.size a ≤ S2x8x2048x32.size a
  hwx1_1 : ∀ i : grid1.Coords, EltTy.bits .f32 = 32 ∨ (Rect.block (s := S2x8x2048x32) S1x8x256x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8x256x32.size a ≤ S2x8x2048x32.size a
  hwx1_2 : ∀ i : grid1.Coords, EltTy.bits .f32 = 32 ∨ (Rect.block (s := S2x8x2048x32) S1x8x256x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x2048.size a ≤ S2x2048x16384.size a
  hwx1_3 : ∀ i : grid1.Coords, EltTy.bits .f32 = 32 ∨ (Rect.block (s := S2x2048x16384) S1x256x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x256.size a ≤ S2x2048x256.size a
  hwx1_6 : ∀ i : grid1.Coords, EltTy.bits .f32 = 32 ∨ (Rect.block (s := S2x2048x256) S1x256x256.size (cc1_transform_6 i) (hinb1_6 i)).WholeWords (EltTy.packing .f32)

variable [Facts₀]

def gather_S256x768_S768x1_S256x768_0_1_n_n_1_1_2561 : GatherDims S256x768 S768x1 S256x768 where
  offsetDims := [0]
  collapsedSliceDims := [1]
  operandBatchingDims := []
  startIndicesBatchingDims := []
  startIndexMap := [1]
  indexVectorDim := 1
  sliceSizes := ![256, 1]
  wf := gather_S256x768_S768x1_S256x768_0_1_n_n_1_1_2561_wf
def dot_S512x256_S256x768_S512x768_1_0_0_1_n_n : DotDims S512x256 S256x768 S512x768 where
  lhsContracting := [1]
  rhsContracting := [0]
  lhsNonContracting := [0]
  rhsNonContracting := [1]
  lhsBatch := []
  rhsBatch := []
  wf := dot_S512x256_S256x768_S512x768_1_0_0_1_n_n_wf
def dot_S8x256x32_S8x256x32_S8x256x256_2_2_1_1_0_0 : DotDims S8x256x32 S8x256x32 S8x256x256 where
  lhsContracting := [2]
  rhsContracting := [2]
  lhsNonContracting := [1]
  rhsNonContracting := [1]
  lhsBatch := [0]
  rhsBatch := [0]
  wf := dot_S8x256x32_S8x256x32_S8x256x256_2_2_1_1_0_0_wf
def dot_S8x256x256_S8x256x32_S8x256x32_2_1_1_2_0_0 : DotDims S8x256x256 S8x256x32 S8x256x32 where
  lhsContracting := [2]
  rhsContracting := [1]
  lhsNonContracting := [1]
  rhsNonContracting := [2]
  lhsBatch := [0]
  rhsBatch := [0]
  wf := dot_S8x256x256_S8x256x32_S8x256x32_2_1_1_2_0_0_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6_0) S1x8x512x32.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_1) S1x8x512x32.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_2) S1x8x512x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v6_0) S1x8x256x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S1x8x256x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_2) S1x8x256x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1x256x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S2x2048x256 : Shape := ⟨3, ![2, 2048, 256]⟩
abbrev S2x2048x2048x8 : Shape := ⟨4, ![2, 2048, 2048, 8]⟩
abbrev S768x256 : Shape := ⟨2, ![768, 256]⟩
abbrev S256x256 : Shape := ⟨2, ![256, 256]⟩
abbrev S256 : Shape := ⟨1, ![256]⟩
abbrev S2x2048x768 : Shape := ⟨3, ![2, 2048, 768]⟩
abbrev S2x2048x8x96 : Shape := ⟨4, ![2, 2048, 8, 96]⟩
abbrev S2x8x2048x96 : Shape := ⟨4, ![2, 8, 2048, 96]⟩
abbrev S2x8x2048x32 : Shape := ⟨4, ![2, 8, 2048, 32]⟩
abbrev S_ : Shape := ⟨0, ![]⟩
abbrev S2x8x2048x2048 : Shape := ⟨4, ![2, 8, 2048, 2048]⟩
abbrev S2x8x2048 : Shape := ⟨3, ![2, 8, 2048]⟩
abbrev S2x8x2048x1 : Shape := ⟨4, ![2, 8, 2048, 1]⟩
abbrev S2x8x32x2048 : Shape := ⟨4, ![2, 8, 32, 2048]⟩
abbrev S2x2048x8x32 : Shape := ⟨4, ![2, 2048, 8, 32]⟩
abbrev S1x1x256 : Shape := ⟨3, ![1, 1, 256]⟩

abbrev nBuf : Space → Nat
  | .hbm => 38
  | .vmem => 0
  | .smem => 0
  | _ => 0

abbrev bufTy : (tb : Table) → Fin (tcTables nBuf tb) → BufTy
  | .hbm, ⟨0, _⟩ => ⟨S2x2048x256, .f32⟩
  | .hbm, ⟨1, _⟩ => ⟨S2x2048x2048x8, .f32⟩
  | .hbm, ⟨2, _⟩ => ⟨S768x256, .f32⟩
  | .hbm, ⟨3, _⟩ => ⟨S256x256, .f32⟩
  | .hbm, ⟨4, _⟩ => ⟨S256, .f32⟩
  | .hbm, ⟨5, _⟩ => ⟨S2x2048x768, .f32⟩
  | .hbm, ⟨6, _⟩ => ⟨S2x2048x8x96, .f32⟩
  | .hbm, ⟨7, _⟩ => ⟨S2x8x2048x96, .f32⟩
  | .hbm, ⟨8, _⟩ => ⟨S2x8x2048x32, .f32⟩
  | .hbm, ⟨9, _⟩ => ⟨S2x8x2048x32, .f32⟩
  | .hbm, ⟨10, _⟩ => ⟨S2x8x2048x32, .f32⟩
  | .hbm, ⟨11, _⟩ => ⟨S_, .f32⟩
  | .hbm, ⟨12, _⟩ => ⟨S2x8x2048x32, .f32⟩
  | .hbm, ⟨13, _⟩ => ⟨S2x8x2048x32, .f32⟩
  | .hbm, ⟨14, _⟩ => ⟨S2x8x2048x2048, .f32⟩
  | .hbm, ⟨15, _⟩ => ⟨S2x8x2048x2048, .f32⟩
  | .hbm, ⟨16, _⟩ => ⟨S2x8x2048x2048, .f32⟩
  | .hbm, ⟨17, _⟩ => ⟨S_, .f32⟩
  | .hbm, ⟨18, _⟩ => ⟨S2x8x2048, .f32⟩
  | .hbm, ⟨19, _⟩ => ⟨S_, .f32⟩
  | .hbm, ⟨20, _⟩ => ⟨S2x8x2048, .f32⟩
  | .hbm, ⟨21, _⟩ => ⟨S2x8x2048, .f32⟩
  | .hbm, ⟨22, _⟩ => ⟨S2x8x2048x1, .f32⟩
  | .hbm, ⟨23, _⟩ => ⟨S2x8x2048x2048, .f32⟩
  | .hbm, ⟨24, _⟩ => ⟨S2x8x2048x2048, .f32⟩
  | .hbm, ⟨25, _⟩ => ⟨S2x8x2048x2048, .f32⟩
  | .hbm, ⟨26, _⟩ => ⟨S_, .f32⟩
  | .hbm, ⟨27, _⟩ => ⟨S2x8x2048, .f32⟩
  | .hbm, ⟨28, _⟩ => ⟨S2x8x2048x1, .f32⟩
  | .hbm, ⟨29, _⟩ => ⟨S2x8x2048x2048, .f32⟩
  | .hbm, ⟨30, _⟩ => ⟨S2x8x2048x2048, .f32⟩
  | .hbm, ⟨31, _⟩ => ⟨S2x8x32x2048, .f32⟩
  | .hbm, ⟨32, _⟩ => ⟨S2x2048x8x32, .f32⟩
  | .hbm, ⟨33, _⟩ => ⟨S2x2048x256, .f32⟩
  | .hbm, ⟨34, _⟩ => ⟨S2x2048x256, .f32⟩
  | .hbm, ⟨35, _⟩ => ⟨S1x1x256, .f32⟩
  | .hbm, ⟨36, _⟩ => ⟨S2x2048x256, .f32⟩
  | .hbm, ⟨37, _⟩ => ⟨S2x2048x256, .f32⟩
  | _, _ => ⟨S2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  shapeCasts_S2x2048x768_S2x2048x8x96 : S2x2048x768.ShapeCasts S2x2048x8x96
  transposes_S2x2048x8x96_S2x8x2048x96_0_2_1_3 : S2x2048x8x96.Transposes [0, 2, 1, 3] S2x8x2048x96
  slices_S2x8x2048x96_S2x8x2048x32_0_0_0_0 : S2x8x2048x96.Slices ![0, 0, 0, 0] S2x8x2048x32
  slices_S2x8x2048x96_S2x8x2048x32_0_0_0_32 : S2x8x2048x96.Slices ![0, 0, 0, 32] S2x8x2048x32
  slices_S2x8x2048x96_S2x8x2048x32_0_0_0_64 : S2x8x2048x96.Slices ![0, 0, 0, 64] S2x8x2048x32
  bcast_S_S2x8x2048x32 : S_.BroadcastsInDim S2x8x2048x32 (![] : Fin 0 → Fin S2x8x2048x32.rank)
  transposes_S2x2048x2048x8_S2x8x2048x2048_0_3_1_2 : S2x2048x2048x8.Transposes [0, 3, 1, 2] S2x8x2048x2048
  reducesTo_S2x8x2048x2048_S2x8x2048_d3 : S2x8x2048x2048.ReducesTo [3] S2x8x2048
  h_S_ : 0 < S_.numel
  bcast_S_S2x8x2048 : S_.BroadcastsInDim S2x8x2048 (![] : Fin 0 → Fin S2x8x2048.rank)
  bcast_S2x8x2048_S2x8x2048x1_0_1_2 : S2x8x2048.BroadcastsInDim S2x8x2048x1 (![0, 1, 2] : Fin 3 → Fin S2x8x2048x1.rank)
  bcast_S2x8x2048x1_S2x8x2048x2048_0_1_2_3 : S2x8x2048x1.BroadcastsInDim S2x8x2048x2048 (![0, 1, 2, 3] : Fin 4 → Fin S2x8x2048x2048.rank)
  transposes_S2x8x32x2048_S2x2048x8x32_0_3_1_2 : S2x8x32x2048.Transposes [0, 3, 1, 2] S2x2048x8x32
  shapeCasts_S2x2048x8x32_S2x2048x256 : S2x2048x8x32.ShapeCasts S2x2048x256
  bcast_S256_S1x1x256_2 : S256.BroadcastsInDim S1x1x256 (![2] : Fin 1 → Fin S1x1x256.rank)
  bcast_S1x1x256_S2x2048x256_0_1_2 : S1x1x256.BroadcastsInDim S2x2048x256 (![0, 1, 2] : Fin 3 → Fin S2x2048x256.rank)
  dot_S2x2048x256_S768x256_S2x2048x768_2_1_01_0_n_n_wf : DotDims.WF S2x2048x256 S768x256 S2x2048x768 [2] [1] [0, 1] [0] [] []
  dot_S2x8x2048x32_S2x8x2048x32_S2x8x2048x2048_3_3_2_2_01_01_wf : DotDims.WF S2x8x2048x32 S2x8x2048x32 S2x8x2048x2048 [3] [3] [2] [2] [0, 1] [0, 1]
  dot_S2x8x2048x32_S2x8x2048x2048_S2x8x32x2048_2_3_3_2_01_01_wf : DotDims.WF S2x8x2048x32 S2x8x2048x2048 S2x8x32x2048 [2] [3] [3] [2] [0, 1] [0, 1]
  dot_S2x2048x256_S256x256_S2x2048x256_2_1_01_0_n_n_wf : DotDims.WF S2x2048x256 S256x256 S2x2048x256 [2] [1] [0, 1] [0] [] []

variable [Facts₀]

def dot_S2x2048x256_S768x256_S2x2048x768_2_1_01_0_n_n : DotDims S2x2048x256 S768x256 S2x2048x768 where
  lhsContracting := [2]
  rhsContracting := [1]
  lhsNonContracting := [0, 1]
  rhsNonContracting := [0]
  lhsBatch := []
  rhsBatch := []
  wf := dot_S2x2048x256_S768x256_S2x2048x768_2_1_01_0_n_n_wf
def dot_S2x8x2048x32_S2x8x2048x32_S2x8x2048x2048_3_3_2_2_01_01 : DotDims S2x8x2048x32 S2x8x2048x32 S2x8x2048x2048 where
  lhsContracting := [3]
  rhsContracting := [3]
  lhsNonContracting := [2]
  rhsNonContracting := [2]
  lhsBatch := [0, 1]
  rhsBatch := [0, 1]
  wf := dot_S2x8x2048x32_S2x8x2048x32_S2x8x2048x2048_3_3_2_2_01_01_wf
def dot_S2x8x2048x32_S2x8x2048x2048_S2x8x32x2048_2_3_3_2_01_01 : DotDims S2x8x2048x32 S2x8x2048x2048 S2x8x32x2048 where
  lhsContracting := [2]
  rhsContracting := [3]
  lhsNonContracting := [3]
  rhsNonContracting := [2]
  lhsBatch := [0, 1]
  rhsBatch := [0, 1]
  wf := dot_S2x8x2048x32_S2x8x2048x2048_S2x8x32x2048_2_3_3_2_01_01_wf
def dot_S2x2048x256_S256x256_S2x2048x256_2_1_01_0_n_n : DotDims S2x2048x256 S256x256 S2x2048x256 where
  lhsContracting := [2]
  rhsContracting := [1]
  lhsNonContracting := [0, 1]
  rhsNonContracting := [0]
  lhsBatch := []
  rhsBatch := []
  wf := dot_S2x2048x256_S256x256_S2x2048x256_2_1_01_0_n_n_wf

class Facts : Prop extends Facts₀ where

variable [Facts]
-- ==== Proof.K.Reg0.lean ====
/-
  The first kernel region (the fused query / key / value projection), at the contents `V` the region is
  entered with.  At a grid point the body loads its row block of `x` and the whole permuted weight, multiplies
  them once, and stores the three 256-column thirds of the product, each re-laid head-major, whole into the
  three output windows' buffers.  So each output buffer after the body is one function of the two input blocks
  (`out0_2`, `out0_3`, `out0_4`), the inputs are left as found, and nothing is kept between points.
-/
import proofs.«424001_j42949673623_3_alg».proof.Proof.Gen.Kernel.Launch
import proofs.«424001_j42949673623_3_alg».proof.Proof.Gen.Kernel.Skeleton
import proofs.«424001_j42949673623_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of `x` is in its buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight, fetched once, is in its buffer at every point: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each buffer whole. -/
abbrev r0_x : Rect S1x512x256 := Rect.unit (s := S1x512x256) ![0, 0, 0] S1x512x256.size inb_S1x512x256_S1x512x256_0_0_0
abbrev r0_w : Rect S256x768 := Rect.unit (s := S256x768) ![0, 0] S256x768.size inb_S256x768_S256x768_0_0
abbrev r0_o : Rect S1x8x512x32 := Rect.unit (s := S1x8x512x32) ![0, 0, 0, 0] S1x8x512x32.size inb_S1x8x512x32_S1x8x512x32_0_0_0_0

/-- What the body leaves in the query window's buffer: its one whole store. -/
def out0_2 (x0 : Vec F S1x512x256 .f32) (x1 : Vec F S256x768 .f32) : Vec F S1x8x512x32 .f32 :=
  View.canon [⟨r0_o, k0_pay2 (View.ld x0 r0_x) (View.ld x1 r0_w)⟩]
/-- In the key window's buffer. -/
def out0_3 (x0 : Vec F S1x512x256 .f32) (x1 : Vec F S256x768 .f32) : Vec F S1x8x512x32 .f32 :=
  View.canon [⟨r0_o, k0_pay3 (View.ld x0 r0_x) (View.ld x1 r0_w)⟩]
/-- In the value window's buffer. -/
def out0_4 (x0 : Vec F S1x512x256 .f32) (x1 : Vec F S256x768 .f32) : Vec F S1x8x512x32 .f32 :=
  View.canon [⟨r0_o, k0_pay4 (View.ld x0 r0_x) (View.ld x1 r0_w)⟩]

/-- One whole store covers the buffer. -/
theorem cover0_o (p0 : Vec F S1x8x512x32 .f32) (y : S1x8x512x32.Idx) :
    ∃ pc ∈ ([⟨r0_o, p0⟩] : List (View.Piece (Elt F) S1x8x512x32 .f32)), y ∈ pc.1.set :=
  View.cover_of_tiled [⟨r0_o, p0⟩] S1x8x512x32.size (by rfl) y

set_option maxHeartbeats 1000000 in
/-- The body on whole buffers, the inputs at `x0`, `x1` and the outputs at anything, runs to the continuation with
    the inputs as they were and the outputs at `out0_2`, `out0_3`, `out0_4` of the inputs. -/
theorem sound_kernel0 (c : Dev nD) (E : Set ℕ) (i : grid0.Coords) (arg2 : Memref sig .tc .vmem S1x512x256 .f32) (harg2 : arg2.IsWhole) (arg3 : Memref sig .tc .vmem S256x768 .f32) (harg3 : arg3.IsWhole)
    (arg4 : Memref sig .tc .vmem S1x8x512x32 .f32) (harg4 : arg4.IsWhole) (arg5 : Memref sig .tc .vmem S1x8x512x32 .f32) (harg5 : arg5.IsWhole) (arg6 : Memref sig .tc .vmem S1x8x512x32 .f32) (harg6 : arg6.IsWhole)
    (x0 : Vec F S1x512x256 .f32) (x1 : Vec F S256x768 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1) ∗ owns (c : Thread nD τ) arg6 fullShare (out0_4 x0 x1)) -∗ K ⟨⟩))
      ⊢ wp frame (wpE (defs₀ (F := F)) Variants.none c none) E (cc0__qkv_proj_kernel i arg2 harg2 arg3 harg3 arg4 harg4 arg5 harg5 arg6 harg6) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_o _)
  isplitl [H3]
  · iexists _; isplitr
    swap; · iexact H3
    ipureintro
    exact View.read_writes_eq_canon _ _ _ (cover0_o _)
  iexists _; isplitr
  swap; · iexact H4
  ipureintro
  exact View.read_writes_eq_canon _ _ _ (cover0_o _)

/-! ## The proof data and the body obligation -/

/-- The region's proof data on core `c`: the arrays as the region finds them; after the body at point `t` each input's
    buffer at its block and each output's at the body's function of the two input blocks; nothing kept between
    points beyond the scoped rest and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.H

end
-- ==== Proof.K.Reg1Runs.lean ====
/-
  The second kernel region (the attention sweep with the fused output projection): what its case runs share.
  The grid is (batch, query block, key block), the key block innermost.  The body has two conditionals on the key
  block `kv`: at `kv = 0` it resets the three scratch buffers (running maximum, running denominator, running
  numerator), and at `kv = 7` it divides, projects and stores the output block.  Here: the two conditions in
  closed form over the grid, where the output window is idle, and the buffers the body is called with.
-/
import proofs.«424001_j42949673623_3_alg».proof.Proof.K.Reg0

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- The reset's condition: the key block is the first. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The epilogue's condition: the key block is the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Off the last key block the output window is idle: nothing is stored into it and it is not written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
/-- At the last key block it is live. -/
theorem liveAt1_6 : ∀ t : Fin cfg1.N, cond1_1 (grid1.coords t) → cfg1.idle 6 (grid1.coords t) = false := by decide +kernel

/-! ## The buffers the body is called with -/

abbrev ms1_0 (t : Fin cfg1.N) : Memref sig .tc .vmem S1x8x256x32 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x8x256x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8x256x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x256x256 .f32 := win1_6.stage (cfg1.slots t 6)
abbrev hs1_6 (t : Fin cfg1.N) : (ms1_6 t).IsWhole := hstage1_6 ((cfg1.slots t 6).cast nbuf1_6)
/-- The three scratch buffers: the running maximum, the running denominator, the running numerator. -/
abbrev scM1_0 : Memref sig .tc .vmem S8x256x1 .f32 := Memref.whole cc1_scratch0
abbrev scM1_1 : Memref sig .tc .vmem S8x256x1 .f32 := Memref.whole cc1_scratch1
abbrev scM1_2 : Memref sig .tc .vmem S8x256x32 .f32 := Memref.whole cc1_scratch2

/-- The class invariant with the scratch buffers as memrefs owned at some contents: what the body obligation hands
    the body at the region's first point. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f)
          ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.H

end
-- ==== Proof.K.Reg1Step.lean ====
/-
  The attention sweep's body, case by case.  One step of the sweep, on the point's query, key, value and bias blocks
  and the three running quantities the scratch buffers carry: the new running maximum `stepM`, the new running
  denominator `stepL`, the new running numerator `stepA` — the kernel's own arithmetic, by name —, and at the last
  key block the output block `outBlk`.  This module: the step functions, and the body's run at a key block that is
  neither the first nor the last.
-/
import proofs.«424001_j42949673623_3_alg».proof.Proof.K.Reg1Runs
import Idealize.ShloMosaic.Lib.Pipeline.Value

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets, however many axes. -/
theorem hz1 : (![0] : Fin 1 → Nat) = fun _ => 0 := by funext a; fin_cases a <;> rfl
theorem hz2 : (![0, 0] : Fin 2 → Nat) = fun _ => 0 := by funext a; fin_cases a <;> rfl
theorem hz3 : (![0, 0, 0] : Fin 3 → Nat) = fun _ => 0 := by funext a; fin_cases a <;> rfl
theorem hz4 : (![0, 0, 0, 0] : Fin 4 → Nat) = fun _ => 0 := by funext a; fin_cases a <;> rfl

/-- The body's accesses to the scratch buffers and the output block: each whole. -/
abbrev r1_m : Rect S8x256x1 := Rect.unit (s := S8x256x1) ![0, 0, 0] S8x256x1.size inb_S8x256x1_S8x256x1_0_0_0
abbrev r1_a : Rect S8x256x32 := Rect.unit (s := S8x256x32) ![0, 0, 0] S8x256x32.size inb_S8x256x32_S8x256x32_0_0_0
abbrev r1_o : Rect S1x256x256 := Rect.unit (s := S1x256x256) ![0, 0, 0] S1x256x256.size inb_S1x256x256_S1x256x256_0_0_0
/-- One whole store covers its buffer. -/
theorem cover1_m (p : Vec F S8x256x1 .f32) (y : S8x256x1.Idx) :
    ∃ pc ∈ ([⟨r1_m, p⟩] : List (View.Piece (Elt F) S8x256x1 .f32)), y ∈ pc.1.set :=
  View.cover_of_tiled [⟨r1_m, p⟩] S8x256x1.size (by rfl) y
theorem cover1_a (p : Vec F S8x256x32 .f32) (y : S8x256x32.Idx) :
    ∃ pc ∈ ([⟨r1_a, p⟩] : List (View.Piece (Elt F) S8x256x32 .f32)), y ∈ pc.1.set :=
  View.cover_of_tiled [⟨r1_a, p⟩] S8x256x32.size (by rfl) y
theorem cover1_o (p : Vec F S1x256x256 .f32) (y : S1x256x256.Idx) :
    ∃ pc ∈ ([⟨r1_o, p⟩] : List (View.Piece (Elt F) S1x256x256 .f32)), y ∈ pc.1.set :=
  View.cover_of_tiled [⟨r1_o, p⟩] S1x256x256.size (by rfl) y

/-! ## One step of the sweep, as functions of what the body loads -/

/-- The running maximum after the step: the larger of the old one and the block's row maxima. -/
def stepM (q k : Vec F S1x8x256x32 .f32) (b : Vec F S1x256x2048 .f32) (sm : Vec F S8x256x1 .f32) : Vec F S8x256x1 .f32 :=
  k1_pay3 (k1_pay10 q k b sm)
/-- The running denominator after the step: the old one rescaled, plus the block's weights' row sums. -/
def stepL (q k : Vec F S1x8x256x32 .f32) (b : Vec F S1x256x2048 .f32) (sm sl : Vec F S8x256x1 .f32) : Vec F S8x256x1 .f32 :=
  k1_pay1 (k1_pay11 q k b sm sm) (k1_pay12 q k b sm) sl
/-- The running numerator after the step: the old one rescaled, plus the block's weights against its values. -/
def stepA (q k v : Vec F S1x8x256x32 .f32) (b : Vec F S1x256x2048 .f32) (sm : Vec F S8x256x1 .f32) (sa : Vec F S8x256x32 .f32) : Vec F S8x256x32 .f32 :=
  k1_pay2 (k1_pay8 v) (k1_pay11 q k b sm sm) (k1_pay12 q k b sm) sa
/-- The output block: numerator over denominator, heads side by side, projected and shifted. -/
def outBlk (sa : Vec F S8x256x32 .f32) (sl : Vec F S8x256x1 .f32) (wo : Vec F S256x256 .f32) (bo : Vec F S256 .f32) : Vec F S1x256x256 .f32 :=
  k1_pay4 sa sl wo bo

set_option maxHeartbeats 4000000 in
/-- A middle key block: the scratch buffers go from `(sm, sl, sa)` to one step further; every window's buffer is left as
    found, the idle output window's included. -/
theorem kernelRun1_B (c : Dev nD) (i : grid1.Coords) (arg3 : Memref sig .tc .vmem S1x8x256x32 .f32) (harg3 : arg3.IsWhole) (arg4 : Memref sig .tc .vmem S1x8x256x32 .f32) (harg4 : arg4.IsWhole) (arg5 : Memref sig .tc .vmem S1x8x256x32 .f32) (harg5 : arg5.IsWhole) (arg6 : Memref sig .tc .vmem S1x256x2048 .f32) (harg6 : arg6.IsWhole) (arg7 : Memref sig .tc .vmem S256x256 .f32) (harg7 : arg7.IsWhole) (arg8 : Memref sig .tc .vmem S256 .f32) (harg8 : arg8.IsWhole) (arg9 : Memref sig .tc .vmem S1x256x256 .f32) (harg9 : arg9.IsWhole) (arg10 : Memref sig .tc .vmem S8x256x1 .f32) (harg10 : arg10.IsWhole) (arg11 : Memref sig .tc .vmem S8x256x1 .f32) (harg11 : arg11.IsWhole) (arg12 : Memref sig .tc .vmem S8x256x32 .f32) (harg12 : arg12.IsWhole) (hc0 : ¬cond1_0 i) (hc1 : ¬cond1_1 i)
    (x0 x1 x2 : Vec F S1x8x256x32 .f32) (x3 : Vec F S1x256x2048 .f32) (x4 : Vec F S256x256 .f32) (x5 : Vec F S256 .f32) (xi6 : Vec F S1x256x256 .f32) (sm sl : Vec F S8x256x1 .f32) (sa : Vec F S8x256x32 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6
        ∗ owns (c : Thread nD τ) arg10 fullShare sm ∗ owns (c : Thread nD τ) arg11 fullShare sl ∗ owns (c : Thread nD τ) arg12 fullShare sa
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6
            ∗ owns (c : Thread nD τ) arg10 fullShare (stepM x0 x1 x3 sm) ∗ owns (c : Thread nD τ) arg11 fullShare (stepL x0 x1 x3 sm sl) ∗ owns (c : Thread nD τ) arg12 fullShare (stepA x0 x1 x2 x3 sm sa)) -∗ K ⟨⟩))
      ⊢ wp frame (wpE (defs₀ (F := F)) Variants.none c none) E (cc1__flash_attn_kernel i arg3 harg3 arg4 harg4 arg5 harg5 arg6 harg6 arg7 harg7 arg8 harg8 arg9 harg9 arg10 harg10 arg11 harg11 arg12 harg12) K := by
  simp only [cc1__flash_attn_kernel_eq_skeleton]; unfold cc1__flash_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%g0, %hg0, HS0⟩, ⟨%g1, %hg1, HS1⟩, ⟨%g2, %hg2, HS2⟩, Hk⟩
  subst hf0; subst hf1; subst hf2; subst hf3; subst hf4; subst hf5; subst hf6; subst hg0; subst hg1; subst hg2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [HS0]
  · iexists _; isplitr
    swap; · iexact HS0
    ipureintro
    refine (View.read_writes_eq_canon _ _ _ (cover1_m _)).trans ?_
    sl_unfold_words
    rw [View.canon_unit_zero (S := S8x256x1) hz3]
    unfold stepM
    simp only [View.readAt_eq_ld, View.ld_unit_zero (S := S1x8x256x32) hz4, View.ld_unit_zero (S := S1x256x2048) hz3, View.ld_unit_zero (S := S8x256x1) hz3, View.ld_unit_zero (S := S8x256x32) hz3]
  isplitl [HS1]
  · iexists _; isplitr
    swap; · iexact HS1
    ipureintro
    refine (View.read_writes_eq_canon _ _ _ (cover1_m _)).trans ?_
    sl_unfold_words
    rw [View.canon_unit_zero (S := S8x256x1) hz3]
    unfold stepL
    simp only [View.readAt_eq_ld, View.ld_unit_zero (S := S1x8x256x32) hz4, View.ld_unit_zero (S := S1x256x2048) hz3, View.ld_unit_zero (S := S8x256x1) hz3, View.ld_unit_zero (S := S8x256x32) hz3]
  iexists _; isplitr
  swap; · iexact HS2
  ipureintro
  refine (View.read_writes_eq_canon _ _ _ (cover1_a _)).trans ?_
  sl_unfold_words
  rw [View.canon_unit_zero (S := S8x256x32) hz3]
  unfold stepA
  simp only [View.readAt_eq_ld, View.ld_unit_zero (S := S1x8x256x32) hz4, View.ld_unit_zero (S := S1x256x2048) hz3, View.ld_unit_zero (S := S8x256x1) hz3, View.ld_unit_zero (S := S8x256x32) hz3]

end Cert.Kernel.H

end
-- ==== Proof.K.Reg1RunA.lean ====
/-
  The attention sweep's body at a FIRST key block: the scratch buffers, found at anything, are reset to `-∞`, `0`, `0`
  and then take one step; every window's buffer is left as found, the idle output window's included.
-/
import proofs.«424001_j42949673623_3_alg».proof.Proof.K.Reg1Step

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a first key block. -/
theorem kernelRun1_A (c : Dev nD) (i : grid1.Coords) (arg3 : Memref sig .tc .vmem S1x8x256x32 .f32) (harg3 : arg3.IsWhole) (arg4 : Memref sig .tc .vmem S1x8x256x32 .f32) (harg4 : arg4.IsWhole) (arg5 : Memref sig .tc .vmem S1x8x256x32 .f32) (harg5 : arg5.IsWhole) (arg6 : Memref sig .tc .vmem S1x256x2048 .f32) (harg6 : arg6.IsWhole) (arg7 : Memref sig .tc .vmem S256x256 .f32) (harg7 : arg7.IsWhole) (arg8 : Memref sig .tc .vmem S256 .f32) (harg8 : arg8.IsWhole) (arg9 : Memref sig .tc .vmem S1x256x256 .f32) (harg9 : arg9.IsWhole) (arg10 : Memref sig .tc .vmem S8x256x1 .f32) (harg10 : arg10.IsWhole) (arg11 : Memref sig .tc .vmem S8x256x1 .f32) (harg11 : arg11.IsWhole) (arg12 : Memref sig .tc .vmem S8x256x32 .f32) (harg12 : arg12.IsWhole) (hc0 : cond1_0 i) (hc1 : ¬cond1_1 i)
    (x0 x1 x2 : Vec F S1x8x256x32 .f32) (x3 : Vec F S1x256x2048 .f32) (x4 : Vec F S256x256 .f32) (x5 : Vec F S256 .f32) (xi6 : Vec F S1x256x256 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6
            ∗ owns (c : Thread nD τ) arg10 fullShare (stepM x0 x1 x3 k1_pay5) ∗ owns (c : Thread nD τ) arg11 fullShare (stepL x0 x1 x3 k1_pay5 k1_pay6) ∗ owns (c : Thread nD τ) arg12 fullShare (stepA x0 x1 x2 x3 k1_pay5 k1_pay7)) -∗ K ⟨⟩))
      ⊢ wp frame (wpE (defs₀ (F := F)) Variants.none c none) E (cc1__flash_attn_kernel i arg3 harg3 arg4 harg4 arg5 harg5 arg6 harg6 arg7 harg7 arg8 harg8 arg9 harg9 arg10 harg10 arg11 harg11 arg12 harg12) K := by
  simp only [cc1__flash_attn_kernel_eq_skeleton]; unfold cc1__flash_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d0, %g0, -, HS0⟩, ⟨%d1, %g1, -, HS1⟩, ⟨%d2, %g2, -, HS2⟩, Hk⟩
  subst hf0; subst hf1; subst hf2; subst hf3; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [HS0]
  · iexists _; isplitr
    swap; · iexact HS0
    ipureintro
    sl_unfold_words
    refine (View.read_writes_eq_canon _ _ _ (fun y => ⟨_, List.mem_cons_self .., View.mem_set_unit_zero hz3 inb_S8x256x1_S8x256x1_0_0_0 y⟩)).trans ?_
    rw [View.canon_cons_unit_zero (S := S8x256x1) hz3]
    unfold stepM
    simp only [View.readAt_eq_ld, View.ld_unit_zero (S := S1x8x256x32) hz4, View.ld_unit_zero (S := S1x256x2048) hz3, View.ld_unit_zero (S := S8x256x1) hz3, View.ld_unit_zero (S := S8x256x32) hz3, View.ld_unit_zero (S := S256x256) hz2, View.ld_unit_zero (S := S256) hz1, View.ld_unit_zero (S := S1x256x256) hz3, View.readCov_unit_zero (S := S8x256x1) _ hz3, View.readCov_unit_zero (S := S8x256x32) _ hz3]
  isplitl [HS1]
  · iexists _; isplitr
    swap; · iexact HS1
    ipureintro
    sl_unfold_words
    refine (View.read_writes_eq_canon _ _ _ (fun y => ⟨_, List.mem_cons_self .., View.mem_set_unit_zero hz3 inb_S8x256x1_S8x256x1_0_0_0 y⟩)).trans ?_
    rw [View.canon_cons_unit_zero (S := S8x256x1) hz3]
    unfold stepL
    simp only [View.readAt_eq_ld, View.ld_unit_zero (S := S1x8x256x32) hz4, View.ld_unit_zero (S := S1x256x2048) hz3, View.ld_unit_zero (S := S8x256x1) hz3, View.ld_unit_zero (S := S8x256x32) hz3, View.ld_unit_zero (S := S256x256) hz2, View.ld_unit_zero (S := S256) hz1, View.ld_unit_zero (S := S1x256x256) hz3, View.readCov_unit_zero (S := S8x256x1) _ hz3, View.readCov_unit_zero (S := S8x256x32) _ hz3]
  iexists _; isplitr
  swap; · iexact HS2
  ipureintro
  sl_unfold_words
  refine (View.read_writes_eq_canon _ _ _ (fun y => ⟨_, List.mem_cons_self .., View.mem_set_unit_zero hz3 inb_S8x256x32_S8x256x32_0_0_0 y⟩)).trans ?_
  rw [View.canon_cons_unit_zero (S := S8x256x32) hz3]
  unfold stepA
  simp only [View.readAt_eq_ld, View.ld_unit_zero (S := S1x8x256x32) hz4, View.ld_unit_zero (S := S1x256x2048) hz3, View.ld_unit_zero (S := S8x256x1) hz3, View.ld_unit_zero (S := S8x256x32) hz3, View.ld_unit_zero (S := S256x256) hz2, View.ld_unit_zero (S := S256) hz1, View.ld_unit_zero (S := S1x256x256) hz3, View.readCov_unit_zero (S := S8x256x1) _ hz3, View.readCov_unit_zero (S := S8x256x32) _ hz3]

end Cert.Kernel.H

end
-- ==== Proof.K.Reg1RunC.lean ====
/-
  The attention sweep's body at the LAST key block: the scratch buffers take one step from `(sm, sl, sa)`, and the
  output window's buffer, found at anything, is stored whole with numerator over denominator, projected and shifted.
-/
import proofs.«424001_j42949673623_3_alg».proof.Proof.K.Reg1Step

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last key block. -/
theorem kernelRun1_C (c : Dev nD) (i : grid1.Coords) (arg3 : Memref sig .tc .vmem S1x8x256x32 .f32) (harg3 : arg3.IsWhole) (arg4 : Memref sig .tc .vmem S1x8x256x32 .f32) (harg4 : arg4.IsWhole) (arg5 : Memref sig .tc .vmem S1x8x256x32 .f32) (harg5 : arg5.IsWhole) (arg6 : Memref sig .tc .vmem S1x256x2048 .f32) (harg6 : arg6.IsWhole) (arg7 : Memref sig .tc .vmem S256x256 .f32) (harg7 : arg7.IsWhole) (arg8 : Memref sig .tc .vmem S256 .f32) (harg8 : arg8.IsWhole) (arg9 : Memref sig .tc .vmem S1x256x256 .f32) (harg9 : arg9.IsWhole) (arg10 : Memref sig .tc .vmem S8x256x1 .f32) (harg10 : arg10.IsWhole) (arg11 : Memref sig .tc .vmem S8x256x1 .f32) (harg11 : arg11.IsWhole) (arg12 : Memref sig .tc .vmem S8x256x32 .f32) (harg12 : arg12.IsWhole) (hc0 : ¬cond1_0 i) (hc1 : cond1_1 i)
    (x0 x1 x2 : Vec F S1x8x256x32 .f32) (x3 : Vec F S1x256x2048 .f32) (x4 : Vec F S256x256 .f32) (x5 : Vec F S256 .f32) (sm sl : Vec F S8x256x1 .f32) (sa : Vec F S8x256x32 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d)
        ∗ owns (c : Thread nD τ) arg10 fullShare sm ∗ owns (c : Thread nD τ) arg11 fullShare sl ∗ owns (c : Thread nD τ) arg12 fullShare sa
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outBlk (stepA x0 x1 x2 x3 sm sa) (stepL x0 x1 x3 sm sl) x4 x5)
            ∗ owns (c : Thread nD τ) arg10 fullShare (stepM x0 x1 x3 sm) ∗ owns (c : Thread nD τ) arg11 fullShare (stepL x0 x1 x3 sm sl) ∗ owns (c : Thread nD τ) arg12 fullShare (stepA x0 x1 x2 x3 sm sa)) -∗ K ⟨⟩))
      ⊢ wp frame (wpE (defs₀ (F := F)) Variants.none c none) E (cc1__flash_attn_kernel i arg3 harg3 arg4 harg4 arg5 harg5 arg6 harg6 arg7 harg7 arg8 harg8 arg9 harg9 arg10 harg10 arg11 harg11 arg12 harg12) K := by
  simp only [cc1__flash_attn_kernel_eq_skeleton]; unfold cc1__flash_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%g0, %hg0, HS0⟩, ⟨%g1, %hg1, HS1⟩, ⟨%g2, %hg2, HS2⟩, Hk⟩
  subst hf0; subst hf1; subst hf2; subst hf3; subst hf4; subst hf5; subst hg0; subst hg1; subst hg2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover1_o _)).trans ?_
    sl_unfold_words
    rw [View.canon_unit_zero (S := S1x256x256) hz3]
    unfold outBlk stepA stepL
    simp only [View.readAt_eq_ld, View.ld_unit_zero (S := S1x8x256x32) hz4, View.ld_unit_zero (S := S1x256x2048) hz3, View.ld_unit_zero (S := S8x256x1) hz3, View.ld_unit_zero (S := S8x256x32) hz3, View.ld_unit_zero (S := S256x256) hz2, View.ld_unit_zero (S := S256) hz1, View.ld_unit_zero (S := S1x256x256) hz3, View.readCov_unit_zero (S := S8x256x1) _ hz3, View.readCov_unit_zero (S := S8x256x32) _ hz3]
  isplitl [HS0]
  · iexists _; isplitr
    swap; · iexact HS0
    ipureintro
    refine (View.read_writes_eq_canon _ _ _ (cover1_m _)).trans ?_
    sl_unfold_words
    rw [View.canon_unit_zero (S := S8x256x1) hz3]
    unfold stepM
    simp only [View.readAt_eq_ld, View.ld_unit_zero (S := S1x8x256x32) hz4, View.ld_unit_zero (S := S1x256x2048) hz3, View.ld_unit_zero (S := S8x256x1) hz3, View.ld_unit_zero (S := S8x256x32) hz3, View.ld_unit_zero (S := S256x256) hz2, View.ld_unit_zero (S := S256) hz1, View.ld_unit_zero (S := S1x256x256) hz3]
  isplitl [HS1]
  · iexists _; isplitr
    swap; · iexact HS1
    ipureintro
    refine (View.read_writes_eq_canon _ _ _ (cover1_m _)).trans ?_
    sl_unfold_words
    rw [View.canon_unit_zero (S := S8x256x1) hz3]
    unfold stepL
    simp only [View.readAt_eq_ld, View.ld_unit_zero (S := S1x8x256x32) hz4, View.ld_unit_zero (S := S1x256x2048) hz3, View.ld_unit_zero (S := S8x256x1) hz3, View.ld_unit_zero (S := S8x256x32) hz3, View.ld_unit_zero (S := S256x256) hz2, View.ld_unit_zero (S := S256) hz1, View.ld_unit_zero (S := S1x256x256) hz3]
  iexists _; isplitr
  swap; · iexact HS2
  ipureintro
  refine (View.read_writes_eq_canon _ _ _ (cover1_a _)).trans ?_
  sl_unfold_words
  rw [View.canon_unit_zero (S := S8x256x32) hz3]
  unfold stepA
  simp only [View.readAt_eq_ld, View.ld_unit_zero (S := S1x8x256x32) hz4, View.ld_unit_zero (S := S1x256x2048) hz3, View.ld_unit_zero (S := S8x256x1) hz3, View.ld_unit_zero (S := S8x256x32) hz3, View.ld_unit_zero (S := S256x256) hz2, View.ld_unit_zero (S := S256) hz1, View.ld_unit_zero (S := S1x256x256) hz3]

end Cert.Kernel.H

end
-- ==== Proof.K.Reg1.lean ====
/-
  The attention sweep as a pipeline region: its proof data and body obligation, at the contents `V` the region is
  entered with.  The three scratch buffers are carried from point to point: after point `n` they hold `sAt1 n`, which
  restarts from the reset values (`-∞`, `0`, `0`) at every first key block and otherwise takes one step from what
  the point before left.  The region's invariant holds the scratch buffers at exactly those contents, so the body
  at a point is handed what the point before left.  The output window is stored only at the last key block, where it
  gets numerator over denominator, projected; elsewhere it is idle.
-/
import proofs.«424001_j42949673623_3_alg».proof.Proof.K.Reg1RunA
import proofs.«424001_j42949673623_3_alg».proof.Proof.K.Reg1RunC

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The scratch buffers' contents: running maximum, running denominator, running numerator. -/
abbrev Scr (F : FTy → Type) : Type := Vec F S8x256x1 .f32 × Vec F S8x256x1 .f32 × Vec F S8x256x32 .f32

/-- The reset values. -/
def scr0 : Scr F := (k1_pay5, k1_pay6, k1_pay7)

/-- One step of the sweep at point `t`, on that point's query, key, value and bias blocks. -/
def stepAt (c : Dev nD) (t : Fin cfg1.N) (s : Scr F) : Scr F :=
  (stepM (iblk1 V c 0 t) (iblk1 V c 1 t) (iblk1 V c 3 t) s.1,
   stepL (iblk1 V c 0 t) (iblk1 V c 1 t) (iblk1 V c 3 t) s.1 s.2.1,
   stepA (iblk1 V c 0 t) (iblk1 V c 1 t) (iblk1 V c 2 t) (iblk1 V c 3 t) s.1 s.2.2)

/-- What the scratch buffers hold after point `n`. -/
def sAt1 (c : Dev nD) : (n : ℕ) → n < cfg1.N → Scr F
  | 0, hn => stepAt V c ⟨0, hn⟩ scr0
  | n + 1, hn =>
    if (n + 1) % 8 = 0 then stepAt V c ⟨n + 1, hn⟩ scr0
    else stepAt V c ⟨n + 1, hn⟩ (sAt1 c n (Nat.lt_of_succ_lt hn))

/-- At a first key block the sweep restarts from the reset values. -/
theorem sAt1_first (c : Dev nD) (t : Fin cfg1.N) (h0 : t.val % 8 = 0) :
    sAt1 V c t.val t.isLt = stepAt V c t scr0 := by
  obtain ⟨n, hn⟩ := t
  cases n with
  | zero => rfl
  | succ n => exact if_pos h0

/-- Elsewhere it steps from what the point before left. -/
theorem sAt1_next (c : Dev nD) (t : Fin cfg1.N) (h0 : ¬t.val % 8 = 0) :
    sAt1 V c t.val t.isLt = stepAt V c t (sAt1 V c (t.val - 1) (Nat.lt_of_le_of_lt (Nat.sub_le _ _) t.isLt)) := by
  obtain ⟨n, hn⟩ := t
  cases n with
  | zero => exact absurd (Nat.zero_mod _) h0
  | succ n => exact if_neg h0

/-- The region's invariant before position `n`: at the start the class's (every scoped buffer at anything); afterwards
    the scoped buffers of the other region at anything, the three scratch buffers at what the point before left,
    and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f)
      ∗ owns (c : Thread nD τ) scM1_0 fullShare (sAt1 V c n hn).1 ∗ owns (c : Thread nD τ) scM1_1 fullShare (sAt1 V c n hn).2.1 ∗ owns (c : Thread nD τ) scM1_2 fullShare (sAt1 V c n hn).2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f)
      ∗ owns (c : Thread nD τ) scM1_0 fullShare (sAt1 V c n hn).1 ∗ owns (c : Thread nD τ) scM1_1 fullShare (sAt1 V c n hn).2.1 ∗ owns (c : Thread nD τ) scM1_2 fullShare (sAt1 V c n hn).2.2) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f)
      ∗ owns (c : Thread nD τ) scM1_0 fullShare (sAt1 V c (n - 1) (by omega)).1 ∗ owns (c : Thread nD τ) scM1_1 fullShare (sAt1 V c (n - 1) (by omega)).2.1 ∗ owns (c : Thread nD τ) scM1_2 fullShare (sAt1 V c (n - 1) (by omega)).2.2) ∗ (∃ r, prngReg c r)) := by
  cases n with
  | zero => exact absurd rfl hz
  | succ n => rfl

/-- The region's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outBlk (sAt1 V c t.val t.isLt).2.2 (sAt1 V c t.val t.isLt).2.1 (iblk1 V c 4 t) (iblk1 V c 5 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outBlk (sAt1 V c t.val t.isLt).2.2 (sAt1 V c t.val t.isLt).2.1 (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- An input window is never idle: the body hands its buffer back at the block. -/
theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) : (dat1 V c).leavesExact 4 t = owns (c : Thread nD τ) (ms1_4 t) fullShare (iblk1 V c 4 t) := by
  unfold Dat.leavesExact; rw [liveAt1_4 t, after1_4]
theorem leaves1_5 (c : Dev nD) (t : Fin cfg1.N) : (dat1 V c).leavesExact 5 t = owns (c : Thread nD τ) (ms1_5 t) fullShare (iblk1 V c 5 t) := by
  unfold Dat.leavesExact; rw [liveAt1_5 t, after1_5]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: by the key block, the first (the scratch handed in at anything and reset), the last (the
    output block stored) or one between. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, leaves1_0, leaves1_1, leaves1_2, leaves1_3, leaves1_4, leaves1_5]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 6 t (idleAt1_6 t hc1) (noFlush1_6 t hc1)]
    rw [sAt1_first V c t h0]
    unfold stepAt scr0; (try dsimp only)
    by_cases hz : t.val = 0
    · rw [PhiS1_castSucc V c t, PhiS1_zero V c _ _ hz, PhiA1_eq]
      iintro ⟨⟨⟨A0, A1, A2, A3, A4, A5, A6, A7, A8, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun1_A c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [A0 A1 A2 A3 A4 A5 A6 A7 A8 HS0 HS1 HS2 Hg]
      · isplitl [A0 A1 A2 A3 A4 A5 A6 A7 A8 HS0 HS1 HS2]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]
      iintro ⟨⟨⟨A0, A1, A2, A3, A4, A5, A6, A7, A8, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun1_A c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      iintro ⟨H0, H1, H2, H3, H4, H5, H6, HS0, HS1, HS2⟩
      isplitl [A0 A1 A2 A3 A4 A5 A6 A7 A8 HS0 HS1 HS2 Hg]
      · isplitl [A0 A1 A2 A3 A4 A5 A6 A7 A8 HS0 HS1 HS2]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    have hc0 : ¬cond1_0 (grid1.coords t) := fun h => h0 ((hcond1_0 t).mp h)
    rw [sAt1_next V c t h0]
    unfold stepAt; (try dsimp only)
    rw [PhiS1_castSucc V c t, PhiS1_pos V c _ _ hz]
    by_cases h1 : t.val % 8 = 7
    · have hc1 : cond1_1 (grid1.coords t) := (hcond1_1 t).mpr h1
      rw [show (dat1 V c).leavesExact 6 t = owns (c : Thread nD τ) (ms1_6 t) fullShare ((dat1 V c).after 6 t) from by
        unfold Dat.leavesExact; rw [liveAt1_6 t hc1], after1_6, sAt1_next V c t h0]
      unfold stepAt; (try dsimp only)
      iintro ⟨⟨⟨A0, A1, A2, A3, A4, A5, A6, A7, A8, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun1_C c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      iintro ⟨H0, H1, H2, H3, H4, H5, H6, HS0, HS1, HS2⟩
      isplitl [A0 A1 A2 A3 A4 A5 A6 A7 A8 HS0 HS1 HS2 Hg]
      · isplitl [A0 A1 A2 A3 A4 A5 A6 A7 A8 HS0 HS1 HS2]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond1_1 (grid1.coords t) := fun h => h1 ((hcond1_1 t).mp h)
      rw [Dat.leavesExact_idle (dat1 V c) 6 t (idleAt1_6 t hc1) (noFlush1_6 t hc1)]
      iintro ⟨⟨⟨A0, A1, A2, A3, A4, A5, A6, A7, A8, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun1_B c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [A0 A1 A2 A3 A4 A5 A6 A7 A8 HS0 HS1 HS2 Hg]
      · isplitl [A0 A1 A2 A3 A4 A5 A6 A7 A8 HS0 HS1 HS2]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch buffers' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨A0, A1, A2, A3, A4, A5, A6, A7, A8, HS0, HS1, HS2⟩, Hg⟩
  isplitl [A0 A1 A2 A3 A4 A5 A6 A7 A8 HS0 HS1 HS2]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [HS0]; · iexists _; iexact HS0
    isplitl [HS1]; · iexists _; iexact HS1
    iexists _; iexact HS2
  iexact Hg

end Region1

end Cert.Kernel.H

end
-- ==== Proof.K.Run.lean ====
/-
  The whole run of @main: nine host operations, the projection region, two host operations, the attention region.
  The buffers' contents at each boundary are a fold from the launch memory: a host stretch's operations applied, a
  region's arrays at what its write-backs leave.  Every weakly fair execution terminates with every unscoped buffer
  at the last boundary's contents (`run_all`); no item writes an argument, so the arguments end as launched
  (`frame`), and the result buffer ends at what the attention region's write-backs leave in it.
-/
import proofs.«424001_j42949673623_3_alg».proof.Proof.K.Reg1
import proofs.«424001_j42949673623_3_alg».proof.Proof.Gen.Kernel.Regions

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (r := main_arg0) (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 5).trans (((dat1 (V3 m ρ) c).arrAt_in 5 rfl _).trans (A_eq1 (V3 m ρ) c 5))
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at the contents before it, left with them at
    the contents after it; its arrays split out of the unscoped buffers and put back; the generator register into the
    region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at
    the contents after it; its arrays split out of the unscoped buffers and put back; the generator register into the
    region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1 ∗ Pipeline.scopedRest (Pipeline.pin (pcfgs (F := F)) adm 1).spec c)
        ⊢ (Pipeline.ΦA spec1 c : sProp 𝕄) := by
      unfold Pipeline.ΦA
      iintro ⟨Hp, -, Hr⟩
      isplitl [Hr]; · iexact Hr
      iexact Hp
    exact h.trans (hin1 (V3 m ρ) c)
  hout c := by
    rw [Pipeline.ownSems0_none]
    have h : (Pipeline.ΦA spec1 c : sProp 𝕄)
        ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (V3 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of @main from memory `m` with zero counters terminates, and every final memory has
    every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

/-- The result buffer ends at what the attention region's write-backs leave in it. -/
theorem result : θ_run defs (onTc (τ := τ) (main (F := F))) ⟨m, fun _ => 0, ρ⟩ (fun r => ∀ c : Dev nD,
      r.2.mem ((c.tc : Thread nD τ).loc main_v9) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v9 (by decide))).trans (W4_arr m ρ c 6),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.Kernel.H

end
-- ==== Proof.KI.Reg0.lean ====
/-
  The first kernel region (the fused query / key / value projection), at the contents `V` the region is
  entered with.  At a grid point the body loads its row block of `x` and the whole permuted weight, multiplies
  them once, and stores the three 256-column thirds of the product, each re-laid head-major, whole into the
  three output windows' buffers.  So each output buffer after the body is one function of the two input blocks
  (`out0_2`, `out0_3`, `out0_4`), the inputs are left as found, and nothing is kept between points.
-/
import proofs.«424001_j42949673623_3_alg».proof.Proof.Gen.KernelIdeal.Launch
import proofs.«424001_j42949673623_3_alg».proof.Proof.Gen.KernelIdeal.Skeleton
import proofs.«424001_j42949673623_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of `x` is in its buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight, fetched once, is in its buffer at every point: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each buffer whole. -/
abbrev r0_x : Rect S1x512x256 := Rect.unit (s := S1x512x256) ![0, 0, 0] S1x512x256.size inb_S1x512x256_S1x512x256_0_0_0
abbrev r0_w : Rect S256x768 := Rect.unit (s := S256x768) ![0, 0] S256x768.size inb_S256x768_S256x768_0_0
abbrev r0_o : Rect S1x8x512x32 := Rect.unit (s := S1x8x512x32) ![0, 0, 0, 0] S1x8x512x32.size inb_S1x8x512x32_S1x8x512x32_0_0_0_0

/-- What the body leaves in the query window's buffer: its one whole store. -/
def out0_2 (x0 : Vec F S1x512x256 .f32) (x1 : Vec F S256x768 .f32) : Vec F S1x8x512x32 .f32 :=
  View.canon [⟨r0_o, k0_pay2 (View.ld x0 r0_x) (View.ld x1 r0_w)⟩]
/-- In the key window's buffer. -/
def out0_3 (x0 : Vec F S1x512x256 .f32) (x1 : Vec F S256x768 .f32) : Vec F S1x8x512x32 .f32 :=
  View.canon [⟨r0_o, k0_pay3 (View.ld x0 r0_x) (View.ld x1 r0_w)⟩]
/-- In the value window's buffer. -/
def out0_4 (x0 : Vec F S1x512x256 .f32) (x1 : Vec F S256x768 .f32) : Vec F S1x8x512x32 .f32 :=
  View.canon [⟨r0_o, k0_pay4 (View.ld x0 r0_x) (View.ld x1 r0_w)⟩]

/-- One whole store covers the buffer. -/
theorem cover0_o (p0 : Vec F S1x8x512x32 .f32) (y : S1x8x512x32.Idx) :
    ∃ pc ∈ ([⟨r0_o, p0⟩] : List (View.Piece (Elt F) S1x8x512x32 .f32)), y ∈ pc.1.set :=
  View.cover_of_tiled [⟨r0_o, p0⟩] S1x8x512x32.size (by rfl) y

set_option maxHeartbeats 1000000 in
/-- The body on whole buffers, the inputs at `x0`, `x1` and the outputs at anything, runs to the continuation with
    the inputs as they were and the outputs at `out0_2`, `out0_3`, `out0_4` of the inputs. -/
theorem sound_kernel0 (c : Dev nD) (E : Set ℕ) (i : grid0.Coords) (arg2 : Memref sig .tc .vmem S1x512x256 .f32) (harg2 : arg2.IsWhole) (arg3 : Memref sig .tc .vmem S256x768 .f32) (harg3 : arg3.IsWhole)
    (arg4 : Memref sig .tc .vmem S1x8x512x32 .f32) (harg4 : arg4.IsWhole) (arg5 : Memref sig .tc .vmem S1x8x512x32 .f32) (harg5 : arg5.IsWhole) (arg6 : Memref sig .tc .vmem S1x8x512x32 .f32) (harg6 : arg6.IsWhole)
    (x0 : Vec F S1x512x256 .f32) (x1 : Vec F S256x768 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1) ∗ owns (c : Thread nD τ) arg6 fullShare (out0_4 x0 x1)) -∗ K ⟨⟩))
      ⊢ wp frame (wpE (defs₀ (F := F)) Variants.none c none) E (cc0__qkv_proj_kernel i arg2 harg2 arg3 harg3 arg4 harg4 arg5 harg5 arg6 harg6) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_o _)
  isplitl [H3]
  · iexists _; isplitr
    swap; · iexact H3
    ipureintro
    exact View.read_writes_eq_canon _ _ _ (cover0_o _)
  iexists _; isplitr
  swap; · iexact H4
  ipureintro
  exact View.read_writes_eq_canon _ _ _ (cover0_o _)

/-! ## The proof data and the body obligation -/

/-- The region's proof data on core `c`: the arrays as the region finds them; after the body at point `t` each input's
    buffer at its block and each output's at the body's function of the two input blocks; nothing kept between
    points beyond the scoped rest and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.H

end
-- ==== Proof.KI.Reg1Runs.lean ====
/-
  The second kernel region (the attention sweep with the fused output projection): what its case runs share.
  The grid is (batch, query block, key block), the key block innermost.  The body has two conditionals on the key
  block `kv`: at `kv = 0` it resets the three scratch buffers (running maximum, running denominator, running
  numerator), and at `kv = 7` it divides, projects and stores the output block.  Here: the two conditions in
  closed form over the grid, where the output window is idle, and the buffers the body is called with.
-/
import proofs.«424001_j42949673623_3_alg».proof.Proof.KI.Reg0

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- The reset's condition: the key block is the first. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The epilogue's condition: the key block is the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Off the last key block the output window is idle: nothing is stored into it and it is not written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
/-- At the last key block it is live. -/
theorem liveAt1_6 : ∀ t : Fin cfg1.N, cond1_1 (grid1.coords t) → cfg1.idle 6 (grid1.coords t) = false := by decide +kernel

/-! ## The buffers the body is called with -/

abbrev ms1_0 (t : Fin cfg1.N) : Memref sig .tc .vmem S1x8x256x32 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x8x256x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8x256x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x256x256 .f32 := win1_6.stage (cfg1.slots t 6)
abbrev hs1_6 (t : Fin cfg1.N) : (ms1_6 t).IsWhole := hstage1_6 ((cfg1.slots t 6).cast nbuf1_6)
/-- The three scratch buffers: the running maximum, the running denominator, the running numerator. -/
abbrev scM1_0 : Memref sig .tc .vmem S8x256x1 .f32 := Memref.whole cc1_scratch0
abbrev scM1_1 : Memref sig .tc .vmem S8x256x1 .f32 := Memref.whole cc1_scratch1
abbrev scM1_2 : Memref sig .tc .vmem S8x256x32 .f32 := Memref.whole cc1_scratch2

/-- The class invariant with the scratch buffers as memrefs owned at some contents: what the body obligation hands
    the body at the region's first point. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f)
          ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.H

end
-- ==== Proof.KI.Reg1Step.lean ====
/-
  The attention sweep's body, case by case.  One step of the sweep, on the point's query, key, value and bias blocks
  and the three running quantities the scratch buffers carry: the new running maximum `stepM`, the new running
  denominator `stepL`, the new running numerator `stepA` — the kernel's own arithmetic, by name —, and at the last
  key block the output block `outBlk`.  This module: the step functions, and the body's run at a key block that is
  neither the first nor the last.
-/
import proofs.«424001_j42949673623_3_alg».proof.Proof.KI.Reg1Runs
import Idealize.ShloMosaic.Lib.Pipeline.Value

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets, however many axes. -/
theorem hz1 : (![0] : Fin 1 → Nat) = fun _ => 0 := by funext a; fin_cases a <;> rfl
theorem hz2 : (![0, 0] : Fin 2 → Nat) = fun _ => 0 := by funext a; fin_cases a <;> rfl
theorem hz3 : (![0, 0, 0] : Fin 3 → Nat) = fun _ => 0 := by funext a; fin_cases a <;> rfl
theorem hz4 : (![0, 0, 0, 0] : Fin 4 → Nat) = fun _ => 0 := by funext a; fin_cases a <;> rfl

/-- The body's accesses to the scratch buffers and the output block: each whole. -/
abbrev r1_m : Rect S8x256x1 := Rect.unit (s := S8x256x1) ![0, 0, 0] S8x256x1.size inb_S8x256x1_S8x256x1_0_0_0
abbrev r1_a : Rect S8x256x32 := Rect.unit (s := S8x256x32) ![0, 0, 0] S8x256x32.size inb_S8x256x32_S8x256x32_0_0_0
abbrev r1_o : Rect S1x256x256 := Rect.unit (s := S1x256x256) ![0, 0, 0] S1x256x256.size inb_S1x256x256_S1x256x256_0_0_0
/-- One whole store covers its buffer. -/
theorem cover1_m (p : Vec F S8x256x1 .f32) (y : S8x256x1.Idx) :
    ∃ pc ∈ ([⟨r1_m, p⟩] : List (View.Piece (Elt F) S8x256x1 .f32)), y ∈ pc.1.set :=
  View.cover_of_tiled [⟨r1_m, p⟩] S8x256x1.size (by rfl) y
theorem cover1_a (p : Vec F S8x256x32 .f32) (y : S8x256x32.Idx) :
    ∃ pc ∈ ([⟨r1_a, p⟩] : List (View.Piece (Elt F) S8x256x32 .f32)), y ∈ pc.1.set :=
  View.cover_of_tiled [⟨r1_a, p⟩] S8x256x32.size (by rfl) y
theorem cover1_o (p : Vec F S1x256x256 .f32) (y : S1x256x256.Idx) :
    ∃ pc ∈ ([⟨r1_o, p⟩] : List (View.Piece (Elt F) S1x256x256 .f32)), y ∈ pc.1.set :=
  View.cover_of_tiled [⟨r1_o, p⟩] S1x256x256.size (by rfl) y

/-! ## One step of the sweep, as functions of what the body loads -/

/-- The running maximum after the step: the larger of the old one and the block's row maxima. -/
def stepM (q k : Vec F S1x8x256x32 .f32) (b : Vec F S1x256x2048 .f32) (sm : Vec F S8x256x1 .f32) : Vec F S8x256x1 .f32 :=
  k1_pay3 (k1_pay10 q k b sm)
/-- The running denominator after the step: the old one rescaled, plus the block's weights' row sums. -/
def stepL (q k : Vec F S1x8x256x32 .f32) (b : Vec F S1x256x2048 .f32) (sm sl : Vec F S8x256x1 .f32) : Vec F S8x256x1 .f32 :=
  k1_pay1 (k1_pay11 q k b sm sm) (k1_pay12 q k b sm) sl
/-- The running numerator after the step: the old one rescaled, plus the block's weights against its values. -/
def stepA (q k v : Vec F S1x8x256x32 .f32) (b : Vec F S1x256x2048 .f32) (sm : Vec F S8x256x1 .f32) (sa : Vec F S8x256x32 .f32) : Vec F S8x256x32 .f32 :=
  k1_pay2 (k1_pay8 v) (k1_pay11 q k b sm sm) (k1_pay12 q k b sm) sa
/-- The output block: numerator over denominator, heads side by side, projected and shifted. -/
def outBlk (sa : Vec F S8x256x32 .f32) (sl : Vec F S8x256x1 .f32) (wo : Vec F S256x256 .f32) (bo : Vec F S256 .f32) : Vec F S1x256x256 .f32 :=
  k1_pay4 sa sl wo bo

set_option maxHeartbeats 4000000 in
/-- A middle key block: the scratch buffers go from `(sm, sl, sa)` to one step further; every window's buffer is left as
    found, the idle output window's included. -/
theorem kernelRun1_B (c : Dev nD) (i : grid1.Coords) (arg3 : Memref sig .tc .vmem S1x8x256x32 .f32) (harg3 : arg3.IsWhole) (arg4 : Memref sig .tc .vmem S1x8x256x32 .f32) (harg4 : arg4.IsWhole) (arg5 : Memref sig .tc .vmem S1x8x256x32 .f32) (harg5 : arg5.IsWhole) (arg6 : Memref sig .tc .vmem S1x256x2048 .f32) (harg6 : arg6.IsWhole) (arg7 : Memref sig .tc .vmem S256x256 .f32) (harg7 : arg7.IsWhole) (arg8 : Memref sig .tc .vmem S256 .f32) (harg8 : arg8.IsWhole) (arg9 : Memref sig .tc .vmem S1x256x256 .f32) (harg9 : arg9.IsWhole) (arg10 : Memref sig .tc .vmem S8x256x1 .f32) (harg10 : arg10.IsWhole) (arg11 : Memref sig .tc .vmem S8x256x1 .f32) (harg11 : arg11.IsWhole) (arg12 : Memref sig .tc .vmem S8x256x32 .f32) (harg12 : arg12.IsWhole) (hc0 : ¬cond1_0 i) (hc1 : ¬cond1_1 i)
    (x0 x1 x2 : Vec F S1x8x256x32 .f32) (x3 : Vec F S1x256x2048 .f32) (x4 : Vec F S256x256 .f32) (x5 : Vec F S256 .f32) (xi6 : Vec F S1x256x256 .f32) (sm sl : Vec F S8x256x1 .f32) (sa : Vec F S8x256x32 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6
        ∗ owns (c : Thread nD τ) arg10 fullShare sm ∗ owns (c : Thread nD τ) arg11 fullShare sl ∗ owns (c : Thread nD τ) arg12 fullShare sa
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6
            ∗ owns (c : Thread nD τ) arg10 fullShare (stepM x0 x1 x3 sm) ∗ owns (c : Thread nD τ) arg11 fullShare (stepL x0 x1 x3 sm sl) ∗ owns (c : Thread nD τ) arg12 fullShare (stepA x0 x1 x2 x3 sm sa)) -∗ K ⟨⟩))
      ⊢ wp frame (wpE (defs₀ (F := F)) Variants.none c none) E (cc1__flash_attn_kernel i arg3 harg3 arg4 harg4 arg5 harg5 arg6 harg6 arg7 harg7 arg8 harg8 arg9 harg9 arg10 harg10 arg11 harg11 arg12 harg12) K := by
  simp only [cc1__flash_attn_kernel_eq_skeleton]; unfold cc1__flash_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%g0, %hg0, HS0⟩, ⟨%g1, %hg1, HS1⟩, ⟨%g2, %hg2, HS2⟩, Hk⟩
  subst hf0; subst hf1; subst hf2; subst hf3; subst hf4; subst hf5; subst hf6; subst hg0; subst hg1; subst hg2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [HS0]
  · iexists _; isplitr
    swap; · iexact HS0
    ipureintro
    refine (View.read_writes_eq_canon _ _ _ (cover1_m _)).trans ?_
    sl_unfold_words
    rw [View.canon_unit_zero (S := S8x256x1) hz3]
    unfold stepM
    simp only [View.readAt_eq_ld, View.ld_unit_zero (S := S1x8x256x32) hz4, View.ld_unit_zero (S := S1x256x2048) hz3, View.ld_unit_zero (S := S8x256x1) hz3, View.ld_unit_zero (S := S8x256x32) hz3]
  isplitl [HS1]
  · iexists _; isplitr
    swap; · iexact HS1
    ipureintro
    refine (View.read_writes_eq_canon _ _ _ (cover1_m _)).trans ?_
    sl_unfold_words
    rw [View.canon_unit_zero (S := S8x256x1) hz3]
    unfold stepL
    simp only [View.readAt_eq_ld, View.ld_unit_zero (S := S1x8x256x32) hz4, View.ld_unit_zero (S := S1x256x2048) hz3, View.ld_unit_zero (S := S8x256x1) hz3, View.ld_unit_zero (S := S8x256x32) hz3]
  iexists _; isplitr
  swap; · iexact HS2
  ipureintro
  refine (View.read_writes_eq_canon _ _ _ (cover1_a _)).trans ?_
  sl_unfold_words
  rw [View.canon_unit_zero (S := S8x256x32) hz3]
  unfold stepA
  simp only [View.readAt_eq_ld, View.ld_unit_zero (S := S1x8x256x32) hz4, View.ld_unit_zero (S := S1x256x2048) hz3, View.ld_unit_zero (S := S8x256x1) hz3, View.ld_unit_zero (S := S8x256x32) hz3]

end Cert.KernelIdeal.H

end
-- ==== Proof.KI.Reg1RunA.lean ====
/-
  The attention sweep's body at a FIRST key block: the scratch buffers, found at anything, are reset to `-∞`, `0`, `0`
  and then take one step; every window's buffer is left as found, the idle output window's included.
-/
import proofs.«424001_j42949673623_3_alg».proof.Proof.KI.Reg1Step

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a first key block. -/
theorem kernelRun1_A (c : Dev nD) (i : grid1.Coords) (arg3 : Memref sig .tc .vmem S1x8x256x32 .f32) (harg3 : arg3.IsWhole) (arg4 : Memref sig .tc .vmem S1x8x256x32 .f32) (harg4 : arg4.IsWhole) (arg5 : Memref sig .tc .vmem S1x8x256x32 .f32) (harg5 : arg5.IsWhole) (arg6 : Memref sig .tc .vmem S1x256x2048 .f32) (harg6 : arg6.IsWhole) (arg7 : Memref sig .tc .vmem S256x256 .f32) (harg7 : arg7.IsWhole) (arg8 : Memref sig .tc .vmem S256 .f32) (harg8 : arg8.IsWhole) (arg9 : Memref sig .tc .vmem S1x256x256 .f32) (harg9 : arg9.IsWhole) (arg10 : Memref sig .tc .vmem S8x256x1 .f32) (harg10 : arg10.IsWhole) (arg11 : Memref sig .tc .vmem S8x256x1 .f32) (harg11 : arg11.IsWhole) (arg12 : Memref sig .tc .vmem S8x256x32 .f32) (harg12 : arg12.IsWhole) (hc0 : cond1_0 i) (hc1 : ¬cond1_1 i)
    (x0 x1 x2 : Vec F S1x8x256x32 .f32) (x3 : Vec F S1x256x2048 .f32) (x4 : Vec F S256x256 .f32) (x5 : Vec F S256 .f32) (xi6 : Vec F S1x256x256 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6
            ∗ owns (c : Thread nD τ) arg10 fullShare (stepM x0 x1 x3 k1_pay5) ∗ owns (c : Thread nD τ) arg11 fullShare (stepL x0 x1 x3 k1_pay5 k1_pay6) ∗ owns (c : Thread nD τ) arg12 fullShare (stepA x0 x1 x2 x3 k1_pay5 k1_pay7)) -∗ K ⟨⟩))
      ⊢ wp frame (wpE (defs₀ (F := F)) Variants.none c none) E (cc1__flash_attn_kernel i arg3 harg3 arg4 harg4 arg5 harg5 arg6 harg6 arg7 harg7 arg8 harg8 arg9 harg9 arg10 harg10 arg11 harg11 arg12 harg12) K := by
  simp only [cc1__flash_attn_kernel_eq_skeleton]; unfold cc1__flash_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d0, %g0, -, HS0⟩, ⟨%d1, %g1, -, HS1⟩, ⟨%d2, %g2, -, HS2⟩, Hk⟩
  subst hf0; subst hf1; subst hf2; subst hf3; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [HS0]
  · iexists _; isplitr
    swap; · iexact HS0
    ipureintro
    sl_unfold_words
    refine (View.read_writes_eq_canon _ _ _ (fun y => ⟨_, List.mem_cons_self .., View.mem_set_unit_zero hz3 inb_S8x256x1_S8x256x1_0_0_0 y⟩)).trans ?_
    rw [View.canon_cons_unit_zero (S := S8x256x1) hz3]
    unfold stepM
    simp only [View.readAt_eq_ld, View.ld_unit_zero (S := S1x8x256x32) hz4, View.ld_unit_zero (S := S1x256x2048) hz3, View.ld_unit_zero (S := S8x256x1) hz3, View.ld_unit_zero (S := S8x256x32) hz3, View.ld_unit_zero (S := S256x256) hz2, View.ld_unit_zero (S := S256) hz1, View.ld_unit_zero (S := S1x256x256) hz3, View.readCov_unit_zero (S := S8x256x1) _ hz3, View.readCov_unit_zero (S := S8x256x32) _ hz3]
  isplitl [HS1]
  · iexists _; isplitr
    swap; · iexact HS1
    ipureintro
    sl_unfold_words
    refine (View.read_writes_eq_canon _ _ _ (fun y => ⟨_, List.mem_cons_self .., View.mem_set_unit_zero hz3 inb_S8x256x1_S8x256x1_0_0_0 y⟩)).trans ?_
    rw [View.canon_cons_unit_zero (S := S8x256x1) hz3]
    unfold stepL
    simp only [View.readAt_eq_ld, View.ld_unit_zero (S := S1x8x256x32) hz4, View.ld_unit_zero (S := S1x256x2048) hz3, View.ld_unit_zero (S := S8x256x1) hz3, View.ld_unit_zero (S := S8x256x32) hz3, View.ld_unit_zero (S := S256x256) hz2, View.ld_unit_zero (S := S256) hz1, View.ld_unit_zero (S := S1x256x256) hz3, View.readCov_unit_zero (S := S8x256x1) _ hz3, View.readCov_unit_zero (S := S8x256x32) _ hz3]
  iexists _; isplitr
  swap; · iexact HS2
  ipureintro
  sl_unfold_words
  refine (View.read_writes_eq_canon _ _ _ (fun y => ⟨_, List.mem_cons_self .., View.mem_set_unit_zero hz3 inb_S8x256x32_S8x256x32_0_0_0 y⟩)).trans ?_
  rw [View.canon_cons_unit_zero (S := S8x256x32) hz3]
  unfold stepA
  simp only [View.readAt_eq_ld, View.ld_unit_zero (S := S1x8x256x32) hz4, View.ld_unit_zero (S := S1x256x2048) hz3, View.ld_unit_zero (S := S8x256x1) hz3, View.ld_unit_zero (S := S8x256x32) hz3, View.ld_unit_zero (S := S256x256) hz2, View.ld_unit_zero (S := S256) hz1, View.ld_unit_zero (S := S1x256x256) hz3, View.readCov_unit_zero (S := S8x256x1) _ hz3, View.readCov_unit_zero (S := S8x256x32) _ hz3]

end Cert.KernelIdeal.H

end
-- ==== Proof.KI.Reg1RunC.lean ====
/-
  The attention sweep's body at the LAST key block: the scratch buffers take one step from `(sm, sl, sa)`, and the
  output window's buffer, found at anything, is stored whole with numerator over denominator, projected and shifted.
-/
import proofs.«424001_j42949673623_3_alg».proof.Proof.KI.Reg1Step

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last key block. -/
theorem kernelRun1_C (c : Dev nD) (i : grid1.Coords) (arg3 : Memref sig .tc .vmem S1x8x256x32 .f32) (harg3 : arg3.IsWhole) (arg4 : Memref sig .tc .vmem S1x8x256x32 .f32) (harg4 : arg4.IsWhole) (arg5 : Memref sig .tc .vmem S1x8x256x32 .f32) (harg5 : arg5.IsWhole) (arg6 : Memref sig .tc .vmem S1x256x2048 .f32) (harg6 : arg6.IsWhole) (arg7 : Memref sig .tc .vmem S256x256 .f32) (harg7 : arg7.IsWhole) (arg8 : Memref sig .tc .vmem S256 .f32) (harg8 : arg8.IsWhole) (arg9 : Memref sig .tc .vmem S1x256x256 .f32) (harg9 : arg9.IsWhole) (arg10 : Memref sig .tc .vmem S8x256x1 .f32) (harg10 : arg10.IsWhole) (arg11 : Memref sig .tc .vmem S8x256x1 .f32) (harg11 : arg11.IsWhole) (arg12 : Memref sig .tc .vmem S8x256x32 .f32) (harg12 : arg12.IsWhole) (hc0 : ¬cond1_0 i) (hc1 : cond1_1 i)
    (x0 x1 x2 : Vec F S1x8x256x32 .f32) (x3 : Vec F S1x256x2048 .f32) (x4 : Vec F S256x256 .f32) (x5 : Vec F S256 .f32) (sm sl : Vec F S8x256x1 .f32) (sa : Vec F S8x256x32 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d)
        ∗ owns (c : Thread nD τ) arg10 fullShare sm ∗ owns (c : Thread nD τ) arg11 fullShare sl ∗ owns (c : Thread nD τ) arg12 fullShare sa
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outBlk (stepA x0 x1 x2 x3 sm sa) (stepL x0 x1 x3 sm sl) x4 x5)
            ∗ owns (c : Thread nD τ) arg10 fullShare (stepM x0 x1 x3 sm) ∗ owns (c : Thread nD τ) arg11 fullShare (stepL x0 x1 x3 sm sl) ∗ owns (c : Thread nD τ) arg12 fullShare (stepA x0 x1 x2 x3 sm sa)) -∗ K ⟨⟩))
      ⊢ wp frame (wpE (defs₀ (F := F)) Variants.none c none) E (cc1__flash_attn_kernel i arg3 harg3 arg4 harg4 arg5 harg5 arg6 harg6 arg7 harg7 arg8 harg8 arg9 harg9 arg10 harg10 arg11 harg11 arg12 harg12) K := by
  simp only [cc1__flash_attn_kernel_eq_skeleton]; unfold cc1__flash_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%g0, %hg0, HS0⟩, ⟨%g1, %hg1, HS1⟩, ⟨%g2, %hg2, HS2⟩, Hk⟩
  subst hf0; subst hf1; subst hf2; subst hf3; subst hf4; subst hf5; subst hg0; subst hg1; subst hg2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover1_o _)).trans ?_
    sl_unfold_words
    rw [View.canon_unit_zero (S := S1x256x256) hz3]
    unfold outBlk stepA stepL
    simp only [View.readAt_eq_ld, View.ld_unit_zero (S := S1x8x256x32) hz4, View.ld_unit_zero (S := S1x256x2048) hz3, View.ld_unit_zero (S := S8x256x1) hz3, View.ld_unit_zero (S := S8x256x32) hz3, View.ld_unit_zero (S := S256x256) hz2, View.ld_unit_zero (S := S256) hz1, View.ld_unit_zero (S := S1x256x256) hz3, View.readCov_unit_zero (S := S8x256x1) _ hz3, View.readCov_unit_zero (S := S8x256x32) _ hz3]
  isplitl [HS0]
  · iexists _; isplitr
    swap; · iexact HS0
    ipureintro
    refine (View.read_writes_eq_canon _ _ _ (cover1_m _)).trans ?_
    sl_unfold_words
    rw [View.canon_unit_zero (S := S8x256x1) hz3]
    unfold stepM
    simp only [View.readAt_eq_ld, View.ld_unit_zero (S := S1x8x256x32) hz4, View.ld_unit_zero (S := S1x256x2048) hz3, View.ld_unit_zero (S := S8x256x1) hz3, View.ld_unit_zero (S := S8x256x32) hz3, View.ld_unit_zero (S := S256x256) hz2, View.ld_unit_zero (S := S256) hz1, View.ld_unit_zero (S := S1x256x256) hz3]
  isplitl [HS1]
  · iexists _; isplitr
    swap; · iexact HS1
    ipureintro
    refine (View.read_writes_eq_canon _ _ _ (cover1_m _)).trans ?_
    sl_unfold_words
    rw [View.canon_unit_zero (S := S8x256x1) hz3]
    unfold stepL
    simp only [View.readAt_eq_ld, View.ld_unit_zero (S := S1x8x256x32) hz4, View.ld_unit_zero (S := S1x256x2048) hz3, View.ld_unit_zero (S := S8x256x1) hz3, View.ld_unit_zero (S := S8x256x32) hz3, View.ld_unit_zero (S := S256x256) hz2, View.ld_unit_zero (S := S256) hz1, View.ld_unit_zero (S := S1x256x256) hz3]
  iexists _; isplitr
  swap; · iexact HS2
  ipureintro
  refine (View.read_writes_eq_canon _ _ _ (cover1_a _)).trans ?_
  sl_unfold_words
  rw [View.canon_unit_zero (S := S8x256x32) hz3]
  unfold stepA
  simp only [View.readAt_eq_ld, View.ld_unit_zero (S := S1x8x256x32) hz4, View.ld_unit_zero (S := S1x256x2048) hz3, View.ld_unit_zero (S := S8x256x1) hz3, View.ld_unit_zero (S := S8x256x32) hz3, View.ld_unit_zero (S := S256x256) hz2, View.ld_unit_zero (S := S256) hz1, View.ld_unit_zero (S := S1x256x256) hz3]

end Cert.KernelIdeal.H

end
-- ==== Proof.KI.Reg1.lean ====
/-
  The attention sweep as a pipeline region: its proof data and body obligation, at the contents `V` the region is
  entered with.  The three scratch buffers are carried from point to point: after point `n` they hold `sAt1 n`, which
  restarts from the reset values (`-∞`, `0`, `0`) at every first key block and otherwise takes one step from what
  the point before left.  The region's invariant holds the scratch buffers at exactly those contents, so the body
  at a point is handed what the point before left.  The output window is stored only at the last key block, where it
  gets numerator over denominator, projected; elsewhere it is idle.
-/
import proofs.«424001_j42949673623_3_alg».proof.Proof.KI.Reg1RunA
import proofs.«424001_j42949673623_3_alg».proof.Proof.KI.Reg1RunC

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The scratch buffers' contents: running maximum, running denominator, running numerator. -/
abbrev Scr (F : FTy → Type) : Type := Vec F S8x256x1 .f32 × Vec F S8x256x1 .f32 × Vec F S8x256x32 .f32

/-- The reset values. -/
def scr0 : Scr F := (k1_pay5, k1_pay6, k1_pay7)

/-- One step of the sweep at point `t`, on that point's query, key, value and bias blocks. -/
def stepAt (c : Dev nD) (t : Fin cfg1.N) (s : Scr F) : Scr F :=
  (stepM (iblk1 V c 0 t) (iblk1 V c 1 t) (iblk1 V c 3 t) s.1,
   stepL (iblk1 V c 0 t) (iblk1 V c 1 t) (iblk1 V c 3 t) s.1 s.2.1,
   stepA (iblk1 V c 0 t) (iblk1 V c 1 t) (iblk1 V c 2 t) (iblk1 V c 3 t) s.1 s.2.2)

/-- What the scratch buffers hold after point `n`. -/
def sAt1 (c : Dev nD) : (n : ℕ) → n < cfg1.N → Scr F
  | 0, hn => stepAt V c ⟨0, hn⟩ scr0
  | n + 1, hn =>
    if (n + 1) % 8 = 0 then stepAt V c ⟨n + 1, hn⟩ scr0
    else stepAt V c ⟨n + 1, hn⟩ (sAt1 c n (Nat.lt_of_succ_lt hn))

/-- At a first key block the sweep restarts from the reset values. -/
theorem sAt1_first (c : Dev nD) (t : Fin cfg1.N) (h0 : t.val % 8 = 0) :
    sAt1 V c t.val t.isLt = stepAt V c t scr0 := by
  obtain ⟨n, hn⟩ := t
  cases n with
  | zero => rfl
  | succ n => exact if_pos h0

/-- Elsewhere it steps from what the point before left. -/
theorem sAt1_next (c : Dev nD) (t : Fin cfg1.N) (h0 : ¬t.val % 8 = 0) :
    sAt1 V c t.val t.isLt = stepAt V c t (sAt1 V c (t.val - 1) (Nat.lt_of_le_of_lt (Nat.sub_le _ _) t.isLt)) := by
  obtain ⟨n, hn⟩ := t
  cases n with
  | zero => exact absurd (Nat.zero_mod _) h0
  | succ n => exact if_neg h0

/-- The region's invariant before position `n`: at the start the class's (every scoped buffer at anything); afterwards
    the scoped buffers of the other region at anything, the three scratch buffers at what the point before left,
    and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f)
      ∗ owns (c : Thread nD τ) scM1_0 fullShare (sAt1 V c n hn).1 ∗ owns (c : Thread nD τ) scM1_1 fullShare (sAt1 V c n hn).2.1 ∗ owns (c : Thread nD τ) scM1_2 fullShare (sAt1 V c n hn).2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f)
      ∗ owns (c : Thread nD τ) scM1_0 fullShare (sAt1 V c n hn).1 ∗ owns (c : Thread nD τ) scM1_1 fullShare (sAt1 V c n hn).2.1 ∗ owns (c : Thread nD τ) scM1_2 fullShare (sAt1 V c n hn).2.2) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f)
      ∗ owns (c : Thread nD τ) scM1_0 fullShare (sAt1 V c (n - 1) (by omega)).1 ∗ owns (c : Thread nD τ) scM1_1 fullShare (sAt1 V c (n - 1) (by omega)).2.1 ∗ owns (c : Thread nD τ) scM1_2 fullShare (sAt1 V c (n - 1) (by omega)).2.2) ∗ (∃ r, prngReg c r)) := by
  cases n with
  | zero => exact absurd rfl hz
  | succ n => rfl

/-- The region's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outBlk (sAt1 V c t.val t.isLt).2.2 (sAt1 V c t.val t.isLt).2.1 (iblk1 V c 4 t) (iblk1 V c 5 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outBlk (sAt1 V c t.val t.isLt).2.2 (sAt1 V c t.val t.isLt).2.1 (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- An input window is never idle: the body hands its buffer back at the block. -/
theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) : (dat1 V c).leavesExact 4 t = owns (c : Thread nD τ) (ms1_4 t) fullShare (iblk1 V c 4 t) := by
  unfold Dat.leavesExact; rw [liveAt1_4 t, after1_4]
theorem leaves1_5 (c : Dev nD) (t : Fin cfg1.N) : (dat1 V c).leavesExact 5 t = owns (c : Thread nD τ) (ms1_5 t) fullShare (iblk1 V c 5 t) := by
  unfold Dat.leavesExact; rw [liveAt1_5 t, after1_5]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: by the key block, the first (the scratch handed in at anything and reset), the last (the
    output block stored) or one between. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, leaves1_0, leaves1_1, leaves1_2, leaves1_3, leaves1_4, leaves1_5]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 6 t (idleAt1_6 t hc1) (noFlush1_6 t hc1)]
    rw [sAt1_first V c t h0]
    unfold stepAt scr0; (try dsimp only)
    by_cases hz : t.val = 0
    · rw [PhiS1_castSucc V c t, PhiS1_zero V c _ _ hz, PhiA1_eq]
      iintro ⟨⟨⟨A0, A1, A2, A3, A4, A5, A6, A7, A8, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun1_A c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [A0 A1 A2 A3 A4 A5 A6 A7 A8 HS0 HS1 HS2 Hg]
      · isplitl [A0 A1 A2 A3 A4 A5 A6 A7 A8 HS0 HS1 HS2]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]
      iintro ⟨⟨⟨A0, A1, A2, A3, A4, A5, A6, A7, A8, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun1_A c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      iintro ⟨H0, H1, H2, H3, H4, H5, H6, HS0, HS1, HS2⟩
      isplitl [A0 A1 A2 A3 A4 A5 A6 A7 A8 HS0 HS1 HS2 Hg]
      · isplitl [A0 A1 A2 A3 A4 A5 A6 A7 A8 HS0 HS1 HS2]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    have hc0 : ¬cond1_0 (grid1.coords t) := fun h => h0 ((hcond1_0 t).mp h)
    rw [sAt1_next V c t h0]
    unfold stepAt; (try dsimp only)
    rw [PhiS1_castSucc V c t, PhiS1_pos V c _ _ hz]
    by_cases h1 : t.val % 8 = 7
    · have hc1 : cond1_1 (grid1.coords t) := (hcond1_1 t).mpr h1
      rw [show (dat1 V c).leavesExact 6 t = owns (c : Thread nD τ) (ms1_6 t) fullShare ((dat1 V c).after 6 t) from by
        unfold Dat.leavesExact; rw [liveAt1_6 t hc1], after1_6, sAt1_next V c t h0]
      unfold stepAt; (try dsimp only)
      iintro ⟨⟨⟨A0, A1, A2, A3, A4, A5, A6, A7, A8, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun1_C c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      iintro ⟨H0, H1, H2, H3, H4, H5, H6, HS0, HS1, HS2⟩
      isplitl [A0 A1 A2 A3 A4 A5 A6 A7 A8 HS0 HS1 HS2 Hg]
      · isplitl [A0 A1 A2 A3 A4 A5 A6 A7 A8 HS0 HS1 HS2]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond1_1 (grid1.coords t) := fun h => h1 ((hcond1_1 t).mp h)
      rw [Dat.leavesExact_idle (dat1 V c) 6 t (idleAt1_6 t hc1) (noFlush1_6 t hc1)]
      iintro ⟨⟨⟨A0, A1, A2, A3, A4, A5, A6, A7, A8, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun1_B c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [A0 A1 A2 A3 A4 A5 A6 A7 A8 HS0 HS1 HS2 Hg]
      · isplitl [A0 A1 A2 A3 A4 A5 A6 A7 A8 HS0 HS1 HS2]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch buffers' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨A0, A1, A2, A3, A4, A5, A6, A7, A8, HS0, HS1, HS2⟩, Hg⟩
  isplitl [A0 A1 A2 A3 A4 A5 A6 A7 A8 HS0 HS1 HS2]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [HS0]; · iexists _; iexact HS0
    isplitl [HS1]; · iexists _; iexact HS1
    iexists _; iexact HS2
  iexact Hg

end Region1

end Cert.KernelIdeal.H

end
-- ==== Proof.KI.Run.lean ====
/-
  The whole run of @main: nine host operations, the projection region, two host operations, the attention region.
  The buffers' contents at each boundary are a fold from the launch memory: a host stretch's operations applied, a
  region's arrays at what its write-backs leave.  Every weakly fair execution terminates with every unscoped buffer
  at the last boundary's contents (`run_all`); no item writes an argument, so the arguments end as launched
  (`frame`), and the result buffer ends at what the attention region's write-backs leave in it.
-/
import proofs.«424001_j42949673623_3_alg».proof.Proof.KI.Reg1
import proofs.«424001_j42949673623_3_alg».proof.Proof.Gen.KernelIdeal.Regions

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (r := main_arg0) (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 5).trans (((dat1 (V3 m ρ) c).arrAt_in 5 rfl _).trans (A_eq1 (V3 m ρ) c 5))
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at the contents before it, left with them at
    the contents after it; its arrays split out of the unscoped buffers and put back; the generator register into the
    region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at
    the contents after it; its arrays split out of the unscoped buffers and put back; the generator register into the
    region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1 ∗ Pipeline.scopedRest (Pipeline.pin (pcfgs (F := F)) adm 1).spec c)
        ⊢ (Pipeline.ΦA spec1 c : sProp 𝕄) := by
      unfold Pipeline.ΦA
      iintro ⟨Hp, -, Hr⟩
      isplitl [Hr]; · iexact Hr
      iexact Hp
    exact h.trans (hin1 (V3 m ρ) c)
  hout c := by
    rw [Pipeline.ownSems0_none]
    have h : (Pipeline.ΦA spec1 c : sProp 𝕄)
        ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (V3 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of @main from memory `m` with zero counters terminates, and every final memory has
    every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

/-- The result buffer ends at what the attention region's write-backs leave in it. -/
theorem result : θ_run defs (onTc (τ := τ) (main (F := F))) ⟨m, fun _ => 0, ρ⟩ (fun r => ∀ c : Dev nD,
      r.2.mem ((c.tc : Thread nD τ).loc main_v9) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v9 (by decide))).trans (W4_arr m ρ c 6),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.KernelIdeal.H

end
-- ==== Proof.KI.Reg0Value.lean ====
/-
  The value of the first kernel region (the fused query / key / value projection) over the extended reals: what the
  three output arrays hold after the region, read at an index.  At a grid point (batch `b`, row block `lb`) the body
  multiplies rows `512·lb … 512·lb + 511` of batch `b` of `x` by the whole permuted weight and stores the three
  256-column thirds of the product head-major, so element `(b, h, l, c)` of the query array is the inner product of
  row `(b, l)` of `x` with column `32·h + c` of the weight, of the key array with column `256 + 32·h + c`, of
  the value array with column `512 + 32·h + c`; the blocks of the eight points tile each array; the two inputs are
  left as found.
-/
import proofs.«424001_j42949673623_3_alg».proof.Proof.KI.Reg0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! ## The product at an index -/

/-- The product's dimension numbers, axis by axis: a row of the left operand is a row of the product, -/
theorem qkv_lhs_0 (i : S512x768.Idx) (q : dot_S512x256_S256x768_S512x768_1_0_0_1_n_n.contr.Idx) :
    (dot_S512x256_S256x768_S512x768_1_0_0_1_n_n.lhsIdx i q 0).val = (i 0).val := by
  unfold DotDims.lhsIdx
  rw [dif_neg (show ¬(0 : Fin S512x256.rank) ∈ dot_S512x256_S256x768_S512x768_1_0_0_1_n_n.lhsBatch by decide), dif_pos (show (0 : Fin S512x256.rank) ∈ dot_S512x256_S256x768_S512x768_1_0_0_1_n_n.lhsNonContracting by decide)]
  rfl
/-- its column is summed over, -/
theorem qkv_lhs_1 (i : S512x768.Idx) (q : dot_S512x256_S256x768_S512x768_1_0_0_1_n_n.contr.Idx) :
    (dot_S512x256_S256x768_S512x768_1_0_0_1_n_n.lhsIdx i q 1).val = (q ⟨0, by decide⟩).val :=
  dot_S512x256_S256x768_S512x768_1_0_0_1_n_n.lhsIdx_val_of_single rfl i q
/-- as is the right operand's row, -/
theorem qkv_rhs_0 (i : S512x768.Idx) (q : dot_S512x256_S256x768_S512x768_1_0_0_1_n_n.contr.Idx) :
    (dot_S512x256_S256x768_S512x768_1_0_0_1_n_n.rhsIdx i q 0).val = (q ⟨0, by decide⟩).val :=
  dot_S512x256_S256x768_S512x768_1_0_0_1_n_n.rhsIdx_val_of_single rfl i q
/-- and a column of the right operand is a column of the product. -/
theorem qkv_rhs_1 (i : S512x768.Idx) (q : dot_S512x256_S256x768_S512x768_1_0_0_1_n_n.contr.Idx) :
    (dot_S512x256_S256x768_S512x768_1_0_0_1_n_n.rhsIdx i q 1).val = (i 1).val := by
  unfold DotDims.rhsIdx
  rw [dif_neg (show ¬(1 : Fin S256x768.rank) ∈ dot_S512x256_S256x768_S512x768_1_0_0_1_n_n.rhsBatch by decide), dif_pos (show (1 : Fin S256x768.rank) ∈ dot_S512x256_S256x768_S512x768_1_0_0_1_n_n.rhsNonContracting by decide)]
  rfl

/-- The product of the row block with the weight, at row `r` and column `n`: the inner product of row `r` of the block
    with column `n` of the weight (the narrowing of both operands is the identity on extended reals, the accumulator
    is zero). -/
theorem qkv_prod_apply (x0 : Vec Ideal S1x512x256 .f32) (x1 : Vec Ideal S256x768 .f32) (r : Fin 512) (n : Fin 768) :
    (k0_pay1 x0 x1 : S512x768.Idx → EReal) (ix2 r n) = ∑ e : Fin 256, (x0 (ix3 0 r e) : EReal) * (x1 (ix2 e n) : EReal) := by
  unfold k0_pay1
  refine (Ideal.matmul_constant_zero_apply dot_S512x256_S256x768_S512x768_1_0_0_1_n_n none _ _ (ix2 r n)).trans ?_
  rw [← Equiv.sum_comp (contrEquiv1 dot_S512x256_S256x768_S512x768_1_0_0_1_n_n 256 rfl rfl).symm]
  refine Finset.sum_congr rfl fun e _ => ?_
  have he := contrEquiv1_symm_val dot_S512x256_S256x768_S512x768_1_0_0_1_n_n 256 rfl rfl e
  have el : dot_S512x256_S256x768_S512x768_1_0_0_1_n_n.lhsIdx (ix2 r n) ((contrEquiv1 dot_S512x256_S256x768_S512x768_1_0_0_1_n_n 256 rfl rfl).symm e) = ix2 r e := funext fun a => Fin.ext (by
    match a with
    | ⟨0, _⟩ => exact qkv_lhs_0 _ _
    | ⟨1, _⟩ => exact (qkv_lhs_1 _ _).trans he)
  have er : dot_S512x256_S256x768_S512x768_1_0_0_1_n_n.rhsIdx (ix2 r n) ((contrEquiv1 dot_S512x256_S256x768_S512x768_1_0_0_1_n_n 256 rfl rfl).symm e) = ix2 e n := funext fun a => Fin.ext (by
    match a with
    | ⟨0, _⟩ => exact (qkv_rhs_0 _ _).trans he
    | ⟨1, _⟩ => exact qkv_rhs_1 _ _)
  rw [el, er]
  refine congrArg₂ (· * ·) ?_ ?_
  · show shapeCast S512x256 x0 shapeCasts_S1x512x256_S512x256 (ix2 r e) = x0 (ix3 0 r e)
    exact shapeCast_1ab_ab_apply x0 shapeCasts_S1x512x256_S512x256 r e
  · show shapeCast S256x768 x1 shapeCasts_S256x768_S256x768 (ix2 e n) = x1 (ix2 e n)
    exact congrFun (shapeCast_self x1 shapeCasts_S256x768_S256x768) (ix2 e n)

/-! ## What the body stores, at an index -/

private theorem hz4 : (![0, 0, 0, 0] : Fin 4 → Nat) = fun _ => 0 := funext fun a => by fin_cases a <;> rfl
private theorem hz3 : (![0, 0, 0] : Fin 3 → Nat) = fun _ => 0 := funext fun a => by fin_cases a <;> rfl
private theorem hz2 : (![0, 0] : Fin 2 → Nat) = fun _ => 0 := funext fun a => by fin_cases a <;> rfl

/-- The head-major re-laying of a 256-column third `y` of the product: head `h`, row `r`, lane `cc` reads row `r`,
    column `32·h + cc` of the third. -/
theorem qkv_heads_apply (y : S512x256.Idx → EReal) (h : Fin 8) (r : Fin 512) (cc : Fin 32) :
    shapeCast S1x8x512x32 (transpose S8x512x32 [1, 0, 2] (shapeCast S512x8x32 y shapeCasts_S512x256_S512x8x32) transposes_S512x8x32_p1_0_2_S8x512x32) shapeCasts_S8x512x32_S1x8x512x32 (ix4 0 h r cc)
      = y (ix2 r ⟨32 * h.val + cc.val, by have := h.isLt; have := cc.isLt; omega⟩) := by
  refine (shapeCast_abc_1abc_apply _ shapeCasts_S8x512x32_S1x8x512x32 0 h r cc).trans ?_
  refine (transpose_apply [1, 0, 2] _ transposes_S512x8x32_p1_0_2_S8x512x32 (ix3 h r cc) (ix3 r h cc) (fun b => match b with
    | ⟨0, _⟩ => rfl
    | ⟨1, _⟩ => rfl
    | ⟨2, _⟩ => rfl)).trans ?_
  exact shapeCast_apply y shapeCasts_S512x256_S512x8x32 (ix3 r h cc) (ix2 r ⟨32 * h.val + cc.val, by have := h.isLt; have := cc.isLt; omega⟩)
    (by rw [Shape.rowMajor_val_two, Shape.rowMajor_val_three]
        show r.val * 256 + (32 * h.val + cc.val) = (r.val * 8 + h.val) * 32 + cc.val
        omega)

/-- The query payload at head `h`, row `r`, lane `cc`: row `r` of the block against column `32·h + cc` of the weight. -/
theorem qpay_apply (x0 : Vec Ideal S1x512x256 .f32) (x1 : Vec Ideal S256x768 .f32) (h : Fin 8) (r : Fin 512) (cc : Fin 32) :
    (k0_pay2 x0 x1 : S1x8x512x32.Idx → EReal) (ix4 0 h r cc)
      = ∑ e : Fin 256, (x0 (ix3 0 r e) : EReal) * (x1 (ix2 e ⟨32 * h.val + cc.val, by have := h.isLt; have := cc.isLt; omega⟩) : EReal) := by
  unfold k0_pay2
  refine (qkv_heads_apply _ h r cc).trans ?_
  refine (slice2_axis1_apply 0 (k0_pay1 x0 x1) slices_S512x768_o0_0_S512x256 r ⟨32 * h.val + cc.val, by have := h.isLt; have := cc.isLt; omega⟩
    ⟨32 * h.val + cc.val, by have := h.isLt; have := cc.isLt; omega⟩ (by show 32 * h.val + cc.val = 0 + (32 * h.val + cc.val); omega)).trans ?_
  exact qkv_prod_apply x0 x1 r _

/-- So the query window's buffer after the body, at head `h`, row `r`, lane `cc`. -/
theorem out2_apply (x0 : Vec Ideal S1x512x256 .f32) (x1 : Vec Ideal S256x768 .f32) (h : Fin 8) (r : Fin 512) (cc : Fin 32) :
    (out0_2 x0 x1 : S1x8x512x32.Idx → EReal) (ix4 0 h r cc)
      = ∑ e : Fin 256, (x0 (ix3 0 r e) : EReal) * (x1 (ix2 e ⟨32 * h.val + cc.val, by have := h.isLt; have := cc.isLt; omega⟩) : EReal) := by
  unfold out0_2
  rw [View.canon_unit_zero (S := S1x8x512x32) hz4]
  simp only [View.ld_unit_zero (S := S1x512x256) hz3, View.ld_unit_zero (S := S256x768) hz2]
  exact qpay_apply x0 x1 h r cc

/-- The key payload at head `h`, row `r`, lane `cc`: row `r` of the block against column `256 + 32·h + cc` of the weight. -/
theorem kpay_apply (x0 : Vec Ideal S1x512x256 .f32) (x1 : Vec Ideal S256x768 .f32) (h : Fin 8) (r : Fin 512) (cc : Fin 32) :
    (k0_pay3 x0 x1 : S1x8x512x32.Idx → EReal) (ix4 0 h r cc)
      = ∑ e : Fin 256, (x0 (ix3 0 r e) : EReal) * (x1 (ix2 e ⟨256 + 32 * h.val + cc.val, by have := h.isLt; have := cc.isLt; omega⟩) : EReal) := by
  unfold k0_pay3
  refine (qkv_heads_apply _ h r cc).trans ?_
  refine (slice2_axis1_apply 256 (k0_pay1 x0 x1) slices_S512x768_o0_256_S512x256 r ⟨32 * h.val + cc.val, by have := h.isLt; have := cc.isLt; omega⟩
    ⟨256 + 32 * h.val + cc.val, by have := h.isLt; have := cc.isLt; omega⟩ (by show 256 + 32 * h.val + cc.val = 256 + (32 * h.val + cc.val); omega)).trans ?_
  exact qkv_prod_apply x0 x1 r _

/-- So the key window's buffer after the body, at head `h`, row `r`, lane `cc`. -/
theorem out3_apply (x0 : Vec Ideal S1x512x256 .f32) (x1 : Vec Ideal S256x768 .f32) (h : Fin 8) (r : Fin 512) (cc : Fin 32) :
    (out0_3 x0 x1 : S1x8x512x32.Idx → EReal) (ix4 0 h r cc)
      = ∑ e : Fin 256, (x0 (ix3 0 r e) : EReal) * (x1 (ix2 e ⟨256 + 32 * h.val + cc.val, by have := h.isLt; have := cc.isLt; omega⟩) : EReal) := by
  unfold out0_3
  rw [View.canon_unit_zero (S := S1x8x512x32) hz4]
  simp only [View.ld_unit_zero (S := S1x512x256) hz3, View.ld_unit_zero (S := S256x768) hz2]
  exact kpay_apply x0 x1 h r cc

/-- The value payload at head `h`, row `r`, lane `cc`: row `r` of the block against column `512 + 32·h + cc` of the weight. -/
theorem vpay_apply (x0 : Vec Ideal S1x512x256 .f32) (x1 : Vec Ideal S256x768 .f32) (h : Fin 8) (r : Fin 512) (cc : Fin 32) :
    (k0_pay4 x0 x1 : S1x8x512x32.Idx → EReal) (ix4 0 h r cc)
      = ∑ e : Fin 256, (x0 (ix3 0 r e) : EReal) * (x1 (ix2 e ⟨512 + 32 * h.val + cc.val, by have := h.isLt; have := cc.isLt; omega⟩) : EReal) := by
  unfold k0_pay4
  refine (qkv_heads_apply _ h r cc).trans ?_
  refine (slice2_axis1_apply 512 (k0_pay1 x0 x1) slices_S512x768_o0_512_S512x256 r ⟨32 * h.val + cc.val, by have := h.isLt; have := cc.isLt; omega⟩
    ⟨512 + 32 * h.val + cc.val, by have := h.isLt; have := cc.isLt; omega⟩ (by show 512 + 32 * h.val + cc.val = 512 + (32 * h.val + cc.val); omega)).trans ?_
  exact qkv_prod_apply x0 x1 r _

/-- So the value window's buffer after the body, at head `h`, row `r`, lane `cc`. -/
theorem out4_apply (x0 : Vec Ideal S1x512x256 .f32) (x1 : Vec Ideal S256x768 .f32) (h : Fin 8) (r : Fin 512) (cc : Fin 32) :
    (out0_4 x0 x1 : S1x8x512x32.Idx → EReal) (ix4 0 h r cc)
      = ∑ e : Fin 256, (x0 (ix3 0 r e) : EReal) * (x1 (ix2 e ⟨512 + 32 * h.val + cc.val, by have := h.isLt; have := cc.isLt; omega⟩) : EReal) := by
  unfold out0_4
  rw [View.canon_unit_zero (S := S1x8x512x32) hz4]
  simp only [View.ld_unit_zero (S := S1x512x256) hz3, View.ld_unit_zero (S := S256x768) hz2]
  exact vpay_apply x0 x1 h r cc

/-! ## The blocks the body reads, as entries of the two input arrays -/

section Arrays

variable (V : (c : Dev nD) → (b : Ref sig .tc) → Buf (Elt Ideal) ((c : Thread nD τ).loc b)) (c : Dev nD)

/-- The region leaves `x` as found: its window only stages it. -/
theorem in_arr0 : (dat0 (F := Ideal) V c).arrAt 0 cfg0.N = V c main_arg0 :=
  ((dat0 V c).arrAt_in 0 rfl _).trans (A_eq0 V c 0)

/-- The region leaves the permuted weight as found. -/
theorem in_arr1 : (dat0 (F := Ideal) V c).arrAt 1 cfg0.N = V c main_v5 :=
  ((dat0 V c).arrAt_in 1 rfl _).trans (A_eq0 V c 1)

/-- The index maps over the eight points: the block of `x` is the batch and the row block of the outputs' block, the
    weight's block is the whole weight, the outputs' blocks take every head and every lane, and the three outputs
    move together. -/
theorem idx_facts0 : ∀ t : Fin cfg0.N,
    win0_0.index t (0 : Fin 3) = win0_2.index t (0 : Fin 4)
    ∧ win0_0.index t (1 : Fin 3) = win0_2.index t (2 : Fin 4)
    ∧ win0_0.index t (2 : Fin 3) = 0
    ∧ win0_1.index t (0 : Fin 2) = 0
    ∧ win0_1.index t (1 : Fin 2) = 0
    ∧ win0_2.index t (1 : Fin 4) = 0
    ∧ win0_2.index t (3 : Fin 4) = 0
    ∧ win0_2.index t (0 : Fin 4) ≤ 1
    ∧ win0_2.index t (2 : Fin 4) ≤ 3
    ∧ win0_3.index t = win0_2.index t
    ∧ win0_4.index t = win0_2.index t :=
  (by decide +kernel : ∀ t : Fin grid0.N, _)

/-- Every batch and row block is some point's. -/
theorem idx_onto0 : ∀ (q0 : Fin 2) (q2 : Fin 4), ∃ t : Fin cfg0.N, win0_2.index t = ![q0.val, 0, q2.val, 0] :=
  (by decide +kernel : ∀ (q0 : Fin 2) (q2 : Fin 4), ∃ t : Fin grid0.N, win0_2.index t = ![q0.val, 0, q2.val, 0])

/-- Row `r` of the block of `x` at point `t` is row `512·lb + r` of batch `b` of `x`, `(b, ·, lb, ·)` the outputs' block
    index at `t`. -/
theorem xblk0_apply (t : Fin cfg0.N) (r : Fin 512) (e : Fin 256) (k : S2x2048x256.Idx)
    (hk0 : (k 0).val = win0_2.index t (0 : Fin 4)) (hk1 : (k 1).val = win0_2.index t (2 : Fin 4) * 512 + r.val) (hk2 : (k 2).val = e.val) :
    (iblk0 V c 0 t : S1x512x256.Idx → EReal) (ix3 0 r e) = (V c main_arg0 : S2x2048x256.Idx → EReal) k := by
  obtain ⟨e0, e1, e2, -⟩ := idx_facts0 t
  unfold iblk0
  rw [View.read_apply]
  show V c main_arg0 _ = V c main_arg0 _
  congr 1
  funext a
  apply Fin.ext
  match a with
  | ⟨0, _⟩ => show win0_0.index t (0 : Fin 3) * 1 + 1 * 0 = (k 0).val; omega
  | ⟨1, _⟩ => show win0_0.index t (1 : Fin 3) * 512 + 1 * r.val = (k 1).val; omega
  | ⟨2, _⟩ => show win0_0.index t (2 : Fin 3) * 256 + 1 * e.val = (k 2).val; omega

/-- The weight's block at every point is the weight. -/
theorem wblk0_apply (t : Fin cfg0.N) (e : Fin 256) (n n' : Fin 768) (hn : n'.val = n.val) :
    (iblk0 V c 1 t : S256x768.Idx → EReal) (ix2 e n) = (V c main_v5 : S256x768.Idx → EReal) (ix2 e n') := by
  obtain ⟨-, -, -, e3, e4, -⟩ := idx_facts0 t
  unfold iblk0
  rw [View.read_apply]
  show V c main_v5 _ = V c main_v5 _
  congr 1
  funext a
  apply Fin.ext
  match a with
  | ⟨0, _⟩ => show win0_1.index t (0 : Fin 2) * 256 + 1 * e.val = e.val; omega
  | ⟨1, _⟩ => show win0_1.index t (1 : Fin 2) * 768 + 1 * n.val = n'.val; omega

/-! ## The three output arrays, whole -/

/-- An array of heads of inner products: element `(b, h, l, c)` is row `(b, l)` of `A` against column `col h c` of `W`. -/
def headsArr (A : S2x2048x256.Idx → EReal) (W : S256x768.Idx → EReal) (col : Fin 8 → Fin 32 → Fin 768) : S2x8x2048x32.Idx → EReal :=
  fun i => ∑ e : Fin 256, A (ix3 (⟨(i 0).val, (i 0).isLt⟩ : Fin 2) (⟨(i 2).val, (i 2).isLt⟩ : Fin 2048) e)
    * W (ix2 e (col ⟨(i 1).val, (i 1).isLt⟩ ⟨(i 3).val, (i 3).isLt⟩))

/-- The query's columns of the weight, -/
abbrev qcol (h : Fin 8) (cc : Fin 32) : Fin 768 := ⟨32 * h.val + cc.val, by have := h.isLt; have := cc.isLt; omega⟩
/-- the key's, -/
abbrev kcol (h : Fin 8) (cc : Fin 32) : Fin 768 := ⟨256 + 32 * h.val + cc.val, by have := h.isLt; have := cc.isLt; omega⟩
/-- the value's. -/
abbrev vcol (h : Fin 8) (cc : Fin 32) : Fin 768 := ⟨512 + 32 * h.val + cc.val, by have := h.isLt; have := cc.isLt; omega⟩

/-! ## The query array -/

/-- What point `t` writes back to the query array is its block of the array of heads. -/
theorem flushed2_eq (t : Fin cfg0.N) :
    (dat0 V c).flushed 2 t = ((cfg0.win 2).blk t).view.read (Elt Ideal) (headsArr (V c main_arg0) (V c main_v5) qcol) := by
  show (cfg0.win 2).cut (grid0.coords t) ((dat0 V c).after 2 t) = _
  rw [after0_2]
  obtain ⟨-, -, -, -, -, e5, e6, -⟩ := idx_facts0 t
  funext j
  have hj0 : (j 0).val < 1 := (j 0).isLt
  have hj1 : (j 1).val < 8 := (j 1).isLt
  have hj2 : (j 2).val < 512 := (j 2).isLt
  have hj3 : (j 3).val < 32 := (j 3).isLt
  have hx : (win0_2.xinj (grid0.coords t) j : S1x8x512x32.Idx) = ix4 (0 : Fin 1) (⟨(j 1).val, hj1⟩ : Fin 8) (⟨(j 2).val, hj2⟩ : Fin 512) (⟨(j 3).val, hj3⟩ : Fin 32) := by
    funext a
    apply Fin.ext
    match a with
    | ⟨0, _⟩ => show (j 0).val = 0; omega
    | ⟨1, _⟩ => rfl
    | ⟨2, _⟩ => rfl
    | ⟨3, _⟩ => rfl
  show (out0_2 (iblk0 V c 0 t) (iblk0 V c 1 t) : S1x8x512x32.Idx → EReal) (win0_2.xinj (grid0.coords t) j)
    = headsArr (V c main_arg0) (V c main_v5) qcol (((cfg0.win 2).blk t).view.emb j)
  rw [hx]
  refine (out2_apply _ _ _ _ _).trans ?_
  unfold headsArr
  refine Finset.sum_congr rfl fun e _ => ?_
  refine congrArg₂ (· * ·) ?_ ?_
  · refine xblk0_apply V c t _ e _ ?_ ?_ rfl
    · show win0_2.index t (0 : Fin 4) * 1 + 1 * (j 0).val = win0_2.index t (0 : Fin 4); omega
    · show win0_2.index t (2 : Fin 4) * 512 + 1 * (j 2).val = win0_2.index t (2 : Fin 4) * 512 + (j 2).val; omega
  · refine wblk0_apply V c t e _ _ ?_
    show 32 * (win0_2.index t (1 : Fin 4) * 8 + 1 * (j 1).val) + (win0_2.index t (3 : Fin 4) * 32 + 1 * (j 3).val) = 32 * (j 1).val + (j 3).val
    omega

/-- An index of the query array is in point `t`'s block iff each coordinate is in the block's range on its axis. -/
theorem mem_blk2 (t : Fin cfg0.N) (i : S2x8x2048x32.Idx) :
    i ∈ ((cfg0.win 2).blk t).view.set ↔ ∀ a : Fin 4, win0_2.index t a * S1x8x512x32.size a ≤ (i a).val ∧ (i a).val < win0_2.index t a * S1x8x512x32.size a + S1x8x512x32.size a := by
  show i ∈ ((View.whole main_v6_0).slice (win0_2.rect t)).set ↔ _
  rw [View.set_slice_whole, Rect.mem_set_unit]
  exact Iff.rfl

/-- The eight blocks tile the query array: row `l` of batch `b` is in the block of the point with that batch and row
    block `l / 512`. -/
theorem cover2 (i : S2x8x2048x32.Idx) : ∃ t : Fin cfg0.N, (cfg0.win 2).flush t = true ∧ i ∈ ((cfg0.win 2).blk t).view.set := by
  have hi0 : (i 0).val < 2 := (i 0).isLt
  have hi1 : (i 1).val < 8 := (i 1).isLt
  have hi2 : (i 2).val < 2048 := (i 2).isLt
  have hi3 : (i 3).val < 32 := (i 3).isLt
  obtain ⟨t, ht⟩ := idx_onto0 ⟨(i 0).val, hi0⟩ ⟨(i 2).val / 512, by omega⟩
  have q0 : win0_2.index t (0 : Fin 4) = (i 0).val := congrFun ht 0
  have q1 : win0_2.index t (1 : Fin 4) = 0 := congrFun ht 1
  have q2 : win0_2.index t (2 : Fin 4) = (i 2).val / 512 := congrFun ht 2
  have q3 : win0_2.index t (3 : Fin 4) = 0 := congrFun ht 3
  refine ⟨t, flush0_2 t, ?_⟩
  rw [mem_blk2]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 8 ≤ (i 1).val ∧ (i 1).val < win0_2.index t (1 : Fin 4) * 8 + 8; omega
  | ⟨2, _⟩ => show win0_2.index t (2 : Fin 4) * 512 ≤ (i 2).val ∧ (i 2).val < win0_2.index t (2 : Fin 4) * 512 + 512; omega
  | ⟨3, _⟩ => show win0_2.index t (3 : Fin 4) * 32 ≤ (i 3).val ∧ (i 3).val < win0_2.index t (3 : Fin 4) * 32 + 32; omega

/-- The query array after the region is the array of heads at the query's columns. -/
theorem q_final : (dat0 (F := Ideal) V c).arrAt 2 cfg0.N = headsArr (V c main_arg0) (V c main_v5) qcol :=
  (dat0 V c).arrAt_eq_of_cover 2 (headsArr (V c main_arg0) (V c main_v5) qcol) (fun t _ => flushed2_eq V c t) (cover2)

/-- THE QUERY ARRAY at batch `b`, head `h`, row `l`, lane `cc`: row `(b, l)` of `x` against column `32·h + cc` of the weight. -/
theorem q_arr (b : Fin 2) (h : Fin 8) (l : Fin 2048) (cc : Fin 32) :
    ((dat0 (F := Ideal) V c).arrAt 2 cfg0.N : S2x8x2048x32.Idx → EReal) (ix4 b h l cc)
      = @Finset.sum (Fin 256) EReal _ Finset.univ fun e => @HMul.hMul EReal EReal EReal _ ((V c main_arg0 : S2x2048x256.Idx → EReal) (ix3 b l e))
          ((V c main_v5 : S256x768.Idx → EReal) (ix2 e ⟨32 * h.val + cc.val, by have := h.isLt; have := cc.isLt; omega⟩)) :=
  congrFun (q_final V c) (ix4 b h l cc)

/-! ## The key array -/

/-- What point `t` writes back to the key array is its block of the array of heads. -/
theorem flushed3_eq (t : Fin cfg0.N) :
    (dat0 V c).flushed 3 t = ((cfg0.win 3).blk t).view.read (Elt Ideal) (headsArr (V c main_arg0) (V c main_v5) kcol) := by
  show (cfg0.win 3).cut (grid0.coords t) ((dat0 V c).after 3 t) = _
  rw [after0_3]
  obtain ⟨-, -, -, -, -, e5, e6, -, -, e9, e10⟩ := idx_facts0 t
  have s0 : win0_3.index t (0 : Fin 4) = win0_2.index t (0 : Fin 4) := congrFun e9 0
  have s1 : win0_3.index t (1 : Fin 4) = win0_2.index t (1 : Fin 4) := congrFun e9 1
  have s2 : win0_3.index t (2 : Fin 4) = win0_2.index t (2 : Fin 4) := congrFun e9 2
  have s3 : win0_3.index t (3 : Fin 4) = win0_2.index t (3 : Fin 4) := congrFun e9 3
  funext j
  have hj0 : (j 0).val < 1 := (j 0).isLt
  have hj1 : (j 1).val < 8 := (j 1).isLt
  have hj2 : (j 2).val < 512 := (j 2).isLt
  have hj3 : (j 3).val < 32 := (j 3).isLt
  have hx : (win0_3.xinj (grid0.coords t) j : S1x8x512x32.Idx) = ix4 (0 : Fin 1) (⟨(j 1).val, hj1⟩ : Fin 8) (⟨(j 2).val, hj2⟩ : Fin 512) (⟨(j 3).val, hj3⟩ : Fin 32) := by
    funext a
    apply Fin.ext
    match a with
    | ⟨0, _⟩ => show (j 0).val = 0; omega
    | ⟨1, _⟩ => rfl
    | ⟨2, _⟩ => rfl
    | ⟨3, _⟩ => rfl
  show (out0_3 (iblk0 V c 0 t) (iblk0 V c 1 t) : S1x8x512x32.Idx → EReal) (win0_3.xinj (grid0.coords t) j)
    = headsArr (V c main_arg0) (V c main_v5) kcol (((cfg0.win 3).blk t).view.emb j)
  rw [hx]
  refine (out3_apply _ _ _ _ _).trans ?_
  unfold headsArr
  refine Finset.sum_congr rfl fun e _ => ?_
  refine congrArg₂ (· * ·) ?_ ?_
  · refine xblk0_apply V c t _ e _ ?_ ?_ rfl
    · show win0_3.index t (0 : Fin 4) * 1 + 1 * (j 0).val = win0_2.index t (0 : Fin 4); omega
    · show win0_3.index t (2 : Fin 4) * 512 + 1 * (j 2).val = win0_2.index t (2 : Fin 4) * 512 + (j 2).val; omega
  · refine wblk0_apply V c t e _ _ ?_
    show 256 + 32 * (win0_3.index t (1 : Fin 4) * 8 + 1 * (j 1).val) + (win0_3.index t (3 : Fin 4) * 32 + 1 * (j 3).val) = 256 + 32 * (j 1).val + (j 3).val
    omega

/-- An index of the key array is in point `t`'s block iff each coordinate is in the block's range on its axis. -/
theorem mem_blk3 (t : Fin cfg0.N) (i : S2x8x2048x32.Idx) :
    i ∈ ((cfg0.win 3).blk t).view.set ↔ ∀ a : Fin 4, win0_3.index t a * S1x8x512x32.size a ≤ (i a).val ∧ (i a).val < win0_3.index t a * S1x8x512x32.size a + S1x8x512x32.size a := by
  show i ∈ ((View.whole main_v6_1).slice (win0_3.rect t)).set ↔ _
  rw [View.set_slice_whole, Rect.mem_set_unit]
  exact Iff.rfl

/-- The eight blocks tile the key array. -/
theorem cover3 (i : S2x8x2048x32.Idx) : ∃ t : Fin cfg0.N, (cfg0.win 3).flush t = true ∧ i ∈ ((cfg0.win 3).blk t).view.set := by
  have hi0 : (i 0).val < 2 := (i 0).isLt
  have hi1 : (i 1).val < 8 := (i 1).isLt
  have hi2 : (i 2).val < 2048 := (i 2).isLt
  have hi3 : (i 3).val < 32 := (i 3).isLt
  obtain ⟨t, ht⟩ := idx_onto0 ⟨(i 0).val, hi0⟩ ⟨(i 2).val / 512, by omega⟩
  obtain ⟨-, -, -, -, -, -, -, -, -, e9, e10⟩ := idx_facts0 t
  have q0 : win0_3.index t (0 : Fin 4) = (i 0).val := (congrFun e9 0).trans (congrFun ht 0)
  have q1 : win0_3.index t (1 : Fin 4) = 0 := (congrFun e9 1).trans (congrFun ht 1)
  have q2 : win0_3.index t (2 : Fin 4) = (i 2).val / 512 := (congrFun e9 2).trans (congrFun ht 2)
  have q3 : win0_3.index t (3 : Fin 4) = 0 := (congrFun e9 3).trans (congrFun ht 3)
  refine ⟨t, flush0_3 t, ?_⟩
  rw [mem_blk3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 8 ≤ (i 1).val ∧ (i 1).val < win0_3.index t (1 : Fin 4) * 8 + 8; omega
  | ⟨2, _⟩ => show win0_3.index t (2 : Fin 4) * 512 ≤ (i 2).val ∧ (i 2).val < win0_3.index t (2 : Fin 4) * 512 + 512; omega
  | ⟨3, _⟩ => show win0_3.index t (3 : Fin 4) * 32 ≤ (i 3).val ∧ (i 3).val < win0_3.index t (3 : Fin 4) * 32 + 32; omega

/-- The key array after the region is the array of heads at the key's columns. -/
theorem k_final : (dat0 (F := Ideal) V c).arrAt 3 cfg0.N = headsArr (V c main_arg0) (V c main_v5) kcol :=
  (dat0 V c).arrAt_eq_of_cover 3 (headsArr (V c main_arg0) (V c main_v5) kcol) (fun t _ => flushed3_eq V c t) (cover3)

/-- THE KEY ARRAY at batch `b`, head `h`, row `l`, lane `cc`: row `(b, l)` of `x` against column `256 + 32·h + cc` of the weight. -/
theorem k_arr (b : Fin 2) (h : Fin 8) (l : Fin 2048) (cc : Fin 32) :
    ((dat0 (F := Ideal) V c).arrAt 3 cfg0.N : S2x8x2048x32.Idx → EReal) (ix4 b h l cc)
      = @Finset.sum (Fin 256) EReal _ Finset.univ fun e => @HMul.hMul EReal EReal EReal _ ((V c main_arg0 : S2x2048x256.Idx → EReal) (ix3 b l e))
          ((V c main_v5 : S256x768.Idx → EReal) (ix2 e ⟨256 + 32 * h.val + cc.val, by have := h.isLt; have := cc.isLt; omega⟩)) :=
  congrFun (k_final V c) (ix4 b h l cc)

/-! ## The value array -/

/-- What point `t` writes back to the value array is its block of the array of heads. -/
theorem flushed4_eq (t : Fin cfg0.N) :
    (dat0 V c).flushed 4 t = ((cfg0.win 4).blk t).view.read (Elt Ideal) (headsArr (V c main_arg0) (V c main_v5) vcol) := by
  show (cfg0.win 4).cut (grid0.coords t) ((dat0 V c).after 4 t) = _
  rw [after0_4]
  obtain ⟨-, -, -, -, -, e5, e6, -, -, e9, e10⟩ := idx_facts0 t
  have s0 : win0_4.index t (0 : Fin 4) = win0_2.index t (0 : Fin 4) := congrFun e10 0
  have s1 : win0_4.index t (1 : Fin 4) = win0_2.index t (1 : Fin 4) := congrFun e10 1
  have s2 : win0_4.index t (2 : Fin 4) = win0_2.index t (2 : Fin 4) := congrFun e10 2
  have s3 : win0_4.index t (3 : Fin 4) = win0_2.index t (3 : Fin 4) := congrFun e10 3
  funext j
  have hj0 : (j 0).val < 1 := (j 0).isLt
  have hj1 : (j 1).val < 8 := (j 1).isLt
  have hj2 : (j 2).val < 512 := (j 2).isLt
  have hj3 : (j 3).val < 32 := (j 3).isLt
  have hx : (win0_4.xinj (grid0.coords t) j : S1x8x512x32.Idx) = ix4 (0 : Fin 1) (⟨(j 1).val, hj1⟩ : Fin 8) (⟨(j 2).val, hj2⟩ : Fin 512) (⟨(j 3).val, hj3⟩ : Fin 32) := by
    funext a
    apply Fin.ext
    match a with
    | ⟨0, _⟩ => show (j 0).val = 0; omega
    | ⟨1, _⟩ => rfl
    | ⟨2, _⟩ => rfl
    | ⟨3, _⟩ => rfl
  show (out0_4 (iblk0 V c 0 t) (iblk0 V c 1 t) : S1x8x512x32.Idx → EReal) (win0_4.xinj (grid0.coords t) j)
    = headsArr (V c main_arg0) (V c main_v5) vcol (((cfg0.win 4).blk t).view.emb j)
  rw [hx]
  refine (out4_apply _ _ _ _ _).trans ?_
  unfold headsArr
  refine Finset.sum_congr rfl fun e _ => ?_
  refine congrArg₂ (· * ·) ?_ ?_
  · refine xblk0_apply V c t _ e _ ?_ ?_ rfl
    · show win0_4.index t (0 : Fin 4) * 1 + 1 * (j 0).val = win0_2.index t (0 : Fin 4); omega
    · show win0_4.index t (2 : Fin 4) * 512 + 1 * (j 2).val = win0_2.index t (2 : Fin 4) * 512 + (j 2).val; omega
  · refine wblk0_apply V c t e _ _ ?_
    show 512 + 32 * (win0_4.index t (1 : Fin 4) * 8 + 1 * (j 1).val) + (win0_4.index t (3 : Fin 4) * 32 + 1 * (j 3).val) = 512 + 32 * (j 1).val + (j 3).val
    omega

/-- An index of the value array is in point `t`'s block iff each coordinate is in the block's range on its axis. -/
theorem mem_blk4 (t : Fin cfg0.N) (i : S2x8x2048x32.Idx) :
    i ∈ ((cfg0.win 4).blk t).view.set ↔ ∀ a : Fin 4, win0_4.index t a * S1x8x512x32.size a ≤ (i a).val ∧ (i a).val < win0_4.index t a * S1x8x512x32.size a + S1x8x512x32.size a := by
  show i ∈ ((View.whole main_v6_2).slice (win0_4.rect t)).set ↔ _
  rw [View.set_slice_whole, Rect.mem_set_unit]
  exact Iff.rfl

/-- The eight blocks tile the value array. -/
theorem cover4 (i : S2x8x2048x32.Idx) : ∃ t : Fin cfg0.N, (cfg0.win 4).flush t = true ∧ i ∈ ((cfg0.win 4).blk t).view.set := by
  have hi0 : (i 0).val < 2 := (i 0).isLt
  have hi1 : (i 1).val < 8 := (i 1).isLt
  have hi2 : (i 2).val < 2048 := (i 2).isLt
  have hi3 : (i 3).val < 32 := (i 3).isLt
  obtain ⟨t, ht⟩ := idx_onto0 ⟨(i 0).val, hi0⟩ ⟨(i 2).val / 512, by omega⟩
  obtain ⟨-, -, -, -, -, -, -, -, -, e9, e10⟩ := idx_facts0 t
  have q0 : win0_4.index t (0 : Fin 4) = (i 0).val := (congrFun e10 0).trans (congrFun ht 0)
  have q1 : win0_4.index t (1 : Fin 4) = 0 := (congrFun e10 1).trans (congrFun ht 1)
  have q2 : win0_4.index t (2 : Fin 4) = (i 2).val / 512 := (congrFun e10 2).trans (congrFun ht 2)
  have q3 : win0_4.index t (3 : Fin 4) = 0 := (congrFun e10 3).trans (congrFun ht 3)
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 8 ≤ (i 1).val ∧ (i 1).val < win0_4.index t (1 : Fin 4) * 8 + 8; omega
  | ⟨2, _⟩ => show win0_4.index t (2 : Fin 4) * 512 ≤ (i 2).val ∧ (i 2).val < win0_4.index t (2 : Fin 4) * 512 + 512; omega
  | ⟨3, _⟩ => show win0_4.index t (3 : Fin 4) * 32 ≤ (i 3).val ∧ (i 3).val < win0_4.index t (3 : Fin 4) * 32 + 32; omega

/-- The value array after the region is the array of heads at the value's columns. -/
theorem v_final : (dat0 (F := Ideal) V c).arrAt 4 cfg0.N = headsArr (V c main_arg0) (V c main_v5) vcol :=
  (dat0 V c).arrAt_eq_of_cover 4 (headsArr (V c main_arg0) (V c main_v5) vcol) (fun t _ => flushed4_eq V c t) (cover4)

/-- THE VALUE ARRAY at batch `b`, head `h`, row `l`, lane `cc`: row `(b, l)` of `x` against column `512 + 32·h + cc` of the weight. -/
theorem v_arr (b : Fin 2) (h : Fin 8) (l : Fin 2048) (cc : Fin 32) :
    ((dat0 (F := Ideal) V c).arrAt 4 cfg0.N : S2x8x2048x32.Idx → EReal) (ix4 b h l cc)
      = @Finset.sum (Fin 256) EReal _ Finset.univ fun e => @HMul.hMul EReal EReal EReal _ ((V c main_arg0 : S2x2048x256.Idx → EReal) (ix3 b l e))
          ((V c main_v5 : S256x768.Idx → EReal) (ix2 e ⟨512 + 32 * h.val + cc.val, by have := h.isLt; have := cc.isLt; omega⟩)) :=
  congrFun (v_final V c) (ix4 b h l cc)

end Arrays

end Cert.KernelIdeal.H

end
-- ==== Proof.Spec.lean ====
/-
  The mathematics both programs compute, over the extended reals, with no program in sight.

  One attention head's row: scores `s k` over 2048 keys and values `v k`.  The reference forms the
  softmax weights `exp (s k - M) / Z` with `M` the row's maximum and `Z` the sum of the exponentials, and
  sums `v k` times the weight (`refAttn`).  The kernel walks the keys in 8 blocks of 256 and keeps a
  running maximum `onM`, a running denominator `onL` and a running numerator `onA`, each rescaled by
  `exp (old maximum - new maximum)` when a block raises the maximum, and divides at the end.
  The whole result `G` is stated once, in the reference's order of operations.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-! ## One row -/

/-- Key `i` of block `j` (blocks of 256 keys; exact for `j < 8`). -/
def kIdx (j : ℕ) (i : Fin 256) : Fin 2048 := ⟨(256 * j + i.val) % 2048, Nat.mod_lt _ (by decide)⟩

/-- The row's maximum, as a fold from `-∞`. -/
def rowMax (s : Fin 2048 → EReal) : EReal := (Finset.univ : Finset (Fin 2048)).fold max ⊥ s

/-- The reference's unnormalised weight of key `k`. -/
def refE (s : Fin 2048 → EReal) (k : Fin 2048) : EReal := Ideal.exp (s k - rowMax s)

/-- The reference's denominator. -/
def refZ (s : Fin 2048 → EReal) : EReal := ∑ k : Fin 2048, refE s k

/-- The reference's attention value of the row: the values weighted by the softmax of the scores. -/
def refAttn (s v : Fin 2048 → EReal) : EReal := ∑ k : Fin 2048, v k * Ideal.div (refE s k) (refZ s)

/-- The running maximum after `j` blocks. -/
def onM (s : Fin 2048 → EReal) : ℕ → EReal
  | 0 => ⊥
  | j + 1 => max (onM s j) ((Finset.univ : Finset (Fin 256)).fold max ⊥ (fun i => s (kIdx j i)))

/-- The factor that rescales what was accumulated before block `j`. -/
def onAlpha (s : Fin 2048 → EReal) (j : ℕ) : EReal := Ideal.exp (onM s j - onM s (j + 1))

/-- Block `j`'s weights against the maximum after that block. -/
def onP (s : Fin 2048 → EReal) (j : ℕ) (i : Fin 256) : EReal := Ideal.exp (s (kIdx j i) - onM s (j + 1))

/-- The running denominator after `j` blocks. -/
def onL (s : Fin 2048 → EReal) : ℕ → EReal
  | 0 => 0
  | j + 1 => onAlpha s j * onL s j + ∑ i : Fin 256, onP s j i

/-- The running numerator after `j` blocks. -/
def onA (s v : Fin 2048 → EReal) : ℕ → EReal
  | 0 => 0
  | j + 1 => onAlpha s j * onA s v j + ∑ i : Fin 256, onP s j i * v (kIdx j i)

/-! ## The whole computation -/

abbrev XArr := (⟨3, ![2, 2048, 256]⟩ : Shape).Idx → EReal
abbrev BiasArr := (⟨4, ![2, 2048, 2048, 8]⟩ : Shape).Idx → EReal
abbrev WProjArr := (⟨2, ![768, 256]⟩ : Shape).Idx → EReal
abbrev WOArr := (⟨2, ![256, 256]⟩ : Shape).Idx → EReal
abbrev BOArr := (⟨1, ![256]⟩ : Shape).Idx → EReal
abbrev OutArr := (⟨3, ![2, 2048, 256]⟩ : Shape).Idx → EReal

/-- The scale `32^(-1/2)` as both programs carry it: one binary32 word. -/
abbrev scaleC : EReal := Ideal.ofBits .f32 0x3E3504F3#32

/-- The fused projection: row `l` of batch `b` against output feature `f`. -/
def proj (x : XArr) (w : WProjArr) (b : Fin 2) (l : Fin 2048) (f : Fin 768) : EReal :=
  ∑ e : Fin 256, x (ix3 b l e) * w (ix2 f e)

/-- Head `h`'s query, key and value features among the 768: each head owns 96 consecutive ones. -/
def fq (h : Fin 8) (c : Fin 32) : Fin 768 := ⟨96 * h.val + c.val, by have := h.isLt; have := c.isLt; omega⟩
def fk (h : Fin 8) (c : Fin 32) : Fin 768 := ⟨96 * h.val + 32 + c.val, by have := h.isLt; have := c.isLt; omega⟩
def fv (h : Fin 8) (c : Fin 32) : Fin 768 := ⟨96 * h.val + 64 + c.val, by have := h.isLt; have := c.isLt; omega⟩

/-- The score of query `q` against key `k` in head `h`: the scaled query against the key, plus the bias. -/
def score (x : XArr) (w : WProjArr) (bias : BiasArr) (b : Fin 2) (h : Fin 8) (q k : Fin 2048) : EReal :=
  (∑ c : Fin 32, (proj x w b q (fq h c) * scaleC) * proj x w b k (fk h c)) + bias (ix4 b q k h)

/-- Channel `c` of head `h`'s values, key by key. -/
def vrow (x : XArr) (w : WProjArr) (b : Fin 2) (h : Fin 8) (c : Fin 32) (k : Fin 2048) : EReal :=
  proj x w b k (fv h c)

/-- The attention output at query `q`, head `h`, channel `c`. -/
def attn (x : XArr) (w : WProjArr) (bias : BiasArr) (b : Fin 2) (q : Fin 2048) (h : Fin 8) (c : Fin 32) : EReal :=
  refAttn (score x w bias b h q) (vrow x w b h c)

/-- Feature `e` of the 256 is channel `e % 32` of head `e / 32`. -/
def headOf (e : Fin 256) : Fin 8 := ⟨e.val / 32, by have := e.isLt; omega⟩
def chanOf (e : Fin 256) : Fin 32 := ⟨e.val % 32, Nat.mod_lt _ (by decide)⟩

/-- The result: the attention output projected by `W_o`, plus `b_o`. -/
def G (x : XArr) (bias : BiasArr) (w : WProjArr) (wo : WOArr) (bo : BOArr) : OutArr := fun i =>
  (∑ e : Fin 256, attn x w bias (i 0) (i 1) (headOf e) (chanOf e) * wo (ix2 (i 2) e)) + bo (ix1 (i 2))

end Cert.Spec

end
-- ==== Proof.SweepSpec.lean ====
/-
  The attention sweep as the kernel arranges it, over the arrays the sweep reads: the projected queries, keys and values
  `[2, 8, 2048, 32]` (batch, head, row, channel), the bias with key and head merged into one axis of length
  `2048 * 8` (column `8 k + h`), the transposed output weight and the output bias.  A score row (`sRow`) and a value
  row (`vRow`) feed the online recursion of Spec.lean; the result (`sweepOut`) is numerator over denominator after
  the eighth block, heads side by side, against the transposed weight, plus the bias.
-/
import proofs.«424001_j42949673623_3_alg».proof.Proof.Spec

noncomputable section

namespace Cert.Spec

open Idealize.ShloMosaic Idealize.ShloMosaic.ValueIdx

abbrev QArr := (⟨4, ![2, 8, 2048, 32]⟩ : Shape).Idx → EReal
abbrev BiArr := (⟨3, ![2, 2048, 16384]⟩ : Shape).Idx → EReal

/-- Key `k`, head `h` in the merged axis. -/
def bcol (k : Fin 2048) (h : Fin 8) : Fin 16384 := ⟨8 * k.val + h.val, by have := k.isLt; have := h.isLt; omega⟩

/-- Query `q`'s scores in head `h`: the scaled query against each key, plus the bias. -/
def sRow (Q Kk : QArr) (Bi : BiArr) (b : Fin 2) (h : Fin 8) (q : Fin 2048) : Fin 2048 → EReal := fun k =>
  (∑ cc : Fin 32, (Q (ix4 b h q cc) * scaleC) * Kk (ix4 b h k cc)) + Bi (ix3 b q (bcol k h))

/-- Channel `cc` of head `h`'s values, key by key. -/
def vRow (Vv : QArr) (b : Fin 2) (h : Fin 8) (cc : Fin 32) : Fin 2048 → EReal := fun k => Vv (ix4 b h k cc)

/-- What the sweep leaves in the result. -/
def sweepOut (Q Kk Vv : QArr) (Bi : BiArr) (WoT : WOArr) (bo : BOArr) : OutArr := fun i =>
  (∑ e : Fin 256, Ideal.div (onA (sRow Q Kk Bi (i 0) (headOf e) (i 1)) (vRow Vv (i 0) (headOf e) (chanOf e)) 8)
      (onL (sRow Q Kk Bi (i 0) (headOf e) (i 1)) 8) * WoT (ix2 e (i 2))) + bo (ix1 (i 2))

end Cert.Spec

end
-- ==== Proof.KI.Reg1Out.lean ====
/-
  The value of the attention sweep's output, in two pieces.  First the epilogue at an index: the block the last key block
  stores is, at row `r` and feature `f`, the sum over the 256 merged columns `e` (head `e / 32`, channel `e % 32`) of
  numerator over denominator at `(head, r, channel)` against entry `(e, f)` of the output weight, plus entry `f` of the
  output bias.  Then from blocks to the array: the output window is written back only at the last key block of each
  (batch, query block) pair; those sixteen blocks tile the output array, so the array after the region is any function
  whose block at each such point is what that point stored.  Last, the two whole windows (the output weight and the output
  bias) read the same at every point: the arrays themselves.
-/
import proofs.«424001_j42949673623_3_alg».proof.Proof.KI.Reg1
import proofs.«424001_j42949673623_3_alg».proof.Proof.SweepSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-- The grid point of batch b, query block qi, key block kv. -/
def pt1 (b : Fin 2) (qi kv : Fin 8) : Fin cfg1.N := ⟨64 * b.val + 8 * qi.val + kv.val, by have := b.isLt; have := qi.isLt; have := kv.isLt; rw [show cfg1.N = 128 from N_1]; omega⟩

theorem pt1_val (b : Fin 2) (qi kv : Fin 8) : (pt1 b qi kv).val = 64 * b.val + 8 * qi.val + kv.val := rfl

/-! ## The epilogue at an index -/

/-- The projection's dimension numbers, axis by axis: a row of the left operand is a row of the product, -/
theorem out_lhs_0 (i : S256x256.Idx) (q : dot_S256x256_S256x256_S256x256_1_0_0_1_n_n.contr.Idx) :
    (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl
/-- its column is summed over, -/
theorem out_lhs_1 (i : S256x256.Idx) (q : dot_S256x256_S256x256_S256x256_1_0_0_1_n_n.contr.Idx) :
    (dot_S256x256_S256x256_S256x256_1_0_0_1_n_n.lhsIdx i q 1).val = (q ⟨0, by decide⟩).val :=
  dot_S256x256_S256x256_S256x256_1_0_0_1_n_n.lhsIdx_val_of_single rfl i q
/-- as is the right operand's row, -/
theorem out_rhs_0 (i : S256x256.Idx) (q : dot_S256x256_S256x256_S256x256_1_0_0_1_n_n.contr.Idx) :
    (dot_S256x256_S256x256_S256x256_1_0_0_1_n_n.rhsIdx i q 0).val = (q ⟨0, by decide⟩).val :=
  dot_S256x256_S256x256_S256x256_1_0_0_1_n_n.rhsIdx_val_of_single rfl i q
/-- and a column of the right operand is a column of the product. -/
theorem out_rhs_1 (i : S256x256.Idx) (q : dot_S256x256_S256x256_S256x256_1_0_0_1_n_n.contr.Idx) :
    (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl

/-- Heads side by side: row `r`, merged column `e` of the re-laid array reads head `e / 32`, row `r`, channel `e % 32`. -/
theorem merge_heads_apply (y : S8x256x32.Idx → EReal) (r e : Fin 256) :
    shapeCast S256x256 (transpose S256x8x32 [1, 0, 2] y transposes_S8x256x32_p1_0_2_S256x8x32) shapeCasts_S256x8x32_S256x256 (ix2 r e)
      = y (ix3 (Cert.Spec.headOf e) r (Cert.Spec.chanOf e)) := by
  refine (shapeCast_apply _ shapeCasts_S256x8x32_S256x256 (ix2 r e) (ix3 r (Cert.Spec.headOf e) (Cert.Spec.chanOf e))
    (by rw [Shape.rowMajor_val_three, Shape.rowMajor_val_two]
        show (r.val * 8 + e.val / 32) * 32 + e.val % 32 = r.val * 256 + e.val
        omega)).trans ?_
  exact transpose_apply [1, 0, 2] y transposes_S8x256x32_p1_0_2_S256x8x32 (ix3 r (Cert.Spec.headOf e) (Cert.Spec.chanOf e)) (ix3 (Cert.Spec.headOf e) r (Cert.Spec.chanOf e)) (fun b => match b with
    | ⟨0, _⟩ => rfl
    | ⟨1, _⟩ => rfl
    | ⟨2, _⟩ => rfl)

/-- The denominator spread over the channels: at head `h`, row `r`, any channel, it is the denominator of `(h, r)`. -/
theorem den_bcast_apply (sl : S8x256x1.Idx → EReal) (h : Fin 8) (r : Fin 256) (cc : Fin 32) :
    broadcastTo S8x256x32 sl broadcasts_S8x256x1_S8x256x32 (ix3 h r cc) = sl (ix3 h r 0) := by
  refine broadcastTo_apply sl broadcasts_S8x256x1_S8x256x32 (ix3 h r cc) (ix3 h r 0) fun ax => ?_
  match ax with
  | ⟨0, _⟩ => rfl
  | ⟨1, _⟩ => rfl
  | ⟨2, _⟩ => rfl

/-- THE EPILOGUE at row `r`, feature `f`: numerator over denominator, heads side by side, against column `f` of the
    output weight, plus entry `f` of the output bias (the narrowing of both operands is the identity on extended reals,
    the accumulator is zero). -/
theorem outBlk_apply (sa : Vec Ideal S8x256x32 .f32) (sl : Vec Ideal S8x256x1 .f32) (wo : Vec Ideal S256x256 .f32) (bo : Vec Ideal S256 .f32) (r f : Fin 256) :
    (outBlk sa sl wo bo : S1x256x256.Idx → EReal) (ix3 0 r f)
      = (∑ e : Fin 256, Ideal.div (sa (ix3 (Cert.Spec.headOf e) r (Cert.Spec.chanOf e))) (sl (ix3 (Cert.Spec.headOf e) r 0)) * wo (ix2 e f)) + bo (ix1 f) := by
  unfold outBlk k1_pay4
  refine (shapeCast_ab_1ab_apply _ shapeCasts_S256x256_S1x256x256 0 r f).trans ?_
  refine (addf_apply _ _ (ix2 r f)).trans ?_
  refine congrArg₂ (· + ·) ?_ ?_
  · refine (Ideal.matmul_constant_zero_apply dot_S256x256_S256x256_S256x256_1_0_0_1_n_n none _ _ (ix2 r f)).trans ?_
    rw [← Equiv.sum_comp (contrEquiv1 dot_S256x256_S256x256_S256x256_1_0_0_1_n_n 256 rfl rfl).symm]
    refine Finset.sum_congr rfl fun e _ => ?_
    have he := contrEquiv1_symm_val dot_S256x256_S256x256_S256x256_1_0_0_1_n_n 256 rfl rfl e
    have el : dot_S256x256_S256x256_S256x256_1_0_0_1_n_n.lhsIdx (ix2 r f) ((contrEquiv1 dot_S256x256_S256x256_S256x256_1_0_0_1_n_n 256 rfl rfl).symm e) = ix2 r e := funext fun a => Fin.ext (by
      match a with
      | ⟨0, _⟩ => exact out_lhs_0 _ _
      | ⟨1, _⟩ => exact (out_lhs_1 _ _).trans he)
    have er : dot_S256x256_S256x256_S256x256_1_0_0_1_n_n.rhsIdx (ix2 r f) ((contrEquiv1 dot_S256x256_S256x256_S256x256_1_0_0_1_n_n 256 rfl rfl).symm e) = ix2 e f := funext fun a => Fin.ext (by
      match a with
      | ⟨0, _⟩ => exact (out_rhs_0 _ _).trans he
      | ⟨1, _⟩ => exact out_rhs_1 _ _)
    rw [el, er]
    refine congrArg₂ (· * ·) ?_ ?_
    · show shapeCast S256x256 (transpose S256x8x32 [1, 0, 2] (divf sa (broadcastTo S8x256x32 (sl : S8x256x1.Idx → EReal) broadcasts_S8x256x1_S8x256x32 : FVec Ideal S8x256x32 .f32)) transposes_S8x256x32_p1_0_2_S256x8x32) shapeCasts_S256x8x32_S256x256 (ix2 r e) = _
      refine (merge_heads_apply _ r e).trans ?_
      refine (divf_apply sa _ _).trans ?_
      exact congrArg (Ideal.div _) (den_bcast_apply sl _ r _)
    · show shapeCast S256x256 wo shapeCasts_S256x256_S256x256 (ix2 e f) = wo (ix2 e f)
      exact congrFun (shapeCast_self wo shapeCasts_S256x256_S256x256) (ix2 e f)
  · refine (broadcastTo_1b_ab_apply _ broadcasts_S1x256_S256x256 r f).trans ?_
    exact shapeCast_a_1a_apply bo shapeCasts_S256_S1x256 0 f

/-! ## From blocks to the array, and the two whole windows -/

section Arrays

variable (V : (c : Dev nD) → (b : Ref sig .tc) → Buf (Elt Ideal) ((c : Thread nD τ).loc b)) (c : Dev nD)

/-- The index maps over the grid: the output's block is (batch, query block, 0); the weight's and the bias's blocks are
    the whole arrays. -/
theorem idx_facts1 : ∀ t : Fin cfg1.N,
    win1_6.index t (0 : Fin 3) = t.val / 64
    ∧ win1_6.index t (1 : Fin 3) = (t.val / 8) % 8
    ∧ win1_6.index t (2 : Fin 3) = 0
    ∧ win1_4.index t (0 : Fin 2) = 0
    ∧ win1_4.index t (1 : Fin 2) = 0
    ∧ win1_5.index t (0 : Fin 1) = 0 :=
  (by decide +kernel : ∀ t : Fin grid1.N, _)

/-- The output weight's block at every point is the weight. -/
theorem iblk1_4_eq (t : Fin cfg1.N) : (iblk1 V c 4 t : S256x256.Idx → EReal) = (V c main_v8 : S256x256.Idx → EReal) := by
  obtain ⟨-, -, -, e3, e4, -⟩ := idx_facts1 t
  funext i
  unfold iblk1
  rw [View.read_apply]
  show V c main_v8 _ = V c main_v8 _
  congr 1
  funext a
  apply Fin.ext
  match a with
  | ⟨0, _⟩ => show win1_4.index t (0 : Fin 2) * 256 + 1 * (i 0).val = (i 0).val; omega
  | ⟨1, _⟩ => show win1_4.index t (1 : Fin 2) * 256 + 1 * (i 1).val = (i 1).val; omega

/-- The output bias's block at every point is the bias. -/
theorem iblk1_5_eq (t : Fin cfg1.N) : (iblk1 V c 5 t : S256.Idx → EReal) = (V c main_arg4 : S256.Idx → EReal) := by
  obtain ⟨-, -, -, -, -, e5⟩ := idx_facts1 t
  funext i
  unfold iblk1
  rw [View.read_apply]
  show V c main_arg4 _ = V c main_arg4 _
  congr 1
  funext a
  apply Fin.ext
  match a with
  | ⟨0, _⟩ => show win1_5.index t (0 : Fin 1) * 256 + 1 * (i 0).val = (i 0).val; omega

/-- An index of the output array is in point `t`'s block iff each coordinate is in the block's range on its axis. -/
theorem mem_blk1_6 (t : Fin cfg1.N) (i : S2x2048x256.Idx) :
    i ∈ ((cfg1.win 6).blk t).view.set ↔ ∀ a : Fin 3, win1_6.index t a * S1x256x256.size a ≤ (i a).val ∧ (i a).val < win1_6.index t a * S1x256x256.size a + S1x256x256.size a := by
  show i ∈ ((View.whole main_v9).slice (win1_6.rect t)).set ↔ _
  rw [View.set_slice_whole, Rect.mem_set_unit]
  exact Iff.rfl

/-- A point that writes the output back is the last key block of its batch and query block. -/
theorem flush_pt1 (t : Fin cfg1.N) (hf : (cfg1.win 6).flush t = true) :
    ∃ (b : Fin 2) (qi : Fin 8), pt1 b qi 7 = t ∧ b.val = t.val / 64 ∧ qi.val = (t.val / 8) % 8 := by
  have h7 : t.val % 8 = 7 := (flush1_6 t).mp hf
  have hN : t.val < 128 := lt_of_lt_of_eq t.isLt (show cfg1.N = 128 from N_1)
  refine ⟨⟨t.val / 64, by omega⟩, ⟨(t.val / 8) % 8, by omega⟩, Fin.ext ?_, rfl, rfl⟩
  show 64 * (t.val / 64) + 8 * ((t.val / 8) % 8) + 7 = t.val
  omega

/-- The last key block of every batch and query block writes the output back. -/
theorem flush_at_pt1 (b : Fin 2) (qi : Fin 8) : (cfg1.win 6).flush (pt1 b qi 7) = true :=
  (flush1_6 _).mpr (by show (64 * b.val + 8 * qi.val + 7) % 8 = 7; omega)

/-- FROM BLOCKS TO THE ARRAY: a function of the whole output array whose rows `256·qi … 256·qi + 255` of batch `b` are
    what the last key block of `(b, qi)` stored is the output array after the region. -/
theorem out_arr_of (Gout : S2x2048x256.Idx → EReal)
    (hblk : ∀ (b : Fin 2) (qi : Fin 8) (r f : Fin 256),
      ((dat1 (F := Ideal) V c).after 6 (pt1 b qi 7) : S1x256x256.Idx → EReal) (ix3 0 r f) = Gout (ix3 b ⟨256 * qi.val + r.val, by have := qi.isLt; have := r.isLt; omega⟩ f)) :
    ((dat1 (F := Ideal) V c).arrAt 6 cfg1.N : S2x2048x256.Idx → EReal) = Gout := by
  refine (dat1 V c).arrAt_eq_of_cover 6 Gout (fun t hf => ?_) (fun i => ?_)
  · -- what a flushing point writes back is its block of `Gout`
    obtain ⟨b, qi, hpt, hb, hqi⟩ := flush_pt1 t hf
    obtain ⟨e0, e1, e2, -⟩ := idx_facts1 t
    show (cfg1.win 6).cut (grid1.coords t) ((dat1 V c).after 6 t) = _
    funext j
    have hj0 : (j 0).val < 1 := (j 0).isLt
    have hj1 : (j 1).val < 256 := (j 1).isLt
    have hj2 : (j 2).val < 256 := (j 2).isLt
    have hx : (win1_6.xinj (grid1.coords t) j : S1x256x256.Idx) = ix3 (0 : Fin 1) (⟨(j 1).val, hj1⟩ : Fin 256) (⟨(j 2).val, hj2⟩ : Fin 256) := by
      funext a
      apply Fin.ext
      match a with
      | ⟨0, _⟩ => show (j 0).val = 0; omega
      | ⟨1, _⟩ => rfl
      | ⟨2, _⟩ => rfl
    show ((dat1 V c).after 6 t : S1x256x256.Idx → EReal) (win1_6.xinj (grid1.coords t) j) = Gout (((cfg1.win 6).blk t).view.emb j)
    rw [hx]
    have h := hblk b qi ⟨(j 1).val, hj1⟩ ⟨(j 2).val, hj2⟩
    rw [hpt] at h
    refine h.trans (congrArg Gout ?_)
    funext a
    apply Fin.ext
    match a with
    | ⟨0, _⟩ => show b.val = win1_6.index t (0 : Fin 3) * 1 + 1 * (j 0).val; omega
    | ⟨1, _⟩ => show 256 * qi.val + (j 1).val = win1_6.index t (1 : Fin 3) * 256 + 1 * (j 1).val; omega
    | ⟨2, _⟩ => show (j 2).val = win1_6.index t (2 : Fin 3) * 256 + 1 * (j 2).val; omega
  · -- the sixteen blocks tile the array: row `q` of batch `b` is in the block of `(b, q / 256)`
    have hi0 : (i 0).val < 2 := (i 0).isLt
    have hi1 : (i 1).val < 2048 := (i 1).isLt
    have hi2 : (i 2).val < 256 := (i 2).isLt
    refine ⟨pt1 ⟨(i 0).val, hi0⟩ ⟨(i 1).val / 256, by omega⟩ 7, flush_at_pt1 _ _, ?_⟩
    obtain ⟨e0, e1, e2, -⟩ := idx_facts1 (pt1 ⟨(i 0).val, hi0⟩ ⟨(i 1).val / 256, by omega⟩ 7)
    rw [pt1_val] at e0 e1
    rw [mem_blk1_6]
    intro a
    match a with
    | ⟨0, _⟩ => show win1_6.index _ (0 : Fin 3) * 1 ≤ (i 0).val ∧ (i 0).val < win1_6.index _ (0 : Fin 3) * 1 + 1; simp only [Fin.val_mk] at e0; omega
    | ⟨1, _⟩ => show win1_6.index _ (1 : Fin 3) * 256 ≤ (i 1).val ∧ (i 1).val < win1_6.index _ (1 : Fin 3) * 256 + 256; simp only [Fin.val_mk] at e1; omega
    | ⟨2, _⟩ => show win1_6.index _ (2 : Fin 3) * 256 ≤ (i 2).val ∧ (i 2).val < win1_6.index _ (2 : Fin 3) * 256 + 256; omega

end Arrays

end Cert.KernelIdeal.H

end
-- ==== Proof.KI.Reg1Value.lean ====
/-
  The value of the second kernel region (the attention sweep with the output projection fused in) over the extended
  reals: what the output array holds after the region, as one function of the arrays the region reads.  At a grid point
  (batch `b`, query block `qi`, key block `kv`) the body forms the block of scores of the 256 queries against the 256
  keys in every head, raises the running maximum, rescales the running denominator and numerator and adds the block's
  weights and weighted values; at the last key block it divides, lays the heads side by side, multiplies by the
  transposed output weight and adds the bias.  The running quantities after key block `kv` are the online recursion
  of Spec.lean after `kv + 1` blocks, entry by entry; so the output array is `sweepOut`.
-/
import proofs.«424001_j42949673623_3_alg».proof.Proof.KI.Reg1Out
import proofs.«424001_j42949673623_3_alg».proof.Proof.SweepSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! ## The scores of a block -/

/-- The scores' dimension numbers, axis by axis: the head is shared, -/
theorem sc_lhs_0 (i : S8x256x256.Idx) (q : dot_S8x256x32_S8x256x32_S8x256x256_2_2_1_1_0_0.contr.Idx) :
    (dot_S8x256x32_S8x256x32_S8x256x256_2_2_1_1_0_0.lhsIdx i q 0).val = (i 0).val := by
  unfold DotDims.lhsIdx
  rw [dif_pos (show (0 : Fin S8x256x32.rank) ∈ dot_S8x256x32_S8x256x32_S8x256x256_2_2_1_1_0_0.lhsBatch by decide)]
  rfl
/-- a query row is a row of the scores, -/
theorem sc_lhs_1 (i : S8x256x256.Idx) (q : dot_S8x256x32_S8x256x32_S8x256x256_2_2_1_1_0_0.contr.Idx) :
    (dot_S8x256x32_S8x256x32_S8x256x256_2_2_1_1_0_0.lhsIdx i q 1).val = (i 1).val := by
  unfold DotDims.lhsIdx
  rw [dif_neg (show ¬(1 : Fin S8x256x32.rank) ∈ dot_S8x256x32_S8x256x32_S8x256x256_2_2_1_1_0_0.lhsBatch by decide), dif_pos (show (1 : Fin S8x256x32.rank) ∈ dot_S8x256x32_S8x256x32_S8x256x256_2_2_1_1_0_0.lhsNonContracting by decide)]
  rfl
/-- the channel is summed over, -/
theorem sc_lhs_2 (i : S8x256x256.Idx) (q : dot_S8x256x32_S8x256x32_S8x256x256_2_2_1_1_0_0.contr.Idx) :
    (dot_S8x256x32_S8x256x32_S8x256x256_2_2_1_1_0_0.lhsIdx i q 2).val = (q ⟨0, by decide⟩).val :=
  dot_S8x256x32_S8x256x32_S8x256x256_2_2_1_1_0_0.lhsIdx_val_of_single rfl i q
/-- on the keys' side too the head is shared, -/
theorem sc_rhs_0 (i : S8x256x256.Idx) (q : dot_S8x256x32_S8x256x32_S8x256x256_2_2_1_1_0_0.contr.Idx) :
    (dot_S8x256x32_S8x256x32_S8x256x256_2_2_1_1_0_0.rhsIdx i q 0).val = (i 0).val := by
  unfold DotDims.rhsIdx
  rw [dif_pos (show (0 : Fin S8x256x32.rank) ∈ dot_S8x256x32_S8x256x32_S8x256x256_2_2_1_1_0_0.rhsBatch by decide)]
  rfl
/-- a key row is a column of the scores, -/
theorem sc_rhs_1 (i : S8x256x256.Idx) (q : dot_S8x256x32_S8x256x32_S8x256x256_2_2_1_1_0_0.contr.Idx) :
    (dot_S8x256x32_S8x256x32_S8x256x256_2_2_1_1_0_0.rhsIdx i q 1).val = (i 2).val := by
  unfold DotDims.rhsIdx
  rw [dif_neg (show ¬(1 : Fin S8x256x32.rank) ∈ dot_S8x256x32_S8x256x32_S8x256x256_2_2_1_1_0_0.rhsBatch by decide), dif_pos (show (1 : Fin S8x256x32.rank) ∈ dot_S8x256x32_S8x256x32_S8x256x256_2_2_1_1_0_0.rhsNonContracting by decide)]
  rfl
/-- and the channel is summed over. -/
theorem sc_rhs_2 (i : S8x256x256.Idx) (q : dot_S8x256x32_S8x256x32_S8x256x256_2_2_1_1_0_0.contr.Idx) :
    (dot_S8x256x32_S8x256x32_S8x256x256_2_2_1_1_0_0.rhsIdx i q 2).val = (q ⟨0, by decide⟩).val :=
  dot_S8x256x32_S8x256x32_S8x256x256_2_2_1_1_0_0.rhsIdx_val_of_single rfl i q

/-- Key `kk`, head `h` in a block's merged bias axis. -/
abbrev bcolB (kk : Fin 256) (h : Fin 8) : Fin 2048 := ⟨8 * kk.val + h.val, by have := kk.isLt; have := h.isLt; omega⟩

/-- The block of scores at head `h`, query row `r`, key `kk`: the scaled query against the key over the 32 channels,
    plus the bias at row `r`, merged column `8·kk + h` (the narrowing of the operands is the identity on extended
    reals, the accumulator is zero). -/
theorem score_apply (q k : Vec Ideal S1x8x256x32 .f32) (bi : Vec Ideal S1x256x2048 .f32) (h : Fin 8) (r kk : Fin 256) :
    (k1_pay9 q k bi : S8x256x256.Idx → EReal) (ix3 h r kk)
      = (∑ cc : Fin 32, ((q (ix4 0 h r cc) : EReal) * Cert.Spec.scaleC) * (k (ix4 0 h kk cc) : EReal)) + (bi (ix3 0 r (bcolB kk h)) : EReal) := by
  unfold k1_pay9
  refine congrArg₂ (· + ·) ?_ ?_
  · refine (Ideal.matmul_constant_zero_apply dot_S8x256x32_S8x256x32_S8x256x256_2_2_1_1_0_0 none _ _ (ix3 h r kk)).trans ?_
    rw [← Equiv.sum_comp (contrEquiv1 dot_S8x256x32_S8x256x32_S8x256x256_2_2_1_1_0_0 32 rfl rfl).symm]
    refine Finset.sum_congr rfl fun cc _ => ?_
    have he := contrEquiv1_symm_val dot_S8x256x32_S8x256x32_S8x256x256_2_2_1_1_0_0 32 rfl rfl cc
    have el : dot_S8x256x32_S8x256x32_S8x256x256_2_2_1_1_0_0.lhsIdx (ix3 h r kk) ((contrEquiv1 dot_S8x256x32_S8x256x32_S8x256x256_2_2_1_1_0_0 32 rfl rfl).symm cc) = ix3 h r cc := funext fun a => Fin.ext (by
      match a with
      | ⟨0, _⟩ => exact sc_lhs_0 _ _
      | ⟨1, _⟩ => exact sc_lhs_1 _ _
      | ⟨2, _⟩ => exact (sc_lhs_2 _ _).trans he)
    have er : dot_S8x256x32_S8x256x32_S8x256x256_2_2_1_1_0_0.rhsIdx (ix3 h r kk) ((contrEquiv1 dot_S8x256x32_S8x256x32_S8x256x256_2_2_1_1_0_0 32 rfl rfl).symm cc) = ix3 h kk cc := funext fun a => Fin.ext (by
      match a with
      | ⟨0, _⟩ => exact sc_rhs_0 _ _
      | ⟨1, _⟩ => exact sc_rhs_1 _ _
      | ⟨2, _⟩ => exact (sc_rhs_2 _ _).trans he)
    rw [el, er]
    refine congrArg₂ (· * ·) ?_ ?_
    · show shapeCast S8x256x32 q shapeCasts_S1x8x256x32_S8x256x32 (ix3 h r cc) * Ideal.ofBits .f32 0x3E3504F3#32 = q (ix4 0 h r cc) * Cert.Spec.scaleC
      rw [shapeCast_1abc_abc_apply q shapeCasts_S1x8x256x32_S8x256x32 h r cc]
    · show shapeCast S8x256x32 k shapeCasts_S1x8x256x32_S8x256x32 (ix3 h kk cc) = k (ix4 0 h kk cc)
      exact shapeCast_1abc_abc_apply k shapeCasts_S1x8x256x32_S8x256x32 h kk cc
  · refine (transpose_apply [2, 0, 1] _ transposes_S256x256x8_p2_0_1_S8x256x256 (ix3 h r kk) (ix3 r kk h) (fun b => match b with
      | ⟨0, _⟩ => rfl
      | ⟨1, _⟩ => rfl
      | ⟨2, _⟩ => rfl)).trans ?_
    refine (shapeCast_apply _ shapeCasts_S256x2048_S256x256x8 (ix3 r kk h) (ix2 r (bcolB kk h))
      (by rw [Shape.rowMajor_val_two, Shape.rowMajor_val_three]
          show r.val * 2048 + (8 * kk.val + h.val) = (r.val * 256 + kk.val) * 8 + h.val
          omega)).trans ?_
    exact shapeCast_1ab_ab_apply bi shapeCasts_S1x256x2048_S256x2048 r (bcolB kk h)

/-! ## One step of the sweep, at an index -/

/-- The word the maximum starts from is `-∞`. -/
theorem negInf_f32 : Ideal.ofBits .f32 0xFF800000#32 = ⊥ := by simp [Ideal.ofBits, Ideal.ieee]

/-- A column `[8, 256, 1]` made of an `[8, 256]` array reads it at the head and the row. -/
theorem col_apply (x : S8x256.Idx → EReal) (h : Fin 8) (r : Fin 256) :
    shapeCast S8x256x1 x shapeCasts_S8x256_S8x256x1 (ix3 h r 0) = x (ix2 h r) :=
  shapeCast_apply x shapeCasts_S8x256_S8x256x1 (ix3 h r 0) (ix2 h r)
    (by rw [Shape.rowMajor_val_two, Shape.rowMajor_val_three]
        show h.val * 256 + r.val = (h.val * 256 + r.val) * 1 + 0
        omega)

/-- A column spread over 256 keys reads the column. -/
theorem bcast256_apply (x : S8x256x1.Idx → EReal) (h : Fin 8) (r kk : Fin 256) :
    broadcastTo S8x256x256 x broadcasts_S8x256x1_S8x256x256 (ix3 h r kk) = x (ix3 h r 0) :=
  broadcastTo_apply x broadcasts_S8x256x1_S8x256x256 (ix3 h r kk) (ix3 h r 0) fun a => by
    match a with
    | ⟨0, _⟩ => rfl
    | ⟨1, _⟩ => rfl
    | ⟨2, _⟩ => rfl

/-- A column spread over 32 channels reads the column. -/
theorem bcast32_apply (x : S8x256x1.Idx → EReal) (h : Fin 8) (r : Fin 256) (cc : Fin 32) :
    broadcastTo S8x256x32 x broadcasts_S8x256x1_S8x256x32 (ix3 h r cc) = x (ix3 h r 0) :=
  broadcastTo_apply x broadcasts_S8x256x1_S8x256x32 (ix3 h r cc) (ix3 h r 0) fun a => by
    match a with
    | ⟨0, _⟩ => rfl
    | ⟨1, _⟩ => rfl
    | ⟨2, _⟩ => rfl

/-- The index a reduction over the keys visits: head, row, key. -/
theorem lift_keys (h : Fin 8) (r kk : Fin 256) : reduces_S8x256x256_S8x256.lift (ix2 h r) kk = ix3 h r kk :=
  funext fun a => Fin.ext (by
    match a with
    | ⟨0, _⟩ => rfl
    | ⟨1, _⟩ => rfl
    | ⟨2, _⟩ => rfl)

/-- The new running maximum is the body's own. -/
theorem stepM_eq {F : FTy → Type} [FloatOps F] (q k : Vec F S1x8x256x32 .f32) (b : Vec F S1x256x2048 .f32) (sm : Vec F S8x256x1 .f32) :
    stepM q k b sm = k1_pay10 q k b sm := by
  unfold stepM k1_pay3
  exact shapeCast_self _ _

/-- The new running maximum at head `h`, row `r`: the larger of the old one and the row's largest score in the block. -/
theorem stepM_apply (q k : Vec Ideal S1x8x256x32 .f32) (bi : Vec Ideal S1x256x2048 .f32) (sm : Vec Ideal S8x256x1 .f32) (h : Fin 8) (r : Fin 256) :
    (stepM q k bi sm : S8x256x1.Idx → EReal) (ix3 h r 0)
      = max (sm (ix3 h r 0) : EReal) ((Finset.univ : Finset (Fin 256)).fold max ⊥ fun kk => (k1_pay9 q k bi : S8x256x256.Idx → EReal) (ix3 h r kk)) := by
  rw [stepM_eq]
  unfold k1_pay10
  refine congrArg (max (sm (ix3 h r 0) : EReal)) ?_
  refine (col_apply _ h r).trans ?_
  refine (Ideal.multiReduction_maximumf_single (k1_pay9 q k bi) _ reduces_S8x256x256_S8x256 _ _ (ix2 h r)).trans ?_
  show (Finset.univ : Finset (Fin 256)).fold max (Ideal.ofBits .f32 0xFF800000#32) (fun kk => (k1_pay9 q k bi : S8x256x256.Idx → EReal) (reduces_S8x256x256_S8x256.lift (ix2 h r) kk)) = _
  rw [negInf_f32]
  refine Finset.fold_congr fun kk _ => ?_
  exact congrArg (k1_pay9 q k bi : S8x256x256.Idx → EReal) (lift_keys h r kk)

/-- The rescaling factor at head `h`, row `r`. -/
theorem alpha_apply (q k : Vec Ideal S1x8x256x32 .f32) (bi : Vec Ideal S1x256x2048 .f32) (sm : Vec Ideal S8x256x1 .f32) (h : Fin 8) (r : Fin 256) :
    (k1_pay11 q k bi sm sm : S8x256x1.Idx → EReal) (ix3 h r 0)
      = Ideal.exp ((sm (ix3 h r 0) : EReal) - (stepM q k bi sm : S8x256x1.Idx → EReal) (ix3 h r 0)) := by
  rw [stepM_eq]; rfl

/-- The block's weights at head `h`, row `r`, key `kk`. -/
theorem p_apply (q k : Vec Ideal S1x8x256x32 .f32) (bi : Vec Ideal S1x256x2048 .f32) (sm : Vec Ideal S8x256x1 .f32) (h : Fin 8) (r kk : Fin 256) :
    (k1_pay12 q k bi sm : S8x256x256.Idx → EReal) (ix3 h r kk)
      = Ideal.exp ((k1_pay9 q k bi : S8x256x256.Idx → EReal) (ix3 h r kk) - (stepM q k bi sm : S8x256x1.Idx → EReal) (ix3 h r 0)) := by
  rw [stepM_eq]
  unfold k1_pay12
  show Ideal.exp ((k1_pay9 q k bi : S8x256x256.Idx → EReal) (ix3 h r kk) - broadcastTo S8x256x256 (k1_pay10 q k bi sm) broadcasts_S8x256x1_S8x256x256 (ix3 h r kk)) = _
  rw [bcast256_apply]

/-- The new running denominator at head `h`, row `r`: the old one rescaled, plus the block's weights summed over its keys. -/
theorem stepL_apply (q k : Vec Ideal S1x8x256x32 .f32) (bi : Vec Ideal S1x256x2048 .f32) (sm sl : Vec Ideal S8x256x1 .f32) (h : Fin 8) (r : Fin 256) :
    (stepL q k bi sm sl : S8x256x1.Idx → EReal) (ix3 h r 0)
      = Ideal.exp ((sm (ix3 h r 0) : EReal) - (stepM q k bi sm : S8x256x1.Idx → EReal) (ix3 h r 0)) * (sl (ix3 h r 0) : EReal)
        + ∑ kk : Fin 256, Ideal.exp ((k1_pay9 q k bi : S8x256x256.Idx → EReal) (ix3 h r kk) - (stepM q k bi sm : S8x256x1.Idx → EReal) (ix3 h r 0)) := by
  unfold stepL k1_pay1
  refine (congrFun (shapeCast_self _ _) _).trans ?_
  refine congrArg₂ (· + ·) (congrArg₂ (· * ·) (alpha_apply q k bi sm h r) rfl) ?_
  refine (col_apply _ h r).trans ?_
  refine (Ideal.multiReduction_add_single (k1_pay12 q k bi sm) _ reduces_S8x256x256_S8x256 _ _ (ix2 h r)).trans ?_
  show ∑ kk : Fin 256, (k1_pay12 q k bi sm : S8x256x256.Idx → EReal) (reduces_S8x256x256_S8x256.lift (ix2 h r) kk) = _
  refine Finset.sum_congr rfl fun kk _ => ?_
  refine (congrArg (k1_pay12 q k bi sm : S8x256x256.Idx → EReal) (lift_keys h r kk)).trans ?_
  exact p_apply q k bi sm h r kk

/-- The weights-times-values product's dimension numbers, axis by axis: the head is shared, -/
theorem pv_lhs_0 (i : S8x256x32.Idx) (q : dot_S8x256x256_S8x256x32_S8x256x32_2_1_1_2_0_0.contr.Idx) :
    (dot_S8x256x256_S8x256x32_S8x256x32_2_1_1_2_0_0.lhsIdx i q 0).val = (i 0).val := by
  unfold DotDims.lhsIdx
  rw [dif_pos (show (0 : Fin S8x256x256.rank) ∈ dot_S8x256x256_S8x256x32_S8x256x32_2_1_1_2_0_0.lhsBatch by decide)]
  rfl
/-- a row of the weights is a row of the product, -/
theorem pv_lhs_1 (i : S8x256x32.Idx) (q : dot_S8x256x256_S8x256x32_S8x256x32_2_1_1_2_0_0.contr.Idx) :
    (dot_S8x256x256_S8x256x32_S8x256x32_2_1_1_2_0_0.lhsIdx i q 1).val = (i 1).val := by
  unfold DotDims.lhsIdx
  rw [dif_neg (show ¬(1 : Fin S8x256x256.rank) ∈ dot_S8x256x256_S8x256x32_S8x256x32_2_1_1_2_0_0.lhsBatch by decide), dif_pos (show (1 : Fin S8x256x256.rank) ∈ dot_S8x256x256_S8x256x32_S8x256x32_2_1_1_2_0_0.lhsNonContracting by decide)]
  rfl
/-- the key is summed over, -/
theorem pv_lhs_2 (i : S8x256x32.Idx) (q : dot_S8x256x256_S8x256x32_S8x256x32_2_1_1_2_0_0.contr.Idx) :
    (dot_S8x256x256_S8x256x32_S8x256x32_2_1_1_2_0_0.lhsIdx i q 2).val = (q ⟨0, by decide⟩).val :=
  dot_S8x256x256_S8x256x32_S8x256x32_2_1_1_2_0_0.lhsIdx_val_of_single rfl i q
/-- on the values' side too the head is shared, -/
theorem pv_rhs_0 (i : S8x256x32.Idx) (q : dot_S8x256x256_S8x256x32_S8x256x32_2_1_1_2_0_0.contr.Idx) :
    (dot_S8x256x256_S8x256x32_S8x256x32_2_1_1_2_0_0.rhsIdx i q 0).val = (i 0).val := by
  unfold DotDims.rhsIdx
  rw [dif_pos (show (0 : Fin S8x256x32.rank) ∈ dot_S8x256x256_S8x256x32_S8x256x32_2_1_1_2_0_0.rhsBatch by decide)]
  rfl
/-- the key is summed over, -/
theorem pv_rhs_1 (i : S8x256x32.Idx) (q : dot_S8x256x256_S8x256x32_S8x256x32_2_1_1_2_0_0.contr.Idx) :
    (dot_S8x256x256_S8x256x32_S8x256x32_2_1_1_2_0_0.rhsIdx i q 1).val = (q ⟨0, by decide⟩).val :=
  dot_S8x256x256_S8x256x32_S8x256x32_2_1_1_2_0_0.rhsIdx_val_of_single rfl i q
/-- and a channel of the values is a channel of the product. -/
theorem pv_rhs_2 (i : S8x256x32.Idx) (q : dot_S8x256x256_S8x256x32_S8x256x32_2_1_1_2_0_0.contr.Idx) :
    (dot_S8x256x256_S8x256x32_S8x256x32_2_1_1_2_0_0.rhsIdx i q 2).val = (i 2).val := by
  unfold DotDims.rhsIdx
  rw [dif_neg (show ¬(2 : Fin S8x256x32.rank) ∈ dot_S8x256x256_S8x256x32_S8x256x32_2_1_1_2_0_0.rhsBatch by decide), dif_pos (show (2 : Fin S8x256x32.rank) ∈ dot_S8x256x256_S8x256x32_S8x256x32_2_1_1_2_0_0.rhsNonContracting by decide)]
  rfl

/-- The new running numerator at head `h`, row `r`, channel `cc`: the old one rescaled, plus the block's weights against
    its values over the block's keys. -/
theorem stepA_apply (q k v : Vec Ideal S1x8x256x32 .f32) (bi : Vec Ideal S1x256x2048 .f32) (sm : Vec Ideal S8x256x1 .f32) (sa : Vec Ideal S8x256x32 .f32)
    (h : Fin 8) (r : Fin 256) (cc : Fin 32) :
    (stepA q k v bi sm sa : S8x256x32.Idx → EReal) (ix3 h r cc)
      = Ideal.exp ((sm (ix3 h r 0) : EReal) - (stepM q k bi sm : S8x256x1.Idx → EReal) (ix3 h r 0)) * (sa (ix3 h r cc) : EReal)
        + ∑ kk : Fin 256, Ideal.exp ((k1_pay9 q k bi : S8x256x256.Idx → EReal) (ix3 h r kk) - (stepM q k bi sm : S8x256x1.Idx → EReal) (ix3 h r 0)) * (v (ix4 0 h kk cc) : EReal) := by
  unfold stepA k1_pay2
  refine (congrFun (shapeCast_self _ _) _).trans ?_
  refine congrArg₂ (· + ·) (congrArg₂ (· * ·) ?_ rfl) ?_
  · refine (bcast32_apply _ h r cc).trans ?_
    exact alpha_apply q k bi sm h r
  · refine (Ideal.matmul_constant_zero_apply dot_S8x256x256_S8x256x32_S8x256x32_2_1_1_2_0_0 none _ _ (ix3 h r cc)).trans ?_
    rw [← Equiv.sum_comp (contrEquiv1 dot_S8x256x256_S8x256x32_S8x256x32_2_1_1_2_0_0 256 rfl rfl).symm]
    refine Finset.sum_congr rfl fun kk _ => ?_
    have he := contrEquiv1_symm_val dot_S8x256x256_S8x256x32_S8x256x32_2_1_1_2_0_0 256 rfl rfl kk
    have el : dot_S8x256x256_S8x256x32_S8x256x32_2_1_1_2_0_0.lhsIdx (ix3 h r cc) ((contrEquiv1 dot_S8x256x256_S8x256x32_S8x256x32_2_1_1_2_0_0 256 rfl rfl).symm kk) = ix3 h r kk := funext fun a => Fin.ext (by
      match a with
      | ⟨0, _⟩ => exact pv_lhs_0 _ _
      | ⟨1, _⟩ => exact pv_lhs_1 _ _
      | ⟨2, _⟩ => exact (pv_lhs_2 _ _).trans he)
    have er : dot_S8x256x256_S8x256x32_S8x256x32_2_1_1_2_0_0.rhsIdx (ix3 h r cc) ((contrEquiv1 dot_S8x256x256_S8x256x32_S8x256x32_2_1_1_2_0_0 256 rfl rfl).symm kk) = ix3 h kk cc := funext fun a => Fin.ext (by
      match a with
      | ⟨0, _⟩ => exact pv_rhs_0 _ _
      | ⟨1, _⟩ => exact (pv_rhs_1 _ _).trans he
      | ⟨2, _⟩ => exact pv_rhs_2 _ _)
    rw [el, er]
    refine congrArg₂ (· * ·) ?_ ?_
    · exact p_apply q k bi sm h r kk
    · unfold k1_pay8
      exact shapeCast_1abc_abc_apply v shapeCasts_S1x8x256x32_S8x256x32 h kk cc

/-! ## The reset values -/

/-- The running maximum restarts from `-∞`, -/
theorem reset_m (h : Fin 8) (r : Fin 256) : (k1_pay5 (F := Ideal) : S8x256x1.Idx → EReal) (ix3 h r 0) = ⊥ := by
  unfold k1_pay5
  refine (congrFun (shapeCast_self _ _) _).trans ?_
  exact negInf_f32
/-- the running denominator from zero, -/
theorem reset_l (h : Fin 8) (r : Fin 256) : (k1_pay6 (F := Ideal) : S8x256x1.Idx → EReal) (ix3 h r 0) = 0 := by
  unfold k1_pay6
  refine (congrFun (shapeCast_self _ _) _).trans ?_
  exact Ideal.ofBits_zero_f32
/-- and the running numerator from zero. -/
theorem reset_a (h : Fin 8) (r : Fin 256) (cc : Fin 32) : (k1_pay7 (F := Ideal) : S8x256x32.Idx → EReal) (ix3 h r cc) = 0 := by
  unfold k1_pay7
  refine (congrFun (shapeCast_self _ _) _).trans ?_
  exact Ideal.ofBits_zero_f32

/-! ## The blocks the body reads, as entries of the arrays -/

section Arrays

variable (V : (c : Dev nD) → (b : Ref sig .tc) → Buf (Elt Ideal) ((c : Thread nD τ).loc b)) (c : Dev nD)

/-- The index maps over the 128 points, `t = 64·b + 8·qi + kv`: the query block is `(b, ·, qi, ·)`, the key and value
    blocks `(b, ·, kv, ·)`, the bias block `(b, qi, kv)`, the weight and the output bias whole, the output block `(b, qi, ·)`. -/
theorem idx_facts1_in : ∀ t : Fin cfg1.N,
    (win1_0.index t (0 : Fin 4) = t.val / 64 ∧ win1_0.index t (1 : Fin 4) = 0 ∧ win1_0.index t (2 : Fin 4) = t.val / 8 % 8 ∧ win1_0.index t (3 : Fin 4) = 0)
    ∧ (win1_1.index t (0 : Fin 4) = t.val / 64 ∧ win1_1.index t (1 : Fin 4) = 0 ∧ win1_1.index t (2 : Fin 4) = t.val % 8 ∧ win1_1.index t (3 : Fin 4) = 0)
    ∧ (win1_2.index t (0 : Fin 4) = t.val / 64 ∧ win1_2.index t (1 : Fin 4) = 0 ∧ win1_2.index t (2 : Fin 4) = t.val % 8 ∧ win1_2.index t (3 : Fin 4) = 0)
    ∧ (win1_3.index t (0 : Fin 3) = t.val / 64 ∧ win1_3.index t (1 : Fin 3) = t.val / 8 % 8 ∧ win1_3.index t (2 : Fin 3) = t.val % 8)
    ∧ (win1_4.index t (0 : Fin 2) = 0 ∧ win1_4.index t (1 : Fin 2) = 0)
    ∧ win1_5.index t (0 : Fin 1) = 0
    ∧ (win1_6.index t (0 : Fin 3) = t.val / 64 ∧ win1_6.index t (1 : Fin 3) = t.val / 8 % 8 ∧ win1_6.index t (2 : Fin 3) = 0) :=
  (by decide +kernel : ∀ t : Fin grid1.N, _)

/-- The query block at point `t`: head `h`, row `r`, channel `cc` is the query array at batch `t / 64`, head `h`,
    row `256·(t / 8 % 8) + r`, channel `cc`. -/
theorem qblk_apply (t : Fin cfg1.N) (h : Fin 8) (r : Fin 256) (cc : Fin 32) (i : S2x8x2048x32.Idx)
    (h0 : (i 0).val = t.val / 64) (h1 : (i 1).val = h.val) (h2 : (i 2).val = 256 * (t.val / 8 % 8) + r.val) (h3 : (i 3).val = cc.val) :
    (iblk1 V c 0 t : S1x8x256x32.Idx → EReal) (ix4 0 h r cc) = (V c main_v6_0 : S2x8x2048x32.Idx → EReal) i := by
  obtain ⟨⟨e0, e1, e2, e3⟩, -⟩ := idx_facts1_in t
  unfold iblk1
  rw [View.read_apply]
  show V c main_v6_0 _ = V c main_v6_0 _
  congr 1
  funext a
  apply Fin.ext
  match a with
  | ⟨0, _⟩ => show win1_0.index t (0 : Fin 4) * 1 + 1 * 0 = (i 0).val; omega
  | ⟨1, _⟩ => show win1_0.index t (1 : Fin 4) * 8 + 1 * h.val = (i 1).val; omega
  | ⟨2, _⟩ => show win1_0.index t (2 : Fin 4) * 256 + 1 * r.val = (i 2).val; omega
  | ⟨3, _⟩ => show win1_0.index t (3 : Fin 4) * 32 + 1 * cc.val = (i 3).val; omega

/-- The key block at point `t`: head `h`, key `kk`, channel `cc` is the key array at batch `t / 64`, head `h`,
    row `256·(t % 8) + kk`, channel `cc`. -/
theorem kblk_apply (t : Fin cfg1.N) (h : Fin 8) (kk : Fin 256) (cc : Fin 32) (i : S2x8x2048x32.Idx)
    (h0 : (i 0).val = t.val / 64) (h1 : (i 1).val = h.val) (h2 : (i 2).val = 256 * (t.val % 8) + kk.val) (h3 : (i 3).val = cc.val) :
    (iblk1 V c 1 t : S1x8x256x32.Idx → EReal) (ix4 0 h kk cc) = (V c main_v6_1 : S2x8x2048x32.Idx → EReal) i := by
  obtain ⟨-, ⟨e0, e1, e2, e3⟩, -⟩ := idx_facts1_in t
  unfold iblk1
  rw [View.read_apply]
  show V c main_v6_1 _ = V c main_v6_1 _
  congr 1
  funext a
  apply Fin.ext
  match a with
  | ⟨0, _⟩ => show win1_1.index t (0 : Fin 4) * 1 + 1 * 0 = (i 0).val; omega
  | ⟨1, _⟩ => show win1_1.index t (1 : Fin 4) * 8 + 1 * h.val = (i 1).val; omega
  | ⟨2, _⟩ => show win1_1.index t (2 : Fin 4) * 256 + 1 * kk.val = (i 2).val; omega
  | ⟨3, _⟩ => show win1_1.index t (3 : Fin 4) * 32 + 1 * cc.val = (i 3).val; omega

/-- The value block at point `t` likewise, off the value array. -/
theorem vblk_apply (t : Fin cfg1.N) (h : Fin 8) (kk : Fin 256) (cc : Fin 32) (i : S2x8x2048x32.Idx)
    (h0 : (i 0).val = t.val / 64) (h1 : (i 1).val = h.val) (h2 : (i 2).val = 256 * (t.val % 8) + kk.val) (h3 : (i 3).val = cc.val) :
    (iblk1 V c 2 t : S1x8x256x32.Idx → EReal) (ix4 0 h kk cc) = (V c main_v6_2 : S2x8x2048x32.Idx → EReal) i := by
  obtain ⟨-, -, ⟨e0, e1, e2, e3⟩, -⟩ := idx_facts1_in t
  unfold iblk1
  rw [View.read_apply]
  show V c main_v6_2 _ = V c main_v6_2 _
  congr 1
  funext a
  apply Fin.ext
  match a with
  | ⟨0, _⟩ => show win1_2.index t (0 : Fin 4) * 1 + 1 * 0 = (i 0).val; omega
  | ⟨1, _⟩ => show win1_2.index t (1 : Fin 4) * 8 + 1 * h.val = (i 1).val; omega
  | ⟨2, _⟩ => show win1_2.index t (2 : Fin 4) * 256 + 1 * kk.val = (i 2).val; omega
  | ⟨3, _⟩ => show win1_2.index t (3 : Fin 4) * 32 + 1 * cc.val = (i 3).val; omega

/-- The bias block at point `t`: row `r`, merged column `j` is the bias array at batch `t / 64`, row `256·(t / 8 % 8) + r`,
    merged column `2048·(t % 8) + j`. -/
theorem bblk_apply (t : Fin cfg1.N) (r : Fin 256) (j : Fin 2048) (i : S2x2048x16384.Idx)
    (h0 : (i 0).val = t.val / 64) (h1 : (i 1).val = 256 * (t.val / 8 % 8) + r.val) (h2 : (i 2).val = 2048 * (t.val % 8) + j.val) :
    (iblk1 V c 3 t : S1x256x2048.Idx → EReal) (ix3 0 r j) = (V c main_v7 : S2x2048x16384.Idx → EReal) i := by
  obtain ⟨-, -, -, ⟨e0, e1, e2⟩, -⟩ := idx_facts1_in t
  unfold iblk1
  rw [View.read_apply]
  show V c main_v7 _ = V c main_v7 _
  congr 1
  funext a
  apply Fin.ext
  match a with
  | ⟨0, _⟩ => show win1_3.index t (0 : Fin 3) * 1 + 1 * 0 = (i 0).val; omega
  | ⟨1, _⟩ => show win1_3.index t (1 : Fin 3) * 256 + 1 * r.val = (i 1).val; omega
  | ⟨2, _⟩ => show win1_3.index t (2 : Fin 3) * 2048 + 1 * j.val = (i 2).val; omega

/-! ## The sweep's running quantities are the online recursion's -/

/-- Row `r` of query block `qi`. -/
abbrev qrow (qi : Fin 8) (r : Fin 256) : Fin 2048 := ⟨256 * qi.val + r.val, by have := qi.isLt; have := r.isLt; omega⟩

/-- At the point of batch `b`, query block `qi`, key block `kv` the block of scores at head `h`, row `r`, key `kk` is the
    score of query `256·qi + r` against key `256·kv + kk` in head `h` of batch `b`. -/
theorem score_at (b : Fin 2) (qi kv h : Fin 8) (r kk : Fin 256) :
    (k1_pay9 (iblk1 V c 0 (pt1 b qi kv)) (iblk1 V c 1 (pt1 b qi kv)) (iblk1 V c 3 (pt1 b qi kv)) : S8x256x256.Idx → EReal) (ix3 h r kk)
      = Cert.Spec.sRow (V c main_v6_0) (V c main_v6_1) (V c main_v7) b h (qrow qi r) (Cert.Spec.kIdx kv.val kk) := by
  have hb := b.isLt; have hqi := qi.isLt; have hkv := kv.isLt; have hh := h.isLt; have hr := r.isLt; have hkk := kk.isLt
  refine (score_apply (iblk1 V c 0 (pt1 b qi kv)) (iblk1 V c 1 (pt1 b qi kv)) (iblk1 V c 3 (pt1 b qi kv)) h r kk).trans ?_
  unfold Cert.Spec.sRow
  refine congrArg₂ (· + ·) (Finset.sum_congr rfl fun cc _ => congrArg₂ (· * ·) (congrArg (· * Cert.Spec.scaleC) ?_) ?_) ?_
  · refine qblk_apply V c (pt1 b qi kv) h r cc (ix4 b h (qrow qi r) cc) ?_ rfl ?_ rfl
    · show b.val = (64 * b.val + 8 * qi.val + kv.val) / 64; omega
    · show 256 * qi.val + r.val = 256 * ((64 * b.val + 8 * qi.val + kv.val) / 8 % 8) + r.val; omega
  · refine kblk_apply V c (pt1 b qi kv) h kk cc (ix4 b h (Cert.Spec.kIdx kv.val kk) cc) ?_ rfl ?_ rfl
    · show b.val = (64 * b.val + 8 * qi.val + kv.val) / 64; omega
    · show (256 * kv.val + kk.val) % 2048 = 256 * ((64 * b.val + 8 * qi.val + kv.val) % 8) + kk.val; omega
  · refine bblk_apply V c (pt1 b qi kv) r (bcolB kk h) (ix3 b (qrow qi r) (Cert.Spec.bcol (Cert.Spec.kIdx kv.val kk) h)) ?_ ?_ ?_
    · show b.val = (64 * b.val + 8 * qi.val + kv.val) / 64; omega
    · show 256 * qi.val + r.val = 256 * ((64 * b.val + 8 * qi.val + kv.val) / 8 % 8) + r.val; omega
    · show 8 * ((256 * kv.val + kk.val) % 2048) + h.val = 2048 * ((64 * b.val + 8 * qi.val + kv.val) % 8) + (8 * kk.val + h.val); omega

/-- At that point the value block at head `h`, key `kk`, channel `cc` is the value of key `256·kv + kk`. -/
theorem value_at (b : Fin 2) (qi kv h : Fin 8) (kk : Fin 256) (cc : Fin 32) :
    (iblk1 V c 2 (pt1 b qi kv) : S1x8x256x32.Idx → EReal) (ix4 0 h kk cc) = Cert.Spec.vRow (V c main_v6_2) b h cc (Cert.Spec.kIdx kv.val kk) := by
  have hb := b.isLt; have hqi := qi.isLt; have hkv := kv.isLt; have hkk := kk.isLt
  unfold Cert.Spec.vRow
  refine vblk_apply V c (pt1 b qi kv) h kk cc (ix4 b h (Cert.Spec.kIdx kv.val kk) cc) ?_ rfl ?_ rfl
  · show b.val = (64 * b.val + 8 * qi.val + kv.val) / 64; omega
  · show (256 * kv.val + kk.val) % 2048 = 256 * ((64 * b.val + 8 * qi.val + kv.val) % 8) + kk.val; omega

/-- One step of the sweep at the point of batch `b`, query block `qi`, key block `kv`, read at head `h`, row `r`: from a
    running maximum `m`, denominator `l` and numerator `a` there, the step leaves the maximum `M'` of `m` and the block's
    scores, and the denominator and numerator rescaled by `exp (m - M')` plus the block's weights `exp (score - M')`,
    summed alone and against the values. -/
theorem stepAt_apply (b : Fin 2) (qi kv h : Fin 8) (r : Fin 256) (s : Scr Ideal) (m l M' : EReal) (a : Fin 32 → EReal)
    (hm : (s.1 : S8x256x1.Idx → EReal) (ix3 h r 0) = m) (hl : (s.2.1 : S8x256x1.Idx → EReal) (ix3 h r 0) = l)
    (ha : ∀ cc : Fin 32, (s.2.2 : S8x256x32.Idx → EReal) (ix3 h r cc) = a cc)
    (hM' : M' = max m ((Finset.univ : Finset (Fin 256)).fold max ⊥ fun i => Cert.Spec.sRow (V c main_v6_0) (V c main_v6_1) (V c main_v7) b h (qrow qi r) (Cert.Spec.kIdx kv.val i))) :
    ((stepAt V c (pt1 b qi kv) s).1 : S8x256x1.Idx → EReal) (ix3 h r 0) = M'
    ∧ ((stepAt V c (pt1 b qi kv) s).2.1 : S8x256x1.Idx → EReal) (ix3 h r 0)
        = Ideal.exp (m - M') * l + ∑ i : Fin 256, Ideal.exp (Cert.Spec.sRow (V c main_v6_0) (V c main_v6_1) (V c main_v7) b h (qrow qi r) (Cert.Spec.kIdx kv.val i) - M')
    ∧ ∀ cc : Fin 32, ((stepAt V c (pt1 b qi kv) s).2.2 : S8x256x32.Idx → EReal) (ix3 h r cc)
        = Ideal.exp (m - M') * a cc
          + ∑ i : Fin 256, Ideal.exp (Cert.Spec.sRow (V c main_v6_0) (V c main_v6_1) (V c main_v7) b h (qrow qi r) (Cert.Spec.kIdx kv.val i) - M') * Cert.Spec.vRow (V c main_v6_2) b h cc (Cert.Spec.kIdx kv.val i) := by
  have hsc := score_at V c b qi kv h r
  have hM : (stepM (iblk1 V c 0 (pt1 b qi kv)) (iblk1 V c 1 (pt1 b qi kv)) (iblk1 V c 3 (pt1 b qi kv)) s.1 : S8x256x1.Idx → EReal) (ix3 h r 0) = M' := by
    rw [hM']
    refine (stepM_apply (iblk1 V c 0 (pt1 b qi kv)) (iblk1 V c 1 (pt1 b qi kv)) (iblk1 V c 3 (pt1 b qi kv)) s.1 h r).trans ?_
    rw [hm]
    exact congrArg (max m) (Finset.fold_congr fun kk _ => hsc kk)
  unfold stepAt
  refine ⟨hM, ?_, fun cc => ?_⟩
  · refine (stepL_apply (iblk1 V c 0 (pt1 b qi kv)) (iblk1 V c 1 (pt1 b qi kv)) (iblk1 V c 3 (pt1 b qi kv)) s.1 s.2.1 h r).trans ?_
    rw [hM, hm, hl]
    refine congrArg (Ideal.exp (m - M') * l + ·) (Finset.sum_congr rfl fun kk _ => ?_)
    rw [hsc kk]
  · refine (stepA_apply (iblk1 V c 0 (pt1 b qi kv)) (iblk1 V c 1 (pt1 b qi kv)) (iblk1 V c 2 (pt1 b qi kv)) (iblk1 V c 3 (pt1 b qi kv)) s.1 s.2.2 h r cc).trans ?_
    rw [hM, hm, ha cc]
    refine congrArg (Ideal.exp (m - M') * a cc + ·) (Finset.sum_congr rfl fun kk _ => ?_)
    rw [hsc kk, value_at V c b qi kv h kk cc]

/-- The recursion's successor steps, spelled out. -/
theorem onM_succ (s : Fin 2048 → EReal) (j : ℕ) :
    Cert.Spec.onM s (j + 1) = max (Cert.Spec.onM s j) ((Finset.univ : Finset (Fin 256)).fold max ⊥ fun i => s (Cert.Spec.kIdx j i)) := rfl
theorem onL_succ (s : Fin 2048 → EReal) (j : ℕ) :
    Cert.Spec.onL s (j + 1) = Ideal.exp (Cert.Spec.onM s j - Cert.Spec.onM s (j + 1)) * Cert.Spec.onL s j
      + ∑ i : Fin 256, Ideal.exp (s (Cert.Spec.kIdx j i) - Cert.Spec.onM s (j + 1)) := rfl
theorem onA_succ (s v : Fin 2048 → EReal) (j : ℕ) :
    Cert.Spec.onA s v (j + 1) = Ideal.exp (Cert.Spec.onM s j - Cert.Spec.onM s (j + 1)) * Cert.Spec.onA s v j
      + ∑ i : Fin 256, Ideal.exp (s (Cert.Spec.kIdx j i) - Cert.Spec.onM s (j + 1)) * v (Cert.Spec.kIdx j i) := rfl

/-- The scratch contents after a point depend on the point's number only. -/
theorem sAt1_congr (n n' : ℕ) (hn : n < cfg1.N) (e : n = n') : sAt1 V c n hn = sAt1 V c n' (e ▸ hn) := by
  subst e; rfl

/-- THE INVARIANT. After the point of batch `b`, query block `qi`, key block `kv` the three scratch buffers hold, at head
    `h`, row `r` (and channel `cc`), the online recursion's running maximum, denominator and numerator after `kv + 1`
    blocks, for the scores of query `256·qi + r` in head `h` of batch `b` and the values' channel `cc`. -/
theorem sweep_inv (b : Fin 2) (qi h : Fin 8) (r : Fin 256) : ∀ (n : ℕ) (hn : n < 8),
    ((sAt1 V c (pt1 b qi ⟨n, hn⟩).val (pt1 b qi ⟨n, hn⟩).isLt).1 : S8x256x1.Idx → EReal) (ix3 h r 0)
        = Cert.Spec.onM (Cert.Spec.sRow (V c main_v6_0) (V c main_v6_1) (V c main_v7) b h (qrow qi r)) (n + 1)
    ∧ ((sAt1 V c (pt1 b qi ⟨n, hn⟩).val (pt1 b qi ⟨n, hn⟩).isLt).2.1 : S8x256x1.Idx → EReal) (ix3 h r 0)
        = Cert.Spec.onL (Cert.Spec.sRow (V c main_v6_0) (V c main_v6_1) (V c main_v7) b h (qrow qi r)) (n + 1)
    ∧ ∀ cc : Fin 32, ((sAt1 V c (pt1 b qi ⟨n, hn⟩).val (pt1 b qi ⟨n, hn⟩).isLt).2.2 : S8x256x32.Idx → EReal) (ix3 h r cc)
        = Cert.Spec.onA (Cert.Spec.sRow (V c main_v6_0) (V c main_v6_1) (V c main_v7) b h (qrow qi r)) (Cert.Spec.vRow (V c main_v6_2) b h cc) (n + 1) := by
  have hb := b.isLt; have hqi := qi.isLt
  intro n
  induction n with
  | zero =>
    intro hn
    rw [sAt1_first V c (pt1 b qi ⟨0, hn⟩) (by show (64 * b.val + 8 * qi.val + 0) % 8 = 0; omega)]
    exact stepAt_apply V c b qi ⟨0, hn⟩ h r scr0 ⊥ 0 (Cert.Spec.onM (Cert.Spec.sRow (V c main_v6_0) (V c main_v6_1) (V c main_v7) b h (qrow qi r)) (0 + 1)) (fun _ => 0)
      (reset_m h r) (reset_l h r) (fun cc => reset_a h r cc) (onM_succ _ 0)
  | succ n ih =>
    intro hn
    obtain ⟨iM, iL, iA⟩ := ih (by omega)
    rw [sAt1_next V c (pt1 b qi ⟨n + 1, hn⟩) (by show ¬(64 * b.val + 8 * qi.val + (n + 1)) % 8 = 0; omega),
      sAt1_congr V c ((pt1 b qi ⟨n + 1, hn⟩).val - 1) (pt1 b qi ⟨n, by omega⟩).val _ (by show 64 * b.val + 8 * qi.val + (n + 1) - 1 = 64 * b.val + 8 * qi.val + n; omega)]
    exact stepAt_apply V c b qi ⟨n + 1, hn⟩ h r (sAt1 V c (pt1 b qi ⟨n, by omega⟩).val (pt1 b qi ⟨n, by omega⟩).isLt)
      (Cert.Spec.onM (Cert.Spec.sRow (V c main_v6_0) (V c main_v6_1) (V c main_v7) b h (qrow qi r)) (n + 1)) (Cert.Spec.onL (Cert.Spec.sRow (V c main_v6_0) (V c main_v6_1) (V c main_v7) b h (qrow qi r)) (n + 1)) (Cert.Spec.onM (Cert.Spec.sRow (V c main_v6_0) (V c main_v6_1) (V c main_v7) b h (qrow qi r)) (n + 1 + 1))
      (fun cc => Cert.Spec.onA (Cert.Spec.sRow (V c main_v6_0) (V c main_v6_1) (V c main_v7) b h (qrow qi r)) (Cert.Spec.vRow (V c main_v6_2) b h cc) (n + 1))
      iM iL iA (onM_succ _ (n + 1))
/-- After the last key block of batch `b`, query block `qi` the denominator and numerator buffers hold the recursion's
    after all eight blocks. -/
theorem sweep_last (b : Fin 2) (qi h : Fin 8) (r : Fin 256) :
    ((sAt1 V c (pt1 b qi 7).val (pt1 b qi 7).isLt).2.1 : S8x256x1.Idx → EReal) (ix3 h r 0)
        = Cert.Spec.onL (Cert.Spec.sRow (V c main_v6_0) (V c main_v6_1) (V c main_v7) b h (qrow qi r)) 8
    ∧ ∀ cc : Fin 32, ((sAt1 V c (pt1 b qi 7).val (pt1 b qi 7).isLt).2.2 : S8x256x32.Idx → EReal) (ix3 h r cc)
        = Cert.Spec.onA (Cert.Spec.sRow (V c main_v6_0) (V c main_v6_1) (V c main_v7) b h (qrow qi r)) (Cert.Spec.vRow (V c main_v6_2) b h cc) 8 :=
  ⟨(sweep_inv V c b qi h r 7 (by decide)).2.1, (sweep_inv V c b qi h r 7 (by decide)).2.2⟩

/-- THE OUTPUT ARRAY after the region: the sweep's result, as one function of the query, key and value arrays, the bias
    with key and head merged, the transposed output weight and the output bias. -/
theorem sweep_value : ((dat1 (F := Ideal) V c).arrAt 6 cfg1.N : S2x2048x256.Idx → EReal)
    = Cert.Spec.sweepOut (V c main_v6_0) (V c main_v6_1) (V c main_v6_2) (V c main_v7) (V c main_v8) (V c main_arg4) := by
  refine out_arr_of V c _ (fun b qi r f => ?_)
  rw [after1_6]
  refine (outBlk_apply _ _ _ _ r f).trans ?_
  rw [iblk1_4_eq, iblk1_5_eq]
  unfold Cert.Spec.sweepOut
  refine congrArg₂ (· + ·) (Finset.sum_congr rfl fun e _ => congrArg₂ (· * ·) (congrArg₂ Ideal.div ?_ ?_) rfl) rfl
  · exact (sweep_last V c b qi (Cert.Spec.headOf e) r).2 (Cert.Spec.chanOf e)
  · exact (sweep_last V c b qi (Cert.Spec.headOf e) r).1

end Arrays

end Cert.KernelIdeal.H

end
-- ==== Proof.KI.HostValue.lean ====
import proofs.«424001_j42949673623_3_alg».proof.Proof.Gen.KernelIdeal.Launch
import proofs.«424001_j42949673623_3_alg».proof.Proof.Gen.KernelIdeal.Regions
import Idealize.ShloMosaic.Lib.StableHlo.Run
import Idealize.ShloMosaic.Lib.ValueIdx
import Idealize.ShloMosaic.Lib.Pipeline.Value
import Idealize.ShloMosaic.Lib.StableHlo.Predicate

noncomputable section

namespace Cert.KernelIdeal.HostValue

open Idealize.ShloMosaic Idealize.ShloMosaic.TcCoe Idealize.ShloMosaic.ValueIdx
open Cert.KernelIdeal Cert.KernelIdeal.Gen

/-- The second stretch's transpose of `main_arg3`, read at an index. -/
theorem v8_apply (V2 : Valuation τ sig (Elt Ideal)) (e f : Fin 256) :
    (StableHlo.after (hostOps1 (F := Ideal)) V2 (Proc.devRef .tc main_v8) : S256x256.Idx → EReal) (ix2 e f)
      = (V2 (Proc.devRef .tc main_arg3) : S256x256.Idx → EReal) (ix2 f e) := by
  have e0 : (StableHlo.after (hostOps1 (F := Ideal)) V2 (Proc.devRef .tc main_v8) : S256x256.Idx → EReal)
      = transpose S256x256 [1, 0] (V2 (Proc.devRef .tc main_arg3) : S256x256.Idx → EReal) transposes_S256x256_S256x256_1_0 := by
    simp only [hostOps1]; after_results
  rw [e0]
  exact transpose_apply _ _ _ _ _ (fun b => match b with | ⟨0, _⟩ => rfl | ⟨1, _⟩ => rfl)

/-- The second stretch's reshape of `main_arg1`, read at an index. -/
theorem v7_apply (V2 : Valuation τ sig (Elt Ideal)) (b : Fin 2) (q : Fin 2048) (j : Fin 16384) :
    (StableHlo.after (hostOps1 (F := Ideal)) V2 (Proc.devRef .tc main_v7) : S2x2048x16384.Idx → EReal) (ix3 b q j)
      = (V2 (Proc.devRef .tc main_arg1) : S2x2048x2048x8.Idx → EReal)
          (ix4 b q ⟨j.val / 8, by have := j.isLt; omega⟩ ⟨j.val % 8, Nat.mod_lt _ (by decide)⟩) := by
  have e0 : (StableHlo.after (hostOps1 (F := Ideal)) V2 (Proc.devRef .tc main_v7) : S2x2048x16384.Idx → EReal)
      = shapeCast S2x2048x16384 (V2 (Proc.devRef .tc main_arg1) : S2x2048x2048x8.Idx → EReal) shapeCasts_S2x2048x2048x8_S2x2048x16384 := by
    simp only [hostOps1]; after_results; rfl
  rw [e0]
  refine shapeCast_apply _ _ _ _ ?_
  show (S2x2048x2048x8.rowMajor _).val = (S2x2048x16384.rowMajor _).val
  rw [Shape.rowMajor_val_four, Shape.rowMajor_val_three]
  show ((b.val * 2048 + q.val) * 2048 + j.val / 8) * 8 + j.val % 8 = (b.val * 2048 + q.val) * 16384 + j.val
  omega

/-- The table's permutation: position `comp * 256 + h * 32 + c` holds `h * 96 + comp * 32 + c`. -/
def permF (n : Fin 768) : Fin 768 :=
  ⟨96 * ((n.val % 256) / 32) + 32 * (n.val / 256) + n.val % 32, by have := n.isLt; omega⟩

/-- Every entry of the 768-entry table is the permutation's value, as a word. -/
theorem lit0_eq : ∀ n : Fin 768, lit0 n = BitVec.ofNat 32 (permF n).val := by decide +kernel

/-- The gather read at `(e, n)`: row `e` of the operand at the column the start index `idx[n, 0]` names, read signed
    and clamped into `[0, 767]`. -/
theorem gather_apply {α : Type} (x : S256x768.Idx → α) (idx : IVec S768x1 32) (e : Fin 256) (n : Fin 768) :
    Host.gather gather_S256x768_S768x1_S256x768_0_1_n_n_1_1_2561 x idx (ix2 e n)
      = x (ix2 e ⟨min (idx (ix2 n (0 : Fin 1))).toInt.toNat 767, by omega⟩) := by
  unfold Host.gather
  congr 1
  funext a
  refine Fin.ext ?_
  match a with
  | ⟨0, _⟩ =>
    show gather_S256x768_S768x1_S256x768_0_1_n_n_1_1_2561.start (ix2 e n) idx 0 + gather_S256x768_S768x1_S256x768_0_1_n_n_1_1_2561.batchCoord (ix2 e n) 0 + gather_S256x768_S768x1_S256x768_0_1_n_n_1_1_2561.offCoord (ix2 e n) 0 = e.val
    have h0 : (0 : Fin 2) ∉ gather_S256x768_S768x1_S256x768_0_1_n_n_1_1_2561.startIndexMap :=
      fun h => absurd (List.mem_singleton.mp h) (by decide)
    have hk : (0 : Fin 2) ∈ gather_S256x768_S768x1_S256x768_0_1_n_n_1_1_2561.sKept :=
      (GatherDims.mem_sKept _ _).mpr ⟨fun h => absurd (List.mem_singleton.mp h) (by decide), List.not_mem_nil⟩
    rw [GatherDims.batchCoord_eq_zero _ _ _ List.not_mem_nil]
    unfold GatherDims.start GatherDims.offCoord
    rw [dif_neg h0, dif_pos hk]
    simp only [Nat.add_zero, Nat.zero_add]
    rfl
  | ⟨1, _⟩ =>
    show gather_S256x768_S768x1_S256x768_0_1_n_n_1_1_2561.start (ix2 e n) idx 1 + gather_S256x768_S768x1_S256x768_0_1_n_n_1_1_2561.batchCoord (ix2 e n) 1 + gather_S256x768_S768x1_S256x768_0_1_n_n_1_1_2561.offCoord (ix2 e n) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S256x768_S768x1_S256x768_0_1_n_n_1_1_2561.startIndexMap from List.mem_singleton.mpr rfl)]
    have hsi : gather_S256x768_S768x1_S256x768_0_1_n_n_1_1_2561.siIdx (ix2 e n)
        ⟨List.idxOf (1 : Fin 2) gather_S256x768_S768x1_S256x768_0_1_n_n_1_1_2561.startIndexMap,
          List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl

/-- The start indices the gather reads: the table as a column (the select's mask is all false, so the sum with 768 is
    never taken). -/
def startIdx : IVec S768x1 32 :=
  broadcastInDim S768x1 ![0] bcast_S768_S768x1_0
    (select (constantI S768 1 0#1)
      (addi (fun i => lit0 (S768.rowMajor i)) (broadcastInDim S768 ![] bcast_S_S768 (constantI S_ 32 768#32)))
      (fun i => lit0 (S768.rowMajor i)))

/-- The start index at row `n` is the permutation's value at `n`. -/
theorem startIdx_apply (n : Fin 768) : startIdx (ix2 n (0 : Fin 1)) = BitVec.ofNat 32 (permF n).val := by
  unfold startIdx
  rw [broadcastInDim_apply _ _ _ _ (ix1 n) (fun a => match a with | ⟨0, _⟩ => rfl)]
  rw [select_apply]
  show Scalar.select 0#1 _ (lit0 (S768.rowMajor (ix1 n))) = _
  rw [select_zero, show S768.rowMajor (ix1 n) = n from Fin.ext (Shape.rowMajor_val_one _), lit0_eq]

/-- What the first stretch leaves in `main_v5`: the gather of the transposed `main_arg2` at the start indices. -/
theorem v5_term (V0 : Valuation τ sig (Elt Ideal)) :
    (StableHlo.after (hostOps0 (F := Ideal)) V0 (Proc.devRef .tc main_v5) : S256x768.Idx → EReal)
      = Host.gather gather_S256x768_S768x1_S256x768_0_1_n_n_1_1_2561
          (transpose S256x768 [1, 0] (V0 (Proc.devRef .tc main_arg2) : S768x256.Idx → EReal) transposes_S768x256_S256x768_1_0)
          startIdx := by
  simp only [hostOps0]; after_results; rfl

/-- The first stretch's gather, read at an index: column `n` of `main_v5` is row `permF n` of `main_arg2`. -/
theorem v5_apply (V0 : Valuation τ sig (Elt Ideal)) (e : Fin 256) (n : Fin 768) :
    (StableHlo.after (hostOps0 (F := Ideal)) V0 (Proc.devRef .tc main_v5) : S256x768.Idx → EReal) (ix2 e n)
      = (V0 (Proc.devRef .tc main_arg2) : S768x256.Idx → EReal) (ix2 (permF n) e) := by
  rw [v5_term, gather_apply]
  refine transpose_apply _ _ _ _ _ (fun b => match b with | ⟨0, _⟩ => rfl | ⟨1, _⟩ => ?_)
  show (permF n).val = min (startIdx (ix2 n (0 : Fin 1))).toInt.toNat 767
  have hp := (permF n).isLt
  rw [startIdx_apply, StableHlo.Predicate.toInt_ofNat_small _ (by omega), Int.toNat_natCast]
  omega

/-- The first stretch leaves every buffer it does not write as it was (`hostOps0_W` lists the ones it writes). -/
theorem hostOps0_of {F : FTy → Type} [FloatOps F] (V : Valuation τ sig (Elt F)) (r : Ref sig .tc) (h : r ∉ hostOps0_W) :
    StableHlo.after (hostOps0 (F := F)) V (Proc.devRef .tc r) = V (Proc.devRef .tc r) :=
  StableHlo.after_of_writes_sub hostOps0 V hostOps0_writes h

/-- The second stretch leaves every buffer it does not write as it was (`hostOps1_W` lists the ones it writes). -/
theorem hostOps1_of {F : FTy → Type} [FloatOps F] (V : Valuation τ sig (Elt F)) (r : Ref sig .tc) (h : r ∉ hostOps1_W) :
    StableHlo.after (hostOps1 (F := F)) V (Proc.devRef .tc r) = V (Proc.devRef .tc r) :=
  StableHlo.after_of_writes_sub hostOps1 V hostOps1_writes h

end Cert.KernelIdeal.HostValue

end
-- ==== Proof.KI.Finite.lean ====
import proofs.«424001_j42949673623_3_alg».proof.Defs
import Idealize.ShloMosaic.Lib.ReduceAll
import Idealize.ShloMosaic.Lib.ValueIdx
import Idealize.ShloMosaic.PureOps.Ideal.Laws
import Mathlib.Data.EReal.Basic

/-!
  From the printed precondition to "every input entry is a real number", at the ideal instance.

  The precondition is the conjunction of five `all (|x| < +∞)`, one for each argument array. At the ideal
  instance an entry is an extended real, `|x|` is `max x (-x)`, the bound `0x7F800000` denotes `⊤` and the
  comparison is the order's. So each conjunct says `max x (-x) < ⊤` of every entry `x`, which excludes `⊤` and `⊥`
  and leaves the reals.
-/

noncomputable section

namespace Cert.KernelIdeal.Finite

open Idealize.ShloMosaic Idealize.SL.Sem

/-- The rank-0 shape has one index. -/
instance subsingleton_S_ : Subsingleton Cert.Pre_finite_inputs.S_.Idx :=
  ⟨fun a b => funext fun d => d.elim0⟩

/-- The f32 pattern `0x7F800000` denotes `+∞`. -/
theorem ofBits_inf : Ideal.ofBits .f32 0x7F800000#32 = (⊤ : EReal) := by
  simp [Ideal.ofBits, Ideal.ieee]

/-- One entry: `|x| < +∞` read as 1 leaves `x` a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- One array: `all (|x| < +∞)` read as 1 leaves every entry of `x` a real number. -/
theorem all_real {s u : Shape} {axes : List (Fin s.rank)} (x : FVec Ideal s .f32)
    (bc : Cert.Pre_finite_inputs.S_.BroadcastsInDim s (![] : Fin 0 → Fin s.rank))
    (hr : s.ReducesTo axes Cert.Pre_finite_inputs.S_) (hu : 0 < u.numel) (init : u.Idx → BitVec 1)
    (j : Cert.Pre_finite_inputs.S_.Idx)
    (e : Host.reduce IntOp.andi
          (cmpf .olt (Host.absf x)
            (broadcastInDim s ![] bc (constant (F := Ideal) Cert.Pre_finite_inputs.S_ .f32 0x7F800000#32)))
          init hr hu j = 1#1) :
    ∀ i, ∃ r : ℝ, (x i : EReal) = (r : EReal) := by
  intro i
  have hi := Host.reduce_andi_all _ init hr hu j e i
  exact real_of_abs_lt_inf (x i) hi

/-- The printed precondition of the idealized kernel leaves every entry of its five argument arrays a real number. -/
theorem of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (m ((c.tc : Thread Cert.KernelIdeal.nD Cert.KernelIdeal.τ).loc Cert.KernelIdeal.main_arg0) : Cert.KernelIdeal.S2x2048x256.Idx → EReal) i = (r : EReal))
    ∧ (∀ i, ∃ r : ℝ, (m ((c.tc : Thread Cert.KernelIdeal.nD Cert.KernelIdeal.τ).loc Cert.KernelIdeal.main_arg1) : Cert.KernelIdeal.S2x2048x2048x8.Idx → EReal) i = (r : EReal))
    ∧ (∀ i, ∃ r : ℝ, (m ((c.tc : Thread Cert.KernelIdeal.nD Cert.KernelIdeal.τ).loc Cert.KernelIdeal.main_arg2) : Cert.KernelIdeal.S768x256.Idx → EReal) i = (r : EReal))
    ∧ (∀ i, ∃ r : ℝ, (m ((c.tc : Thread Cert.KernelIdeal.nD Cert.KernelIdeal.τ).loc Cert.KernelIdeal.main_arg3) : Cert.KernelIdeal.S256x256.Idx → EReal) i = (r : EReal))
    ∧ (∀ i, ∃ r : ℝ, (m ((c.tc : Thread Cert.KernelIdeal.nD Cert.KernelIdeal.τ).loc Cert.KernelIdeal.main_arg4) : Cert.KernelIdeal.S256.Idx → EReal) i = (r : EReal)) := by
  have e := congrFun (h c) ValueIdx.ix0
  dsimp only [Cert.Pre_finite_inputs.fn, Cert.Pre_finite_inputs.fn_part1, andi] at e
  obtain ⟨e0123, e4⟩ := IntOp.andi_eq_one.1 e
  obtain ⟨e012, e3⟩ := IntOp.andi_eq_one.1 e0123
  obtain ⟨e01, e2⟩ := IntOp.andi_eq_one.1 e012
  obtain ⟨e0, e1⟩ := IntOp.andi_eq_one.1 e01
  exact ⟨all_real _ _ _ _ _ _ e0, all_real _ _ _ _ _ _ e1, all_real _ _ _ _ _ _ e2, all_real _ _ _ _ _ _ e3,
    all_real _ _ _ _ _ _ e4⟩

end Cert.KernelIdeal.Finite

end
-- ==== Proof.OnlineSoftmax.lean ====
/-
  The online (blockwise) softmax recursion computes the same weighted sum as the reference softmax.

  For a row of real scores and real values, the running maximum after at least one block is a real
  number, the running numerator after j blocks is the sum over the first j blocks of
  exp (score - running maximum) * value, and the running denominator is the same sum with every
  value equal to one.  The quotient of two such sums does not depend on which real number is
  subtracted inside the exponentials, so it equals the reference's softmax-weighted sum.
-/
import proofs.«424001_j42949673623_3_alg».proof.Proof.Spec
import Mathlib.Data.EReal.Operations
import Mathlib.Data.Finset.Fold
import Mathlib.Data.Fintype.BigOperators
import Mathlib.Logic.Equiv.Fin.Basic
import Mathlib.Order.MinMax
import Mathlib.Analysis.Complex.Exponential
import Mathlib.Algebra.BigOperators.Field
import Mathlib.Algebra.Order.BigOperators.Group.Finset
import Mathlib.Tactic.FieldSimp
import Mathlib.Tactic.Ring

noncomputable section

namespace Cert.Spec

open Idealize.ShloMosaic

/-! ## Coercions of finite sums and maxima -/

/-- The coercion of a finite sum of reals is the sum of the coercions. -/
theorem coe_sum {ι : Type*} (t : Finset ι) (f : ι → ℝ) :
    ((∑ i ∈ t, f i : ℝ) : EReal) = ∑ i ∈ t, (f i : EReal) := by
  classical
  refine Finset.induction_on t ?_ ?_
  · simp
  · intro a t ha ih
    rw [Finset.sum_insert ha, Finset.sum_insert ha, EReal.coe_add, ih]

/-- The maximum, folded from `-∞`, of a nonempty finite family of reals is a real. -/
theorem fold_max_real {ι : Type*} (t : Finset ι) (ht : t.Nonempty) (f : ι → ℝ) :
    ∃ r : ℝ, t.fold max (⊥ : EReal) (fun i => (f i : EReal)) = (r : EReal) := by
  obtain ⟨x, hx⟩ := ht
  refine ⟨(t.fold max (⊥ : EReal) (fun i => (f i : EReal))).toReal, (EReal.coe_toReal ?_ ?_).symm⟩
  · apply ne_of_lt
    rw [Finset.fold_max_lt]
    exact ⟨bot_lt_top, fun i _ => EReal.coe_lt_top _⟩
  · apply ne_of_gt
    have h : (f x : EReal) ≤ t.fold max (⊥ : EReal) (fun i => (f i : EReal)) :=
      (Finset.le_fold_max _).mpr (Or.inr ⟨x, hx, le_rfl⟩)
    exact lt_of_lt_of_le (EReal.bot_lt_coe _) h

theorem coe_max (a b : ℝ) : ((max a b : ℝ) : EReal) = max (a : EReal) (b : EReal) :=
  EReal.coe_strictMono.monotone.map_max

/-! ## A real row, seen in the extended reals -/

/-- A row of reals as a row of extended reals. -/
def up (f : Fin 2048 → ℝ) : Fin 2048 → EReal := fun k => (f k : EReal)

@[simp] theorem up_apply (f : Fin 2048 → ℝ) (k : Fin 2048) : up f k = (f k : EReal) := rfl

/-- The maximum of block j of a real row, as a real. -/
def bMax (sr : Fin 2048 → ℝ) (j : ℕ) : ℝ :=
  ((Finset.univ : Finset (Fin 256)).fold max (⊥ : EReal) (fun i => (sr (kIdx j i) : EReal))).toReal

theorem fold_block (sr : Fin 2048 → ℝ) (j : ℕ) :
    (Finset.univ : Finset (Fin 256)).fold max (⊥ : EReal) (fun i => up sr (kIdx j i))
      = (bMax sr j : EReal) := by
  obtain ⟨r, hr⟩ := fold_max_real (Finset.univ : Finset (Fin 256)) Finset.univ_nonempty
    (fun i => sr (kIdx j i))
  have h : bMax sr j = r := by unfold bMax; rw [hr]; rfl
  rw [h]; exact hr

/-- The running maximum as a real; entry 0 is block 0's maximum so that entry 1 equals it too. -/
def rM (sr : Fin 2048 → ℝ) : ℕ → ℝ
  | 0 => bMax sr 0
  | j + 1 => max (rM sr j) (bMax sr j)

theorem onM_succ (sr : Fin 2048 → ℝ) (j : ℕ) : onM (up sr) (j + 1) = (rM sr (j + 1) : EReal) := by
  induction j with
  | zero =>
    show max (onM (up sr) 0) _ = ((max (bMax sr 0) (bMax sr 0) : ℝ) : EReal)
    rw [fold_block, max_self]
    exact max_eq_right bot_le
  | succ j ih =>
    show max (onM (up sr) (j + 1)) _ = ((max (rM sr (j + 1)) (bMax sr (j + 1)) : ℝ) : EReal)
    rw [fold_block, ih, coe_max]

theorem onAlpha_zero (sr : Fin 2048 → ℝ) : onAlpha (up sr) 0 = 0 := by
  unfold onAlpha
  rw [onM_succ]
  show Ideal.exp (⊥ - _) = 0
  rw [EReal.bot_sub]; rfl

theorem onAlpha_succ (sr : Fin 2048 → ℝ) (j : ℕ) :
    onAlpha (up sr) (j + 1) = ((Real.exp (rM sr (j + 1) - rM sr (j + 2)) : ℝ) : EReal) := by
  unfold onAlpha
  rw [onM_succ, onM_succ, ← EReal.coe_sub, Ideal.exp_coe]

theorem onP_eq (sr : Fin 2048 → ℝ) (j : ℕ) (i : Fin 256) :
    onP (up sr) j i = ((Real.exp (sr (kIdx j i) - rM sr (j + 1)) : ℝ) : EReal) := by
  unfold onP
  rw [onM_succ, up_apply, ← EReal.coe_sub, Ideal.exp_coe]

/-- Block j's contribution to the numerator is the coercion of a real sum. -/
theorem block_sum (sr vr : Fin 2048 → ℝ) (j : ℕ) :
    ∑ i : Fin 256, onP (up sr) j i * up vr (kIdx j i)
      = ((∑ i : Fin 256, Real.exp (sr (kIdx j i) - rM sr (j + 1)) * vr (kIdx j i) : ℝ) : EReal) := by
  rw [coe_sum]
  refine Finset.sum_congr rfl (fun i _ => ?_)
  rw [onP_eq, up_apply, EReal.coe_mul]

/-- Rescaling a real sum of exponentials from one subtracted constant to another. -/
theorem rescale_sum (g w : ℕ → Fin 256 → ℝ) (m m' : ℝ) (j : ℕ) :
    Real.exp (m - m') * (∑ b ∈ Finset.range j, ∑ i : Fin 256, Real.exp (g b i - m) * w b i)
      = ∑ b ∈ Finset.range j, ∑ i : Fin 256, Real.exp (g b i - m') * w b i := by
  rw [Finset.mul_sum]
  refine Finset.sum_congr rfl (fun b _ => ?_)
  rw [Finset.mul_sum]
  refine Finset.sum_congr rfl (fun i _ => ?_)
  rw [← mul_assoc, ← Real.exp_add]
  congr 2; ring

/-- The running numerator after j + 1 blocks, in closed form. -/
theorem onA_succ (sr vr : Fin 2048 → ℝ) (j : ℕ) :
    onA (up sr) (up vr) (j + 1)
      = ((∑ b ∈ Finset.range (j + 1), ∑ i : Fin 256,
            Real.exp (sr (kIdx b i) - rM sr (j + 1)) * vr (kIdx b i) : ℝ) : EReal) := by
  induction j with
  | zero =>
    show onAlpha (up sr) 0 * onA (up sr) (up vr) 0 + _ = _
    rw [onAlpha_zero, block_sum, Finset.sum_range_one]
    show (0 : EReal) * 0 + _ = _
    rw [mul_zero, zero_add]
  | succ j ih =>
    show onAlpha (up sr) (j + 1) * onA (up sr) (up vr) (j + 1) + _ = _
    rw [onAlpha_succ, ih, block_sum, ← EReal.coe_mul, ← EReal.coe_add,
      rescale_sum (fun b i => sr (kIdx b i)) (fun b i => vr (kIdx b i)),
      Finset.sum_range_succ _ (j + 1)]

/-- The denominator recursion is the numerator recursion with every value equal to one. -/
theorem onL_eq_onA (s : Fin 2048 → EReal) (j : ℕ) : onL s j = onA s (fun _ => 1) j := by
  induction j with
  | zero => rfl
  | succ j ih =>
    show onAlpha s j * onL s j + _ = onAlpha s j * onA s (fun _ => 1) j + _
    rw [ih]
    congr 1
    refine Finset.sum_congr rfl (fun i _ => ?_)
    rw [mul_one]

theorem up_one : up (fun _ => (1 : ℝ)) = fun _ => (1 : EReal) := by
  funext k; exact EReal.coe_one

/-! ## The 8 blocks of 256 keys are the 2048 keys -/

theorem sum_blocks (g : Fin 2048 → ℝ) :
    ∑ b ∈ Finset.range 8, ∑ i : Fin 256, g (kIdx b i) = ∑ k : Fin 2048, g k := by
  rw [Finset.sum_range (fun b => ∑ i : Fin 256, g (kIdx b i)),
    ← Fintype.sum_prod_type' (fun (b : Fin 8) (i : Fin 256) => g (kIdx b.val i))]
  refine Fintype.sum_equiv (finProdFinEquiv : Fin 8 × Fin 256 ≃ Fin 2048) _ _ (fun p => ?_)
  congr 1
  apply Fin.ext
  have h1 := p.1.isLt
  have h2 := p.2.isLt
  simp only [kIdx, finProdFinEquiv_apply_val]
  omega

theorem onA_eight (sr vr : Fin 2048 → ℝ) :
    onA (up sr) (up vr) 8
      = ((∑ k : Fin 2048, Real.exp (sr k - rM sr 8) * vr k : ℝ) : EReal) := by
  have h := onA_succ sr vr 7
  rw [sum_blocks (fun k => Real.exp (sr k - rM sr (7 + 1)) * vr k)] at h
  exact h

theorem onL_eight (sr : Fin 2048 → ℝ) :
    onL (up sr) 8 = ((∑ k : Fin 2048, Real.exp (sr k - rM sr 8) : ℝ) : EReal) := by
  rw [onL_eq_onA, ← up_one, onA_eight]
  simp only [mul_one]

/-! ## The reference, for a real row -/

theorem rowMax_real (sr : Fin 2048 → ℝ) : ∃ M : ℝ, rowMax (up sr) = (M : EReal) :=
  fold_max_real (Finset.univ : Finset (Fin 2048)) Finset.univ_nonempty sr

theorem refE_eq (sr : Fin 2048 → ℝ) (M : ℝ) (hM : rowMax (up sr) = (M : EReal)) (k : Fin 2048) :
    refE (up sr) k = ((Real.exp (sr k - M) : ℝ) : EReal) := by
  unfold refE
  rw [hM, up_apply, ← EReal.coe_sub, Ideal.exp_coe]

theorem refZ_eq (sr : Fin 2048 → ℝ) (M : ℝ) (hM : rowMax (up sr) = (M : EReal)) :
    refZ (up sr) = ((∑ k : Fin 2048, Real.exp (sr k - M) : ℝ) : EReal) := by
  unfold refZ
  rw [coe_sum]
  exact Finset.sum_congr rfl (fun k _ => refE_eq sr M hM k)

theorem sum_exp_pos (sr : Fin 2048 → ℝ) (m : ℝ) : 0 < ∑ k : Fin 2048, Real.exp (sr k - m) :=
  Finset.sum_pos (fun k _ => Real.exp_pos _) Finset.univ_nonempty

/-- The quotient of the two sums does not depend on the constant subtracted in the exponentials. -/
theorem real_ratio (sr vr : Fin 2048 → ℝ) (m M : ℝ) :
    (∑ k : Fin 2048, Real.exp (sr k - m) * vr k) * (1 / ∑ k : Fin 2048, Real.exp (sr k - m))
      = ∑ k : Fin 2048, vr k * (Real.exp (sr k - M) * (1 / ∑ k : Fin 2048, Real.exp (sr k - M))) := by
  have hc : ∀ k, Real.exp (sr k - M) = Real.exp (sr k - m) * Real.exp (m - M) := fun k => by
    rw [← Real.exp_add]; congr 1; ring
  have hL0 : (∑ k : Fin 2048, Real.exp (sr k - m)) ≠ 0 := (sum_exp_pos sr m).ne'
  have hc0 : Real.exp (m - M) ≠ 0 := (Real.exp_pos _).ne'
  have hZ : ∑ k : Fin 2048, Real.exp (sr k - M)
      = (∑ k : Fin 2048, Real.exp (sr k - m)) * Real.exp (m - M) := by
    rw [Finset.sum_mul]; exact Finset.sum_congr rfl (fun k _ => hc k)
  rw [hZ, Finset.sum_mul]
  refine Finset.sum_congr rfl (fun k _ => ?_)
  rw [hc k]
  field_simp

/-! ## The identity -/

theorem online_eq_real (sr vr : Fin 2048 → ℝ) :
    Ideal.div (onA (up sr) (up vr) 8) (onL (up sr) 8) = refAttn (up sr) (up vr) := by
  obtain ⟨M, hM⟩ := rowMax_real sr
  rw [onA_eight, onL_eight, Ideal.div_coe (sum_exp_pos sr (rM sr 8)).ne', ← EReal.coe_mul,
    real_ratio sr vr (rM sr 8) M, coe_sum]
  unfold refAttn
  refine Finset.sum_congr rfl (fun k _ => ?_)
  rw [refE_eq sr M hM, refZ_eq sr M hM, Ideal.div_coe (sum_exp_pos sr M).ne', up_apply,
    EReal.coe_mul, EReal.coe_mul]

theorem online_eq (s v : Fin 2048 → EReal) (hs : ∀ k, ∃ r : ℝ, s k = (r : EReal))
    (hv : ∀ k, ∃ r : ℝ, v k = (r : EReal)) :
    Ideal.div (onA s v 8) (onL s 8) = refAttn s v := by
  choose sr hsr using hs
  choose vr hvr using hv
  have h1 : s = up sr := funext hsr
  have h2 : v = up vr := funext hvr
  rw [h1, h2]
  exact online_eq_real sr vr

end Cert.Spec

end
-- ==== Proof.Bridge.lean ====
/-
  The kernel's arrangement of attention equals the reference's.

  The sweep reads projected queries, keys and values, a bias whose key and head share one axis, and the transposed
  output weight.  When those arrays are what the reference computes from its inputs, each score row and value row of
  the sweep is the reference's, every entry of both is a real number, so the online recursion's numerator over
  denominator is the row's softmax-weighted sum, and the two results agree entry by entry.
-/
import proofs.«424001_j42949673623_3_alg».proof.Proof.SweepSpec
import proofs.«424001_j42949673623_3_alg».proof.Proof.OnlineSoftmax
import Mathlib.Data.EReal.Basic
import Mathlib.Data.EReal.Operations
import Mathlib.Algebra.BigOperators.Group.Finset.Basic

noncomputable section

namespace Cert.Spec

open Idealize.ShloMosaic Idealize.ShloMosaic.ValueIdx

/-! ## Real-valued entries -/

/-- A product of two reals is a real. -/
theorem real_mul {a b : EReal} (ha : ∃ r : ℝ, a = (r : EReal)) (hb : ∃ r : ℝ, b = (r : EReal)) :
    ∃ r : ℝ, a * b = (r : EReal) := by
  obtain ⟨r, rfl⟩ := ha
  obtain ⟨t, rfl⟩ := hb
  exact ⟨r * t, (EReal.coe_mul r t).symm⟩

/-- A sum of two reals is a real. -/
theorem real_add {a b : EReal} (ha : ∃ r : ℝ, a = (r : EReal)) (hb : ∃ r : ℝ, b = (r : EReal)) :
    ∃ r : ℝ, a + b = (r : EReal) := by
  obtain ⟨r, rfl⟩ := ha
  obtain ⟨t, rfl⟩ := hb
  exact ⟨r + t, (EReal.coe_add r t).symm⟩

/-- A finite sum of reals is a real. -/
theorem real_sum {ι : Type*} [Fintype ι] (f : ι → EReal) (hf : ∀ i, ∃ r : ℝ, f i = (r : EReal)) :
    ∃ r : ℝ, ∑ i, f i = (r : EReal) := by
  choose g hg using hf
  refine ⟨∑ i, g i, ?_⟩
  rw [coe_sum]
  exact Finset.sum_congr rfl (fun i _ => hg i)

/-- The scale is a real: its exponent field is neither all ones nor zero, so the word is a normal number. -/
theorem scaleC_real : ∃ r : ℝ, scaleC = (r : EReal) := by
  have h1 : ¬ ((0x3E3504F3#32).extractLsb' 23 8).toNat = 2 ^ 8 - 1 := by decide
  have h2 : ¬ ((0x3E3504F3#32).extractLsb' 23 8).toNat = 0 := by decide
  show ∃ r : ℝ, Ideal.ofBits .f32 0x3E3504F3#32 = (r : EReal)
  simp only [Ideal.ofBits, Ideal.ieee, h1, h2, if_false]
  exact ⟨_, rfl⟩

section
variable (x : XArr) (bias : BiasArr) (w : WProjArr)
  (hx : ∀ i, ∃ r : ℝ, x i = (r : EReal)) (hbias : ∀ i, ∃ r : ℝ, bias i = (r : EReal))
  (hw : ∀ i, ∃ r : ℝ, w i = (r : EReal))
include hx hw

/-- A projected entry is a real. -/
theorem proj_real (b : Fin 2) (l : Fin 2048) (f : Fin 768) : ∃ r : ℝ, proj x w b l f = (r : EReal) :=
  real_sum _ (fun e => real_mul (hx _) (hw _))

/-- A value row's entries are reals. -/
theorem vrow_real (b : Fin 2) (h : Fin 8) (c : Fin 32) (k : Fin 2048) : ∃ r : ℝ, vrow x w b h c k = (r : EReal) :=
  proj_real x w hx hw b k (fv h c)

include hbias

/-- A score is a real. -/
theorem score_real (b : Fin 2) (h : Fin 8) (q k : Fin 2048) : ∃ r : ℝ, score x w bias b h q k = (r : EReal) :=
  real_add (real_sum _ (fun c => real_mul (real_mul (proj_real x w hx hw b q (fq h c)) scaleC_real)
    (proj_real x w hx hw b k (fk h c)))) (hbias _)

end

/-! ## The sweep's rows are the reference's rows -/

/-- The merged column `8 k + h` splits back into key `k` and head `h`. -/
theorem bcol_div (k : Fin 2048) (h : Fin 8) (p : (bcol k h).val / 8 < 2048) :
    (⟨(bcol k h).val / 8, p⟩ : Fin 2048) = k :=
  Fin.ext (by show (8 * k.val + h.val) / 8 = k.val; have := h.isLt; omega)

theorem bcol_mod (k : Fin 2048) (h : Fin 8) (p : (bcol k h).val % 8 < 8) :
    (⟨(bcol k h).val % 8, p⟩ : Fin 8) = h :=
  Fin.ext (by show (8 * k.val + h.val) % 8 = h.val; have := h.isLt; omega)

/-- The sweep's score row is the reference's. -/
theorem sRow_eq (x : XArr) (bias : BiasArr) (w : WProjArr) (Q Kk : QArr) (Bi : BiArr)
    (hQ : ∀ (b : Fin 2) (h : Fin 8) (l : Fin 2048) (cc : Fin 32), Q (ix4 b h l cc) = proj x w b l (fq h cc))
    (hK : ∀ (b : Fin 2) (h : Fin 8) (l : Fin 2048) (cc : Fin 32), Kk (ix4 b h l cc) = proj x w b l (fk h cc))
    (hBi : ∀ (b : Fin 2) (q : Fin 2048) (j : Fin 16384), Bi (ix3 b q j) = bias (ix4 b q ⟨j.val / 8, by have := j.isLt; omega⟩ ⟨j.val % 8, Nat.mod_lt _ (by decide)⟩))
    (b : Fin 2) (h : Fin 8) (q : Fin 2048) : sRow Q Kk Bi b h q = score x w bias b h q := by
  funext k
  unfold sRow score
  rw [hBi, bcol_div, bcol_mod]
  congr 1
  exact Finset.sum_congr rfl (fun cc _ => by rw [hQ, hK])

/-- The sweep's value row is the reference's. -/
theorem vRow_eq (x : XArr) (w : WProjArr) (Vv : QArr)
    (hV : ∀ (b : Fin 2) (h : Fin 8) (l : Fin 2048) (cc : Fin 32), Vv (ix4 b h l cc) = proj x w b l (fv h cc))
    (b : Fin 2) (h : Fin 8) (cc : Fin 32) : vRow Vv b h cc = vrow x w b h cc := by
  funext k
  unfold vRow vrow
  rw [hV]

/-! ## The two results agree -/

theorem sweep_eq_G (x : XArr) (bias : BiasArr) (w : WProjArr) (wo : WOArr) (bo : BOArr)
    (hx : ∀ i, ∃ r : ℝ, x i = (r : EReal)) (hbias : ∀ i, ∃ r : ℝ, bias i = (r : EReal)) (hw : ∀ i, ∃ r : ℝ, w i = (r : EReal))
    (Q Kk Vv : QArr) (Bi : BiArr) (WoT : WOArr)
    (hQ : ∀ (b : Fin 2) (h : Fin 8) (l : Fin 2048) (cc : Fin 32), Q (ix4 b h l cc) = proj x w b l (fq h cc))
    (hK : ∀ (b : Fin 2) (h : Fin 8) (l : Fin 2048) (cc : Fin 32), Kk (ix4 b h l cc) = proj x w b l (fk h cc))
    (hV : ∀ (b : Fin 2) (h : Fin 8) (l : Fin 2048) (cc : Fin 32), Vv (ix4 b h l cc) = proj x w b l (fv h cc))
    (hBi : ∀ (b : Fin 2) (q : Fin 2048) (j : Fin 16384), Bi (ix3 b q j) = bias (ix4 b q ⟨j.val / 8, by have := j.isLt; omega⟩ ⟨j.val % 8, Nat.mod_lt _ (by decide)⟩))
    (hWo : ∀ e f : Fin 256, WoT (ix2 e f) = wo (ix2 f e)) :
    sweepOut Q Kk Vv Bi WoT bo = G x bias w wo bo := by
  funext i
  unfold sweepOut G
  congr 1
  refine Finset.sum_congr rfl (fun e _ => ?_)
  have hs := sRow_eq x bias w Q Kk Bi hQ hK hBi (i 0) (headOf e) (i 1)
  have hv := vRow_eq x w Vv hV (i 0) (headOf e) (chanOf e)
  have ho := online_eq (score x w bias (i 0) (headOf e) (i 1)) (vrow x w (i 0) (headOf e) (chanOf e))
    (score_real x bias w hx hbias hw (i 0) (headOf e) (i 1)) (vrow_real x w hx hw (i 0) (headOf e) (chanOf e))
  have hwo := hWo e (i 2)
  rw [hs, hv, ho, hwo]
  rfl

end Cert.Spec

end
-- ==== Proof.KI.Value.lean ====
/-
  The kernel's result is the specification's: the last step on the kernel's side.  The attention region leaves the
  sweep's value of the arrays it reads (Reg1Value); those arrays are, entry by entry, what the projection region and
  the host operations made of the arguments — the queries, keys and values are rows of `x` against the rows of
  `W_proj` that the column permutation selects (head `h` owns rows `96 h .. 96 h + 95`: 32 for the query, 32 for the
  key, 32 for the value), the bias with its last two axes merged, `W_o` transposed, `b_o` itself —; and with every
  argument entry a real number the sweep's arrangement equals the reference's (Bridge).
-/
import proofs.«424001_j42949673623_3_alg».proof.Proof.KI.Run
import proofs.«424001_j42949673623_3_alg».proof.Proof.KI.Reg0Value
import proofs.«424001_j42949673623_3_alg».proof.Proof.KI.Reg1Value
import proofs.«424001_j42949673623_3_alg».proof.Proof.KI.HostValue
import proofs.«424001_j42949673623_3_alg».proof.Proof.KI.Finite
import proofs.«424001_j42949673623_3_alg».proof.Proof.Bridge

set_option maxRecDepth 16384

noncomputable section

namespace Cert.KernelIdeal.H

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-! ## Buffers no item has written yet -/

theorem W1_keep (c : Dev nD) (r : Ref sig .tc) (h : r ∉ hostOps0_W) :
    W1 m ρ c (Proc.devRef .tc r) = m ((c : Thread nD τ).loc r) :=
  StableHlo.after_of_writes_sub hostOps0 _ hostOps0_writes h
theorem W2_keep (c : Dev nD) (r : Ref sig .tc) (hne : ∀ w, Pipeline.arrRef spec0 w ≠ r) (h : r ∉ hostOps0_W) :
    W2 m ρ c (Proc.devRef .tc r) = m ((c : Thread nD τ).loc r) :=
  (W2_of_ne m ρ c r hne).trans (W1_keep m ρ c r h)
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h

/-! ## What the attention region reads, in terms of the arguments -/

theorem V3_bo (c : Dev nD) : V3 m ρ c main_arg4 = m ((c : Thread nD τ).loc main_arg4) :=
  (W3_keep m ρ c main_arg4 (by decide)).trans (W2_keep m ρ c main_arg4 (by decide) (by decide))

theorem V3_q (c : Dev nD) : V3 m ρ c main_v6_0 = (dat0 (V1 m ρ) c).arrAt 2 cfg0.N :=
  (W3_keep m ρ c main_v6_0 (by decide)).trans (W2_arr m ρ c 2)
theorem V3_k (c : Dev nD) : V3 m ρ c main_v6_1 = (dat0 (V1 m ρ) c).arrAt 3 cfg0.N :=
  (W3_keep m ρ c main_v6_1 (by decide)).trans (W2_arr m ρ c 3)
theorem V3_v (c : Dev nD) : V3 m ρ c main_v6_2 = (dat0 (V1 m ρ) c).arrAt 4 cfg0.N :=
  (W3_keep m ρ c main_v6_2 (by decide)).trans (W2_arr m ρ c 4)

theorem V1_x (c : Dev nD) : V1 m ρ c main_arg0 = m ((c : Thread nD τ).loc main_arg0) :=
  W1_keep m ρ c main_arg0 (by decide)

/-- The column permutation sends the query, key and value columns of head `h` to that head's rows of `W_proj`. -/
theorem permF_q (h : Fin 8) (cc : Fin 32) (hh) : HostValue.permF ⟨32 * h.val + cc.val, hh⟩ = Cert.Spec.fq h cc := by
  apply Fin.ext; have := h.isLt; have := cc.isLt; simp only [HostValue.permF, Cert.Spec.fq]; omega
theorem permF_k (h : Fin 8) (cc : Fin 32) (hh) : HostValue.permF ⟨256 + 32 * h.val + cc.val, hh⟩ = Cert.Spec.fk h cc := by
  apply Fin.ext; have := h.isLt; have := cc.isLt; simp only [HostValue.permF, Cert.Spec.fk]; omega
theorem permF_v (h : Fin 8) (cc : Fin 32) (hh) : HostValue.permF ⟨512 + 32 * h.val + cc.val, hh⟩ = Cert.Spec.fv h cc := by
  apply Fin.ext; have := h.isLt; have := cc.isLt; simp only [HostValue.permF, Cert.Spec.fv]; omega

/-- A projected array's entry is the row of `x` against the selected row of `W_proj`. -/
theorem proj_of (c : Dev nD) (b : Fin 2) (l : Fin 2048) (n f : Fin 768) (hn : HostValue.permF n = f) :
    (@Finset.sum (Fin 256) EReal _ Finset.univ fun e => @HMul.hMul EReal EReal EReal _ ((V1 m ρ c main_arg0 : S2x2048x256.Idx → EReal) (ix3 b l e)) ((V1 m ρ c main_v5 : S256x768.Idx → EReal) (ix2 e n)))
      = Cert.Spec.proj (m ((c : Thread nD τ).loc main_arg0)) (m ((c : Thread nD τ).loc main_arg2)) b l f := by
  unfold Cert.Spec.proj
  refine Finset.sum_congr rfl fun e _ => ?_
  rw [V1_x m ρ c]
  have hw := HostValue.v5_apply (W0 m ρ c) e n
  rw [hn] at hw
  exact congrArg _ hw

theorem hQ (c : Dev nD) (b : Fin 2) (h : Fin 8) (l : Fin 2048) (cc : Fin 32) :
    (V3 m ρ c main_v6_0 : S2x8x2048x32.Idx → EReal) (ix4 b h l cc)
      = Cert.Spec.proj (m ((c : Thread nD τ).loc main_arg0)) (m ((c : Thread nD τ).loc main_arg2)) b l (Cert.Spec.fq h cc) := by
  rw [V3_q m ρ c, q_arr (V1 m ρ) c b h l cc]
  exact proj_of m ρ c b l _ _ (permF_q h cc _)
theorem hK (c : Dev nD) (b : Fin 2) (h : Fin 8) (l : Fin 2048) (cc : Fin 32) :
    (V3 m ρ c main_v6_1 : S2x8x2048x32.Idx → EReal) (ix4 b h l cc)
      = Cert.Spec.proj (m ((c : Thread nD τ).loc main_arg0)) (m ((c : Thread nD τ).loc main_arg2)) b l (Cert.Spec.fk h cc) := by
  rw [V3_k m ρ c, k_arr (V1 m ρ) c b h l cc]
  exact proj_of m ρ c b l _ _ (permF_k h cc _)
theorem hV (c : Dev nD) (b : Fin 2) (h : Fin 8) (l : Fin 2048) (cc : Fin 32) :
    (V3 m ρ c main_v6_2 : S2x8x2048x32.Idx → EReal) (ix4 b h l cc)
      = Cert.Spec.proj (m ((c : Thread nD τ).loc main_arg0)) (m ((c : Thread nD τ).loc main_arg2)) b l (Cert.Spec.fv h cc) := by
  rw [V3_v m ρ c, v_arr (V1 m ρ) c b h l cc]
  exact proj_of m ρ c b l _ _ (permF_v h cc _)

theorem hBi (c : Dev nD) (b : Fin 2) (q : Fin 2048) (j : Fin 16384) :
    (V3 m ρ c main_v7 : S2x2048x16384.Idx → EReal) (ix3 b q j)
      = (m ((c : Thread nD τ).loc main_arg1) : S2x2048x2048x8.Idx → EReal) (ix4 b q ⟨j.val / 8, by have := j.isLt; omega⟩ ⟨j.val % 8, Nat.mod_lt _ (by decide)⟩) :=
  (HostValue.v7_apply (W2 m ρ c) b q j).trans (congrFun (W2_keep m ρ c main_arg1 (by decide) (by decide)) _)
theorem hWo (c : Dev nD) (e f : Fin 256) :
    (V3 m ρ c main_v8 : S256x256.Idx → EReal) (ix2 e f) = (m ((c : Thread nD τ).loc main_arg3) : S256x256.Idx → EReal) (ix2 f e) :=
  (HostValue.v8_apply (W2 m ρ c) e f).trans (congrFun (W2_keep m ρ c main_arg3 (by decide) (by decide)) _)

/-! ## The result -/

/-- Under the precondition the attention region's write-backs leave the specification's result. -/
theorem value [hP : Cert.Pre_finite_inputs.Facts] (hpre : Cert.Pre_KernelIdeal m) (c : Dev nD) :
    (dat1 (V3 m ρ) c).arrAt 6 cfg1.N
      = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) := by
  obtain ⟨hx, hbias, hw, -, -⟩ := Finite.of_pre m hpre c
  rw [sweep_value (V3 m ρ) c, V3_bo m ρ c]
  exact Cert.Spec.sweep_eq_G _ _ _ _ _ hx hbias hw _ _ _ _ _ (hQ m ρ c) (hK m ρ c) (hV m ρ c) (hBi m ρ c) (hWo m ρ c)

/-- Every weakly fair execution of the idealized kernel's @main terminates with the result buffer at the
    specification's value of the arguments, and the arguments as launched. -/
theorem kernel_run [hP : Cert.Pre_finite_inputs.Facts] (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v9) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (value m ρ hpre c), (h c).2⟩) (result m ρ)

end Cert.KernelIdeal.H

end
-- ==== Proof.RefValue.lean ====
/-
  The reference program's result is the specification's function of its arguments.

  The reference is a multi-head attention with a bias: a fused projection of the input, split into heads and into
  queries, keys and values; per head and query row the scores (scaled query against key, plus bias), the row's
  maximum, the exponentials of the scores less the maximum, their sum, the quotient, the weighted sum of the values;
  the heads' channels laid side by side, projected once more, plus a bias vector.  Read index by index, each stage
  is the corresponding function of `Cert.Spec`; the composition is `Cert.Spec.G`.
-/
import proofs.«424001_j42949673623_3_alg».proof.Proof.Gen.ReferenceIdeal.Read
import proofs.«424001_j42949673623_3_alg».proof.Proof.Spec
import Idealize.ShloMosaic.PureOps.Reduce
import Idealize.ShloMosaic.PureOps.Ideal.Laws
import Idealize.ShloMosaic.Lib.ValueIdx

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The arrays -/

abbrev X0 := (⟨S2x2048x256, .f32⟩ : BufTy).Contents (Elt Ideal)
abbrev X1 := (⟨S2x2048x2048x8, .f32⟩ : BufTy).Contents (Elt Ideal)
abbrev X2 := (⟨S768x256, .f32⟩ : BufTy).Contents (Elt Ideal)
abbrev X3 := (⟨S256x256, .f32⟩ : BufTy).Contents (Elt Ideal)
abbrev X4 := (⟨S256, .f32⟩ : BufTy).Contents (Elt Ideal)

/-! ## The fused projection -/

/-- The projection read at (b, l, f): row `l` of batch `b` against feature `f`. -/
theorem t_apply (x0 : X0) (x2 : X2) (b : Fin 2) (l : Fin 2048) (f : Fin 768) :
    val_main_v0 (F := Ideal) x0 x2 (ix3 b l f) = Cert.Spec.proj x0 x2 b l f := by
  rw [val_main_v0_apply]
  unfold Cert.Spec.proj
  refine Finset.sum_congr rfl fun e _ => ?_
  have el : lidx_main_v0 (ix3 b l f) e = ix3 b l e := funext fun a => by
    match a with | ⟨0, _⟩ => rfl | ⟨1, _⟩ => rfl | ⟨2, _⟩ => rfl
  have er : ridx_main_v0 (ix3 b l f) e = ix2 f e := funext fun a => by
    match a with | ⟨0, _⟩ => rfl | ⟨1, _⟩ => rfl
  rw [el, er]

/-! ## Queries, keys and values per head -/

/-- Head `h`, row `l`, column `c` of the 96 of the split projection is feature `96 h + c` of the 768. -/
theorem idx_split (b : Fin 2) (h : Fin 8) (l : Fin 2048) (c : Fin 96) (f : Fin 768) (hf : f.val = 96 * h.val + c.val) :
    idx_main_v1 (idx_main_v2 (ix4 b h l c)) = ix3 b l f := by
  have hb : b.val < 2 := b.isLt
  have hh : h.val < 8 := h.isLt
  have hl : l.val < 2048 := l.isLt
  have hc : c.val < 96 := c.isLt
  funext a; apply Fin.ext
  match a with
  | ⟨0, _⟩ => show (((b.val * 2048 + l.val) * 8 + h.val) * 96 + c.val) / 1572864 = b.val; omega
  | ⟨1, _⟩ => show (((b.val * 2048 + l.val) * 8 + h.val) * 96 + c.val) / 768 % 2048 = l.val; omega
  | ⟨2, _⟩ => show (((b.val * 2048 + l.val) * 8 + h.val) * 96 + c.val) % 768 = f.val; omega

/-- The split projection read at (b, h, l, c). -/
theorem split_apply (x0 : X0) (x2 : X2) (b : Fin 2) (h : Fin 8) (l : Fin 2048) (c : Fin 96) (f : Fin 768)
    (hf : f.val = 96 * h.val + c.val) :
    val_main_v2 (F := Ideal) x0 x2 (ix4 b h l c) = Cert.Spec.proj x0 x2 b l f := by
  rw [val_main_v2_apply, val_main_v1_apply, idx_split b h l c f hf, t_apply]

/-- The queries: the first 32 of a head's 96 features. -/
theorem q_apply (x0 : X0) (x2 : X2) (b : Fin 2) (h : Fin 8) (l : Fin 2048) (c : Fin 32) :
    val_main_v3 (F := Ideal) x0 x2 (ix4 b h l c) = Cert.Spec.proj x0 x2 b l (Cert.Spec.fq h c) := by
  rw [val_main_v3_apply]
  have e : idx_main_v3 (ix4 b h l c) = ix4 b h l (⟨c.val, by have := c.isLt; omega⟩ : Fin 96) := funext fun a => by
    match a with | ⟨0, _⟩ => rfl | ⟨1, _⟩ => rfl | ⟨2, _⟩ => rfl | ⟨3, _⟩ => rfl
  rw [e]
  exact split_apply x0 x2 b h l _ _ rfl

/-- The keys: the second 32. -/
theorem k_apply (x0 : X0) (x2 : X2) (b : Fin 2) (h : Fin 8) (l : Fin 2048) (c : Fin 32) :
    val_main_v4 (F := Ideal) x0 x2 (ix4 b h l c) = Cert.Spec.proj x0 x2 b l (Cert.Spec.fk h c) := by
  rw [val_main_v4_apply]
  have e : idx_main_v4 (ix4 b h l c) = ix4 b h l (⟨32 + c.val, by have := c.isLt; omega⟩ : Fin 96) := funext fun a => by
    match a with | ⟨0, _⟩ => rfl | ⟨1, _⟩ => rfl | ⟨2, _⟩ => rfl | ⟨3, _⟩ => rfl
  rw [e]
  exact split_apply x0 x2 b h l _ _ (by show 96 * h.val + 32 + c.val = 96 * h.val + (32 + c.val); omega)

/-- The values: the third 32. -/
theorem v_apply (x0 : X0) (x2 : X2) (b : Fin 2) (h : Fin 8) (l : Fin 2048) (c : Fin 32) :
    val_main_v5 (F := Ideal) x0 x2 (ix4 b h l c) = Cert.Spec.proj x0 x2 b l (Cert.Spec.fv h c) := by
  rw [val_main_v5_apply]
  have e : idx_main_v5 (ix4 b h l c) = ix4 b h l (⟨64 + c.val, by have := c.isLt; omega⟩ : Fin 96) := funext fun a => by
    match a with | ⟨0, _⟩ => rfl | ⟨1, _⟩ => rfl | ⟨2, _⟩ => rfl | ⟨3, _⟩ => rfl
  rw [e]
  exact split_apply x0 x2 b h l _ _ (by show 96 * h.val + 64 + c.val = 96 * h.val + (64 + c.val); omega)

/-! ## The scores -/

/-- The score of query `q` against key `k` in head `h`: the scaled query against the key, plus the bias. -/
theorem score_apply (x0 : X0) (x1 : X1) (x2 : X2) (b : Fin 2) (h : Fin 8) (q k : Fin 2048) :
    val_main_v10 (F := Ideal) x0 x1 x2 (ix4 b h q k) = Cert.Spec.score x0 x2 x1 b h q k := by
  rw [val_main_v10_apply, val_main_v8_apply, val_main_v9_apply]
  unfold Cert.Spec.score
  have e9 : idx_main_v9 (ix4 b h q k) = ix4 b q k h := funext fun a => by
    match a with | ⟨0, _⟩ => rfl | ⟨1, _⟩ => rfl | ⟨2, _⟩ => rfl | ⟨3, _⟩ => rfl
  rw [e9, Ideal.addf_def]
  refine congrArg (· + x1 (ix4 b q k h)) (Finset.sum_congr rfl fun c _ => ?_)
  have el : lidx_main_v8 (ix4 b h q k) c = ix4 b h q c := funext fun a => by
    match a with | ⟨0, _⟩ => rfl | ⟨1, _⟩ => rfl | ⟨2, _⟩ => rfl | ⟨3, _⟩ => rfl
  have er : ridx_main_v8 (ix4 b h q k) c = ix4 b h k c := funext fun a => by
    match a with | ⟨0, _⟩ => rfl | ⟨1, _⟩ => rfl | ⟨2, _⟩ => rfl | ⟨3, _⟩ => rfl
  rw [el, er, val_main_v7_apply, val_main_v6_apply, val_main_cst_apply, q_apply, k_apply, Ideal.mulf_def, Ideal.ofBits_def]

/-! ## The row's maximum -/

/-- The scores' last axis is the one the maximum and the sum run over. -/
theorem reduces_keys : S2x8x2048x2048.Reduces [3] S2x8x2048 := by decide

/-- Row (b, h, q) with key `k` put back is (b, h, q, k). -/
theorem lift_keys (b : Fin 2) (h : Fin 8) (q : Fin 2048) (k : Fin 2048) :
    reduces_keys.lift (ix3 b h q) k = ix4 b h q k := by
  funext c; apply Fin.ext
  match c with | ⟨0, _⟩ => rfl | ⟨1, _⟩ => rfl | ⟨2, _⟩ => rfl | ⟨3, _⟩ => rfl

/-- The binary32 word of minus infinity is the bottom of the extended reals. -/
theorem ofBits_neg_inf : Ideal.ofBits .f32 0xFF800000#32 = (⊥ : EReal) := by
  simp [Ideal.ofBits, Ideal.ieee]

/-- The fold of the maximum from minus infinity over a row of any array of scores is the row's maximum. -/
theorem reduce_max_apply (y : (⟨S2x8x2048x2048, .f32⟩ : BufTy).Contents (Elt Ideal)) (b : Fin 2) (h : Fin 8) (q : Fin 2048) :
    (Host.reduce (FloatOps.maximumf (F := Ideal) (φ := .f32)) y (val_main_cst_0 (F := Ideal))
        reducesTo_S2x8x2048x2048_S2x8x2048_d3 h_S_ (ix3 b h q) : EReal)
      = Cert.Spec.rowMax (fun k => y (ix4 b h q k)) := by
  rw [Host.reduce_eq_fold_single (FloatOps.maximumf (F := Ideal) (φ := .f32)) y _ reducesTo_S2x8x2048x2048_S2x8x2048_d3
    reduces_keys h_S_]
  have hf : (y ∘ reduces_keys.lift (ix3 b h q)) = fun k : Fin 2048 => y (ix4 b h q k) :=
    funext fun k => congrArg y (lift_keys b h q k)
  have hi : val_main_cst_0 (F := Ideal) (Shape.Idx.first h_S_) = (⊥ : EReal) := by
    rw [val_main_cst_0_apply, Ideal.ofBits_def, ofBits_neg_inf]
  unfold Cert.Spec.rowMax
  rw [hi]
  exact congrArg (fun f => Finset.fold max (⊥ : EReal) f (Finset.univ : Finset (Fin 2048))) hf

/-- The reference's maximum of row (b, h, q): the maximum with minus infinity changes nothing. -/
theorem max_apply (x0 : X0) (x1 : X1) (x2 : X2) (b : Fin 2) (h : Fin 8) (q : Fin 2048) :
    val_main_v13 (F := Ideal) x0 x1 x2 (ix3 b h q) = Cert.Spec.rowMax (Cert.Spec.score x0 x2 x1 b h q) := by
  rw [val_main_v13_apply, val_main_v12_apply, val_main_cst_1_apply, Ideal.ofBits_def, ofBits_neg_inf, Ideal.maximumf_def]
  unfold val_main_v11
  rw [reduce_max_apply, max_eq_right bot_le]
  exact congrArg Cert.Spec.rowMax (funext fun k => score_apply x0 x1 x2 b h q k)

/-! ## The weights -/

/-- The exponential of a score less its row's maximum. -/
theorem e_apply (x0 : X0) (x1 : X1) (x2 : X2) (b : Fin 2) (h : Fin 8) (q k : Fin 2048) :
    val_main_v17 (F := Ideal) x0 x1 x2 (ix4 b h q k) = Cert.Spec.refE (Cert.Spec.score x0 x2 x1 b h q) k := by
  rw [val_main_v17_apply, val_main_v16_apply, val_main_v15_apply, val_main_v14_apply]
  have e : idx_main_v14 (idx_main_v15 (ix4 b h q k)) = ix3 b h q := funext fun a => by
    match a with | ⟨0, _⟩ => rfl | ⟨1, _⟩ => rfl | ⟨2, _⟩ => rfl
  rw [e, max_apply, score_apply, Ideal.hostUnary_exp_def, Ideal.subf_def]
  rfl

/-- The sum of a row's exponentials. -/
theorem z_apply (x0 : X0) (x1 : X1) (x2 : X2) (b : Fin 2) (h : Fin 8) (q : Fin 2048) :
    val_main_v18 (F := Ideal) x0 x1 x2 (ix3 b h q) = Cert.Spec.refZ (Cert.Spec.score x0 x2 x1 b h q) := by
  rw [val_main_v18_apply, val_main_cst_2_apply, Ideal.ofBits_def, Ideal.ofBits_zero_f32, zero_add]
  unfold Cert.Spec.refZ
  refine Finset.sum_congr rfl fun k _ => ?_
  have e : idx_main_v18 (ix3 b h q) k = ix4 b h q k := funext fun a => by
    match a with | ⟨0, _⟩ => rfl | ⟨1, _⟩ => rfl | ⟨2, _⟩ => rfl | ⟨3, _⟩ => rfl
  rw [e, e_apply]

/-- The softmax weight of key `k` in row (b, h, q). -/
theorem w_apply (x0 : X0) (x1 : X1) (x2 : X2) (b : Fin 2) (h : Fin 8) (q k : Fin 2048) :
    val_main_v21 (F := Ideal) x0 x1 x2 (ix4 b h q k)
      = Ideal.div (Cert.Spec.refE (Cert.Spec.score x0 x2 x1 b h q) k) (Cert.Spec.refZ (Cert.Spec.score x0 x2 x1 b h q)) := by
  rw [val_main_v21_apply, val_main_v20_apply, val_main_v19_apply]
  have e : idx_main_v19 (idx_main_v20 (ix4 b h q k)) = ix3 b h q := funext fun a => by
    match a with | ⟨0, _⟩ => rfl | ⟨1, _⟩ => rfl | ⟨2, _⟩ => rfl
  rw [e, z_apply, e_apply, Ideal.hostDivf_def]

/-! ## The attention output -/

/-- Channel `c` of head `h` at query `q`: the values weighted by the row's softmax. -/
theorem y_apply (x0 : X0) (x1 : X1) (x2 : X2) (b : Fin 2) (h : Fin 8) (c : Fin 32) (q : Fin 2048) :
    val_main_v22 (F := Ideal) x0 x1 x2 (ix4 b h c q) = Cert.Spec.attn x0 x2 x1 b q h c := by
  rw [val_main_v22_apply]
  unfold Cert.Spec.attn Cert.Spec.refAttn Cert.Spec.vrow
  refine Finset.sum_congr rfl fun k _ => ?_
  have el : lidx_main_v22 (ix4 b h c q) k = ix4 b h k c := funext fun a => by
    match a with | ⟨0, _⟩ => rfl | ⟨1, _⟩ => rfl | ⟨2, _⟩ => rfl | ⟨3, _⟩ => rfl
  have er : ridx_main_v22 (ix4 b h c q) k = ix4 b h q k := funext fun a => by
    match a with | ⟨0, _⟩ => rfl | ⟨1, _⟩ => rfl | ⟨2, _⟩ => rfl | ⟨3, _⟩ => rfl
  rw [el, er, v_apply, w_apply]

/-- Feature `e` of the 256 at row `l` is channel `e % 32` of head `e / 32`. -/
theorem idx_merge (b : Fin 2) (l : Fin 2048) (e : Fin 256) :
    idx_main_v23 (idx_main_v24 (ix3 b l e)) = ix4 b (Cert.Spec.headOf e) (Cert.Spec.chanOf e) l := by
  have hb : b.val < 2 := b.isLt
  have hl : l.val < 2048 := l.isLt
  have he : e.val < 256 := e.isLt
  funext a; apply Fin.ext
  match a with
  | ⟨0, _⟩ => show ((b.val * 2048 + l.val) * 256 + e.val) / 524288 = b.val; omega
  | ⟨1, _⟩ => show ((b.val * 2048 + l.val) * 256 + e.val) / 32 % 8 = e.val / 32; omega
  | ⟨2, _⟩ => show ((b.val * 2048 + l.val) * 256 + e.val) % 32 = e.val % 32; omega
  | ⟨3, _⟩ => show ((b.val * 2048 + l.val) * 256 + e.val) / 256 % 2048 = l.val; omega

/-- The heads' channels side by side, read at (b, l, e). -/
theorem merged_apply (x0 : X0) (x1 : X1) (x2 : X2) (b : Fin 2) (l : Fin 2048) (e : Fin 256) :
    val_main_v24 (F := Ideal) x0 x1 x2 (ix3 b l e) = Cert.Spec.attn x0 x2 x1 b l (Cert.Spec.headOf e) (Cert.Spec.chanOf e) := by
  rw [val_main_v24_apply, val_main_v23_apply, idx_merge, y_apply]

/-! ## The result -/

/-- The result read at (b, l, f): the attention output projected, plus the bias vector. -/
theorem out_apply (x0 : X0) (x1 : X1) (x2 : X2) (x3 : X3) (x4 : X4) (b : Fin 2) (l : Fin 2048) (f : Fin 256) :
    val_main_v28 (F := Ideal) x0 x1 x2 x3 x4 (ix3 b l f) = Cert.Spec.G x0 x1 x2 x3 x4 (ix3 b l f) := by
  rw [val_main_v28_apply, val_main_v25_apply, val_main_v27_apply, val_main_v26_apply, Ideal.addf_def]
  have e4 : idx_main_v26 (idx_main_v27 (ix3 b l f)) = ix1 f := funext fun a => by
    match a with | ⟨0, _⟩ => rfl
  rw [e4]
  unfold Cert.Spec.G
  refine congrArg (· + x4 (ix1 f)) (Finset.sum_congr rfl fun e _ => ?_)
  have el : lidx_main_v25 (ix3 b l f) e = ix3 b l e := funext fun a => by
    match a with | ⟨0, _⟩ => rfl | ⟨1, _⟩ => rfl | ⟨2, _⟩ => rfl
  have er : ridx_main_v25 (ix3 b l f) e = ix2 f e := funext fun a => by
    match a with | ⟨0, _⟩ => rfl | ⟨1, _⟩ => rfl
  rw [el, er, merged_apply]

/-- The reference's result is the specification's function of the arguments. -/
theorem val_eq (x0 : X0) (x1 : X1) (x2 : X2) (x3 : X3) (x4 : X4) :
    val_main_v28 (F := Ideal) x0 x1 x2 x3 x4 = Cert.Spec.G x0 x1 x2 x3 x4 := by
  funext i
  rw [eq_ix3 i]
  exact out_apply x0 x1 x2 x3 x4 (i 0) (i 1) (i 2)

/-- The run's result term is the specification's function of the launch contents of the five arguments. -/
theorem res_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v28 (F := Ideal) m c
      = Cert.Spec.G (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4)) :=
  (val_main_v28_eq (F := Ideal) m c).trans (val_eq _ _ _ _ _)

/-- Every weakly fair execution of the reference ends with the result at the specification's function of the
    arguments' launch contents, the arguments unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v28)
          = Cert.Spec.G (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3)
            = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4)
            = m ((c.tc : Thread Cert.ReferenceIdeal.nD Cert.ReferenceIdeal.τ).loc Cert.ReferenceIdeal.main_arg4)) :=
  (θ_run _ _ _).mono (fun _ h c => ⟨(h c).1.trans (res_eq m c), (h c).2⟩) (Cert.ReferenceIdeal.Value.run (F := Ideal) m ρ)

end Cert.RefValue

end
-- ==== Proof.lean ====
/-
  A fused attention layer (eight heads of width 32 over 2048 positions, two batches, a per-pair bias, the output
  projection fused in) as two Pallas kernels, against the plain formula.

  The kernel's program first permutes the columns of `W_proj` transposed so that the fused projection lands as
  contiguous query, key and value blocks, and projects `x` once (first kernel: one matmul per row block, its three
  thirds re-laid head-major).  The second kernel sweeps each query block over the keys in eight blocks of 256 with
  the online softmax: a running maximum, a denominator and a numerator kept in scratch and rescaled by
  `exp (old maximum - new maximum)` whenever a block raises the maximum; at the last key block it divides, lays the
  heads side by side, multiplies by `W_o` transposed and adds `b_o`.  The reference computes scores, subtracts the
  row maximum, exponentiates, normalises by the row sum, weights the values and projects.

  Over the extended reals, with every input finite, the two agree: the running quantities after the eighth block are
  the row maximum, `∑ exp (s - max)` and `∑ exp (s - max) · v`, because `exp a · exp b = exp (a + b)` on the reals and
  a finite factor distributes over a finite sum (the first block starts from `-∞`, whose exponential is `0`); and
  `(∑ e·v) / Z = ∑ v · (e / Z)` for a real `Z ≠ 0`.  Both programs carry the scale `32^(-1/2)` as the same binary32
  word, and format changes are the identity, so nothing else separates them.  Each program's frame — it runs to
  the end, faults nowhere, leaves its arguments unchanged — comes with its run.
-/
import proofs.«424001_j42949673623_3_alg».proof.Defs
import proofs.«424001_j42949673623_3_alg».proof.Proof.Gen.Kernel
import proofs.«424001_j42949673623_3_alg».proof.Proof.Gen.KernelIdeal
import proofs.«424001_j42949673623_3_alg».proof.Proof.Gen.ReferenceIdeal
import proofs.«424001_j42949673623_3_alg».proof.Proof.Gen.ReferenceIdeal.Run
import proofs.«424001_j42949673623_3_alg».proof.Proof.Gen.ReferenceIdeal.Read
import proofs.«424001_j42949673623_3_alg».proof.Proof.Gen.Pre_finite_inputs
import proofs.«424001_j42949673623_3_alg».proof.Proof.K.Run
import proofs.«424001_j42949673623_3_alg».proof.Proof.KI.Value
import proofs.«424001_j42949673623_3_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel (hKernel := Cert.Kernel.Gen.facts) (hPre_finite_inputs := Cert.Pre_finite_inputs.Gen.facts) :=
  fun m ρ _ => Cert.Kernel.H.frame (F := Bits) m ρ

/-- So does its reading over the extended reals. -/
theorem frame_ki : Cert.frame_KernelIdeal (hKernelIdeal := Cert.KernelIdeal.Gen.facts) (hPre_finite_inputs := Cert.Pre_finite_inputs.Gen.facts) :=
  fun m ρ _ => Cert.KernelIdeal.H.frame (F := Ideal) m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at the specification's value of the arguments, which agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨_, Cert.KernelIdeal.H.kernel_run (hP := Cert.Pre_finite_inputs.Gen.facts) m ρ hpre, ?_⟩
  refine (θ_run Cert.ReferenceIdeal.defs _ _).mono (fun _ h c => ⟨(h c).1.trans ?_, (h c).2⟩) (Cert.RefValue.ref_run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
